-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v121) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S_ : Shape := ⟨0, ![]⟩

class Facts : Prop where
  slices_S2x600000_S1x600000_0_0 : S2x600000.Slices ![0, 0] S1x600000
  shapeCasts_S1x600000_S600000 : S1x600000.ShapeCasts S600000
  bcast_S_S100000x128 : S_.BroadcastsInDim S100000x128 (![] : Fin 0 → Fin S100000x128.rank)
  reducesTo_S100000x128_S_d0_1 : S100000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S5x128 : S_.BroadcastsInDim S5x128 (![] : Fin 0 → Fin S5x128.rank)
  reducesTo_S5x128_S_d0_1 : S5x128.ReducesTo [0, 1] S_
  bcast_S_S600000 : S_.BroadcastsInDim S600000 (![] : Fin 0 → Fin S600000.rank)
  reducesTo_S600000_S_d0 : S600000.ReducesTo [0] S_

variable [Facts]

def fn_part1 {F : FTy → Type} [FloatOps F] (main_v1 : IVec S600000 32) (main_v15 : IVec S_ 1) (main_v16 : FVec F S5x128x128 .f32) (main_cst_4 : FVec F S_ .f32) : IVec S_ 1 :=
  let main_v17 : FVec F S5x128x128 .f32 := broadcastInDim S5x128x128 ![] bcast_S_S5x128x128 main_cst_4
  let main_v18 : IVec S5x128x128 1 := cmpf .olt main_v16 main_v17
  let main_c_5 : IVec S_ 1 := constantI S_ 1 1#1
  let main_v19 : IVec S_ 1 := (fun x v => Host.reduce IntOp.andi x v reducesTo_S5x128x128_S_d0_1_2 h_S_) main_v18 main_c_5
  let main_v20 : IVec S_ 1 := andi main_v15 main_v19
  let main_c_6 : IVec S_ 32 := constantI S_ 32 4294867296#32
  let main_v21 : IVec S600000 32 := broadcastInDim S600000 ![] bcast_S_S600000 main_c_6
  let main_v22 : IVec S600000 1 := cmpi .sge main_v1 main_v21
  let main_c_7 : IVec S_ 32 := constantI S_ 32 100000#32
  let main_v23 : IVec S600000 32 := broadcastInDim S600000 ![] bcast_S_S600000 main_c_7
  let main_v24 : IVec S600000 1 := cmpi .slt main_v1 main_v23
  let main_v25 : IVec S600000 1 := andi main_v22 main_v24
  let main_c_8 : IVec S_ 1 := constantI S_ 1 1#1
  let main_v26 : IVec S_ 1 := (fun x v => Host.reduce IntOp.andi x v reducesTo_S600000_S_d0 h_S_) main_v25 main_c_8
  let main_v27 : IVec S_ 1 := andi main_v20 main_v26
  main_v27

def fn {F : FTy → Type} [FloatOps F] (main_arg0 : FVec F S100000x128 .f32) (main_arg1 : IVec S2x600000 32) (main_arg2 : FVec F S5x128x128 .f32) (main_arg3 : FVec F S5x128 .f32) (main_arg4 : FVec F S5x128x128 .f32) : IVec S_ 1 :=
  let main_v0 : IVec S1x600000 32 := (extractStridedSlice S1x600000 ![0, 0] · slices_S2x600000_S1x600000_0_0) main_arg1
  let main_v1 : IVec S600000 32 := shapeCast S600000 main_v0 shapeCasts_S1x600000_S600000
  let main_v2 : FVec F S100000x128 .f32 := Host.absf main_arg0
  let main_cst : FVec F S_ .f32 := constant S_ .f32 0x7F800000#32
  let main_v3 : FVec F S100000x128 .f32 := broadcastInDim S100000x128 ![] bcast_S_S100000x128 main_cst
  let main_v4 : IVec S100000x128 1 := cmpf .olt main_v2 main_v3
  let main_c : IVec S_ 1 := constantI S_ 1 1#1
  let main_v5 : IVec S_ 1 := (fun x v => Host.reduce IntOp.andi x v reducesTo_S100000x128_S_d0_1 h_S_) main_v4 main_c
  let main_v6 : FVec F S5x128x128 .f32 := Host.absf main_arg2
  let main_cst_0 : FVec F S_ .f32 := constant S_ .f32 0x7F800000#32
  let main_v7 : FVec F S5x128x128 .f32 := broadcastInDim S5x128x128 ![] bcast_S_S5x128x128 main_cst_0
  let main_v8 : IVec S5x128x128 1 := cmpf .olt main_v6 main_v7
  let main_c_1 : IVec S_ 1 := constantI S_ 1 1#1
  let main_v9 : IVec S_ 1 := (fun x v => Host.reduce IntOp.andi x v reducesTo_S5x128x128_S_d0_1_2 h_S_) main_v8 main_c_1
  let main_v10 : IVec S_ 1 := andi main_v5 main_v9
  let main_v11 : FVec F S5x128 .f32 := Host.absf main_arg3
  let main_cst_2 : FVec F S_ .f32 := constant S_ .f32 0x7F800000#32
  let main_v12 : FVec F S5x128 .f32 := broadcastInDim S5x128 ![] bcast_S_S5x128 main_cst_2
  let main_v13 : IVec S5x128 1 := cmpf .olt main_v11 main_v12
  let main_c_3 : IVec S_ 1 := constantI S_ 1 1#1
  let main_v14 : IVec S_ 1 := (fun x v => Host.reduce IntOp.andi x v reducesTo_S5x128_S_d0_1 h_S_) main_v13 main_c_3
  let main_v15 : IVec S_ 1 := andi main_v10 main_v14
  let main_v16 : FVec F S5x128x128 .f32 := Host.absf main_arg4
  let main_cst_4 : FVec F S_ .f32 := constant S_ .f32 0x7F800000#32
  fn_part1 (F := F) main_v1 main_v15 main_v16 main_cst_4
-- ==== Kernel.lean ====
abbrev S100000x128 : Shape := ⟨2, ![100000, 128]⟩
abbrev S2x600000 : Shape := ⟨2, ![2, 600000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1 : Shape := ⟨1, ![1]⟩
abbrev S1x1 : Shape := ⟨2, ![1, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S10000x128 : Shape := ⟨2, ![10000, 128]⟩

abbrev nBuf : Space → Nat
  | .hbm => 184
  | .vmem => 53
  | .smem => 0
  | _ => 0

abbrev hbmTy0_0 (i : Nat) : BufTy := match i % 128 with
  | 0 => ⟨S100000x128, .f32⟩
  | 1 => ⟨S2x600000, .i32⟩
  | 2 => ⟨S5x128x128, .f32⟩
  | 3 => ⟨S5x128, .f32⟩
  | 4 => ⟨S5x128x128, .f32⟩
  | 5 => ⟨S1x600000, .i32⟩
  | 6 => ⟨S600000, .i32⟩
  | 7 => ⟨S1x600000, .i32⟩
  | 8 => ⟨S600000, .i32⟩
  | 9 => ⟨S_, .i32⟩
  | 10 => ⟨S600000, .i32⟩
  | 11 => ⟨S600000, .i1⟩
  | 12 => ⟨S_, .i32⟩
  | 13 => ⟨S600000, .i32⟩
  | 14 => ⟨S600000, .i32⟩
  | 15 => ⟨S600000, .i32⟩
  | 16 => ⟨S600000x1, .i32⟩
  | 17 => ⟨S1, .i32⟩
  | 18 => ⟨S_, .i32⟩
  | 19 => ⟨S600000x1, .i32⟩
  | 20 => ⟨S600000x1, .i1⟩
  | 21 => ⟨S1x1, .i32⟩
  | 22 => ⟨S600000x1, .i32⟩
  | 23 => ⟨S600000x1, .i1⟩
  | 24 => ⟨S600000x1, .i1⟩
  | 25 => ⟨S_, .i1⟩
  | 26 => ⟨S600000, .i1⟩
  | 27 => ⟨S600000x128, .f32⟩
  | 28 => ⟨S600000x128, .i1⟩
  | 29 => ⟨S_, .f32⟩
  | 30 => ⟨S600000x128, .f32⟩
  | 31 => ⟨S600000x128, .f32⟩
  | 32 => ⟨S_, .f32⟩
  | 33 => ⟨S100000x128, .f32⟩
  | 34 => ⟨S600000x1, .i32⟩
  | 35 => ⟨S100000x128, .f32⟩
  | 36 => ⟨S1x128x128, .f32⟩
  | 37 => ⟨S128x128, .f32⟩
  | 38 => ⟨S1x128, .f32⟩
  | 39 => ⟨S128, .f32⟩
  | 40 => ⟨S1x128x128, .f32⟩
  | 41 => ⟨S128x128, .f32⟩
  | 42 => ⟨S1x128, .f32⟩
  | 43 => ⟨S100000x128, .f32⟩
  | 44 => ⟨S_, .i32⟩
  | 45 => ⟨S600000, .i32⟩
  | 46 => ⟨S600000, .i1⟩
  | 47 => ⟨S_, .i32⟩
  | 48 => ⟨S600000, .i32⟩
  | 49 => ⟨S600000, .i32⟩
  | 50 => ⟨S600000, .i32⟩
  | 51 => ⟨S600000x1, .i32⟩
  | 52 => ⟨S1, .i32⟩
  | 53 => ⟨S_, .i32⟩
  | 54 => ⟨S600000x1, .i32⟩
  | 55 => ⟨S600000x1, .i1⟩
  | 56 => ⟨S1x1, .i32⟩
  | 57 => ⟨S600000x1, .i32⟩
  | 58 => ⟨S600000x1, .i1⟩
  | 59 => ⟨S600000x1, .i1⟩
  | 60 => ⟨S_, .i1⟩
  | 61 => ⟨S600000, .i1⟩
  | 62 => ⟨S600000x128, .f32⟩
  | 63 => ⟨S600000x128, .i1⟩
  | 64 => ⟨S_, .f32⟩
  | 65 => ⟨S600000x128, .f32⟩
  | 66 => ⟨S600000x128, .f32⟩
  | 67 => ⟨S_, .f32⟩
  | 68 => ⟨S100000x128, .f32⟩
  | 69 => ⟨S600000x1, .i32⟩
  | 70 => ⟨S100000x128, .f32⟩
  | 71 => ⟨S1x128x128, .f32⟩
  | 72 => ⟨S128x128, .f32⟩
  | 73 => ⟨S1x128, .f32⟩
  | 74 => ⟨S128, .f32⟩
  | 75 => ⟨S1x128x128, .f32⟩
  | 76 => ⟨S128x128, .f32⟩
  | 77 => ⟨S1x128, .f32⟩
  | 78 => ⟨S100000x128, .f32⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S1, .i32⟩
  | 88 => ⟨S_, .i32⟩
  | 89 => ⟨S600000x1, .i32⟩
  | 90 => ⟨S600000x1, .i1⟩
  | 91 => ⟨S1x1, .i32⟩
  | 92 => ⟨S600000x1, .i32⟩
  | 93 => ⟨S600000x1, .i1⟩
  | 94 => ⟨S600000x1, .i1⟩
  | 95 => ⟨S_, .i1⟩
  | 96 => ⟨S600000, .i1⟩
  | 97 => ⟨S600000x128, .f32⟩
  | 98 => ⟨S600000x128, .i1⟩
  | 99 => ⟨S_, .f32⟩
  | 100 => ⟨S600000x128, .f32⟩
  | 101 => ⟨S600000x128, .f32⟩
  | 102 => ⟨S_, .f32⟩
  | 103 => ⟨S100000x128, .f32⟩
  | 104 => ⟨S600000x1, .i32⟩
  | 105 => ⟨S100000x128, .f32⟩
  | 106 => ⟨S1x128x128, .f32⟩
  | 107 => ⟨S128x128, .f32⟩
  | 108 => ⟨S1x128, .f32⟩
  | 109 => ⟨S128, .f32⟩
  | 110 => ⟨S1x128x128, .f32⟩
  | 111 => ⟨S128x128, .f32⟩
  | 112 => ⟨S1x128, .f32⟩
  | 113 => ⟨S100000x128, .f32⟩
  | 114 => ⟨S_, .i32⟩
  | 115 => ⟨S600000, .i32⟩
  | 116 => ⟨S600000, .i1⟩
  | 117 => ⟨S_, .i32⟩
  | 118 => ⟨S600000, .i32⟩
  | 119 => ⟨S600000, .i32⟩
  | 120 => ⟨S600000, .i32⟩
  | 121 => ⟨S600000x1, .i32⟩
  | 122 => ⟨S1, .i32⟩
  | 123 => ⟨S_, .i32⟩
  | 124 => ⟨S600000x1, .i32⟩
  | 125 => ⟨S600000x1, .i1⟩
  | 126 => ⟨S1x1, .i32⟩
  | 127 => ⟨S600000x1, .i32⟩
  | _ => ⟨S100000x128, .f32⟩

abbrev hbmTy0_1 (i : Nat) : BufTy := match i % 128 with
  | 0 => ⟨S600000x1, .i1⟩
  | 1 => ⟨S600000x1, .i1⟩
  | 2 => ⟨S_, .i1⟩
  | 3 => ⟨S600000, .i1⟩
  | 4 => ⟨S600000x128, .f32⟩
  | 5 => ⟨S600000x128, .i1⟩
  | 6 => ⟨S_, .f32⟩
  | 7 => ⟨S600000x128, .f32⟩
  | 8 => ⟨S600000x128, .f32⟩
  | 9 => ⟨S_, .f32⟩
  | 10 => ⟨S100000x128, .f32⟩
  | 11 => ⟨S600000x1, .i32⟩
  | 12 => ⟨S100000x128, .f32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S100000x128, .f32⟩
  | 21 => ⟨S_, .i32⟩
  | 22 => ⟨S600000, .i32⟩
  | 23 => ⟨S600000, .i1⟩
  | 24 => ⟨S_, .i32⟩
  | 25 => ⟨S600000, .i32⟩
  | 26 => ⟨S600000, .i32⟩
  | 27 => ⟨S600000, .i32⟩
  | 28 => ⟨S600000x1, .i32⟩
  | 29 => ⟨S1, .i32⟩
  | 30 => ⟨S_, .i32⟩
  | 31 => ⟨S600000x1, .i32⟩
  | 32 => ⟨S600000x1, .i1⟩
  | 33 => ⟨S1x1, .i32⟩
  | 34 => ⟨S600000x1, .i32⟩
  | 35 => ⟨S600000x1, .i1⟩
  | 36 => ⟨S600000x1, .i1⟩
  | 37 => ⟨S_, .i1⟩
  | 38 => ⟨S600000, .i1⟩
  | 39 => ⟨S600000x128, .f32⟩
  | 40 => ⟨S600000x128, .i1⟩
  | 41 => ⟨S_, .f32⟩
  | 42 => ⟨S600000x128, .f32⟩
  | 43 => ⟨S600000x128, .f32⟩
  | 44 => ⟨S_, .f32⟩
  | 45 => ⟨S100000x128, .f32⟩
  | 46 => ⟨S600000x1, .i32⟩
  | 47 => ⟨S100000x128, .f32⟩
  | 48 => ⟨S1x128x128, .f32⟩
  | 49 => ⟨S128x128, .f32⟩
  | 50 => ⟨S1x128, .f32⟩
  | 51 => ⟨S128, .f32⟩
  | 52 => ⟨S1x128x128, .f32⟩
  | 53 => ⟨S128x128, .f32⟩
  | 54 => ⟨S1x128, .f32⟩
  | 55 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S10000x128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x128, .f32⟩
  | .local _ .vmem, ⟨33, _⟩ => ⟨S10000x128, .f32⟩
  | .local _ .vmem, ⟨34, _⟩ => ⟨S10000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S10000x128, .f32⟩
  | .local _ .vmem, ⟨39, _⟩ => ⟨S10000x128, .f32⟩
  | .local _ .vmem, ⟨40, _⟩ => ⟨S10000x128, .f32⟩
  | .local _ .vmem, ⟨41, _⟩ => ⟨S10000x128, .f32⟩
  | .local _ .vmem, ⟨42, _⟩ => ⟨S10000x128, .f32⟩
  | .local _ .vmem, ⟨43, _⟩ => ⟨S10000x128, .f32⟩
  | .local _ .vmem, ⟨44, _⟩ => ⟨S10000x128, .f32⟩
  | .local _ .vmem, ⟨45, _⟩ => ⟨S10000x128, .f32⟩
  | .local _ .vmem, ⟨46, _⟩ => ⟨S128x128, .f32⟩
  | .local _ .vmem, ⟨47, _⟩ => ⟨S1x128, .f32⟩
  | .local _ .vmem, ⟨48, _⟩ => ⟨S128x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v4 : Ref sig .tc := ⟨.hbm, 31, rfl⟩
abbrev main_cst : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_call1_c : Ref sig .tc := ⟨.hbm, 44, rfl⟩
abbrev main_call1_v0 : Ref sig .tc := ⟨.hbm, 45, rfl⟩
abbrev main_call1_v1 : Ref sig .tc := ⟨.hbm, 46, rfl⟩
abbrev main_call1_c_0 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_c_1 : Ref sig .tc := ⟨.hbm, 52, rfl⟩
abbrev main_call1_c_2 : Ref sig .tc := ⟨.hbm, 53, rfl⟩
abbrev main_call1_v6 : Ref sig .tc := ⟨.hbm, 54, rfl⟩
abbrev main_call1_v7 : Ref sig .tc := ⟨.hbm, 55, rfl⟩
abbrev main_call1_v8 : Ref sig .tc := ⟨.hbm, 56, rfl⟩
abbrev main_call1_v9 : Ref sig .tc := ⟨.hbm, 57, rfl⟩
abbrev main_call1_v10 : Ref sig .tc := ⟨.hbm, 58, rfl⟩
abbrev main_call1_v11 : Ref sig .tc := ⟨.hbm, 59, rfl⟩
abbrev main_call1_c_3 : Ref sig .tc := ⟨.hbm, 60, rfl⟩
abbrev main_call1_v12 : Ref sig .tc := ⟨.hbm, 61, rfl⟩
abbrev main_call1_v13 : Ref sig .tc := ⟨.hbm, 62, rfl⟩
abbrev main_call1_v14 : Ref sig .tc := ⟨.hbm, 63, rfl⟩
abbrev main_call1_cst : Ref sig .tc := ⟨.hbm, 64, rfl⟩
abbrev main_call1_v15 : Ref sig .tc := ⟨.hbm, 65, rfl⟩
abbrev main_v16 : Ref sig .tc := ⟨.hbm, 66, rfl⟩
abbrev main_cst_0 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_call2_c : Ref sig .tc := ⟨.hbm, 79, rfl⟩
abbrev main_call2_v0 : Ref sig .tc := ⟨.hbm, 80, rfl⟩
abbrev main_call2_v1 : Ref sig .tc := ⟨.hbm, 81, rfl⟩
abbrev main_call2_c_0 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_call2_v5 : Ref sig .tc := ⟨.hbm, 86, rfl⟩
abbrev main_call2_c_1 : Ref sig .tc := ⟨.hbm, 87, rfl⟩
abbrev main_call2_c_2 : Ref sig .tc := ⟨.hbm, 88, rfl⟩
abbrev main_call2_v6 : Ref sig .tc := ⟨.hbm, 89, rfl⟩
abbrev main_call2_v7 : Ref sig .tc := ⟨.hbm, 90, rfl⟩
abbrev main_call2_v8 : Ref sig .tc := ⟨.hbm, 91, rfl⟩
abbrev main_call2_v9 : Ref sig .tc := ⟨.hbm, 92, rfl⟩
abbrev main_call2_v10 : Ref sig .tc := ⟨.hbm, 93, rfl⟩
abbrev main_call2_v11 : Ref sig .tc := ⟨.hbm, 94, rfl⟩
abbrev main_call2_c_3 : Ref sig .tc := ⟨.hbm, 95, rfl⟩
abbrev main_call2_v12 : Ref sig .tc := ⟨.hbm, 96, rfl⟩
abbrev main_call2_v13 : Ref sig .tc := ⟨.hbm, 97, rfl⟩
abbrev main_call2_v14 : Ref sig .tc := ⟨.hbm, 98, rfl⟩
abbrev main_call2_cst : Ref sig .tc := ⟨.hbm, 99, rfl⟩
abbrev main_call2_v15 : Ref sig .tc := ⟨.hbm, 100, rfl⟩
abbrev main_v28 : Ref sig .tc := ⟨.hbm, 101, rfl⟩
abbrev main_cst_1 : Ref sig .tc := ⟨.hbm, 102, rfl⟩
abbrev main_v29 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_v33 : Ref sig .tc := ⟨.hbm, 107, rfl⟩
abbrev main_v34 : Ref sig .tc := ⟨.hbm, 108, rfl⟩
abbrev main_v35 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v40 : Ref sig .tc := ⟨.hbm, 136, rfl⟩
abbrev main_cst_2 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩
abbrev main_v45 : Ref sig .tc := ⟨.hbm, 142, rfl⟩
abbrev main_v46 : Ref sig .tc := ⟨.hbm, 143, rfl⟩
abbrev main_v47 : Ref sig .tc := ⟨.hbm, 144, rfl⟩
abbrev main_v48 : Ref sig .tc := ⟨.hbm, 145, rfl⟩
abbrev main_v49 : Ref sig .tc := ⟨.hbm, 146, rfl⟩
abbrev main_v50 : Ref sig .tc := ⟨.hbm, 147, rfl⟩
abbrev main_v51 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v52 : Ref sig .tc := ⟨.hbm, 171, rfl⟩
abbrev main_cst_3 : Ref sig .tc := ⟨.hbm, 172, rfl⟩
abbrev main_v53 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩
abbrev main_v57 : Ref sig .tc := ⟨.hbm, 177, rfl⟩
abbrev main_v58 : Ref sig .tc := ⟨.hbm, 178, rfl⟩
abbrev main_v59 : Ref sig .tc := ⟨.hbm, 179, rfl⟩
abbrev main_v60 : Ref sig .tc := ⟨.hbm, 180, rfl⟩
abbrev main_v61 : Ref sig .tc := ⟨.hbm, 181, rfl⟩
abbrev main_v62 : Ref sig .tc := ⟨.hbm, 182, rfl⟩
abbrev main_v63 : Ref sig .tc := ⟨.hbm, 183, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg1_1 : Ref sig .tc := ⟨.vmem, 45, rfl⟩
abbrev cc4_stg2_0 : Ref sig .tc := ⟨.vmem, 46, rfl⟩
abbrev cc4_stg3_0 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg5_1 : Ref sig .tc := ⟨.vmem, 50, rfl⟩
abbrev cc4_stg6_0 : Ref sig .tc := ⟨.vmem, 51, rfl⟩
abbrev cc4_stg6_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem3_0 : DmaSem sig := 47
abbrev cc4_sem4_0 : DmaSem sig := 48
abbrev cc4_sem5_0 : DmaSem sig := 49
abbrev cc4_sem5_1 : DmaSem sig := 50
abbrev cc4_sem6_0 : DmaSem sig := 51
abbrev cc4_sem6_1 : DmaSem sig := 52

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S10000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S10000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S10000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S10000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S600000x1 : S_.BroadcastsInDim S600000x1 (![] : Fin 0 → Fin S600000x1.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  reducesTo_S600000x1_S600000_d1 : S600000x1.ReducesTo [1] S600000
  h_S_ : 0 < S_.numel
  bcast_S600000_S600000x128_0 : S600000.BroadcastsInDim S600000x128 (![0] : Fin 1 → Fin S600000x128.rank)
  bcast_S_S600000x128 : S_.BroadcastsInDim S600000x128 (![] : Fin 0 → Fin S600000x128.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x128.size a ≤ S100000x128.size a
  hwx1_5 : ∀ i : grid1.Coords, EltTy.bits .f32 = 32 ∨ (Rect.block (s := S100000x128) S10000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S100000x128.size a
  hwx2_1 : ∀ i : grid2.Coords, EltTy.bits .f32 = 32 ∨ (Rect.block (s := S100000x128) S10000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S10000x128.size a ≤ S100000x128.size a
  hwx2_5 : ∀ i : grid2.Coords, EltTy.bits .f32 = 32 ∨ (Rect.block (s := S100000x128) S10000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x128.size a ≤ S100000x128.size a
  hwx3_1 : ∀ i : grid3.Coords, EltTy.bits .f32 = 32 ∨ (Rect.block (s := S100000x128) S10000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S10000x128.size a ≤ S100000x128.size a
  hwx3_5 : ∀ i : grid3.Coords, EltTy.bits .f32 = 32 ∨ (Rect.block (s := S100000x128) S10000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S10000x128.size a ≤ S100000x128.size a
  hwx3_6 : ∀ i : grid3.Coords, EltTy.bits .f32 = 32 ∨ (Rect.block (s := S100000x128) S10000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S100000x128.size a
  hwx4_1 : ∀ i : grid4.Coords, EltTy.bits .f32 = 32 ∨ (Rect.block (s := S100000x128) S10000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x128.size a ≤ S100000x128.size a
  hwx4_5 : ∀ i : grid4.Coords, EltTy.bits .f32 = 32 ∨ (Rect.block (s := S100000x128) S10000x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S10000x128.size a ≤ S100000x128.size a
  hwx4_6 : ∀ i : grid4.Coords, EltTy.bits .f32 = 32 ∨ (Rect.block (s := S100000x128) S10000x128.size (cc4_transform_6 i) (hinb4_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_v7) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v19) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S10000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v27) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v31) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v27) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v27) S10000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v39) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v43) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S10000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v45) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v49) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v39) S10000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v51) S10000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v55) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v51) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v57) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v62) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S10000x128.size cc4_transform_5 reads4_5 false false 2 stage4_5 sem4_5
    hrank4 hreads4_5 hinb4_5 nbuf4_5 (Memref.isWhole_whole _) hwx4_5 hstage4_5

abbrev win4_6 : Pipeline.Window sig grid4 :=
  Pipeline.Window.ofSpec (Memref.whole main_v63) S10000x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x600000 : Shape := ⟨2, ![2, 600000]⟩
abbrev S5x128x128 : Shape := ⟨3, ![5, 128, 128]⟩
abbrev S5x128 : Shape := ⟨2, ![5, 128]⟩
abbrev S1x600000 : Shape := ⟨2, ![1, 600000]⟩
abbrev S600000 : Shape := ⟨1, ![600000]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S_ : Shape := ⟨0, ![]⟩
abbrev S600000x1 : Shape := ⟨2, ![600000, 1]⟩
abbrev S600000x128 : Shape := ⟨2, ![600000, 128]⟩

abbrev nBuf : Space → Nat
  | .hbm => 150
  | .vmem => 0
  | .smem => 0
  | _ => 0

abbrev hbmTy0_0 (i : Nat) : BufTy := match i % 128 with
  | 0 => ⟨S100000x128, .f32⟩
  | 1 => ⟨S2x600000, .i32⟩
  | 2 => ⟨S5x128x128, .f32⟩
  | 3 => ⟨S5x128, .f32⟩
  | 4 => ⟨S5x128x128, .f32⟩
  | 5 => ⟨S1x600000, .i32⟩
  | 6 => ⟨S600000, .i32⟩
  | 7 => ⟨S1x600000, .i32⟩
  | 8 => ⟨S600000, .i32⟩
  | 9 => ⟨S1x128x128, .f32⟩
  | 10 => ⟨S128x128, .f32⟩
  | 11 => ⟨S1x128, .f32⟩
  | 12 => ⟨S128, .f32⟩
  | 13 => ⟨S1x128x128, .f32⟩
  | 14 => ⟨S128x128, .f32⟩
  | 15 => ⟨S_, .i32⟩
  | 16 => ⟨S600000, .i32⟩
  | 17 => ⟨S600000, .i1⟩
  | 18 => ⟨S_, .i32⟩
  | 19 => ⟨S600000, .i32⟩
  | 20 => ⟨S600000, .i32⟩
  | 21 => ⟨S600000, .i32⟩
  | 22 => ⟨S600000x1, .i32⟩
  | 23 => ⟨S600000x128, .f32⟩
  | 24 => ⟨S_, .f32⟩
  | 25 => ⟨S100000x128, .f32⟩
  | 26 => ⟨S600000x1, .i32⟩
  | 27 => ⟨S100000x128, .f32⟩
  | 28 => ⟨S100000x128, .f32⟩
  | 29 => ⟨S1x128, .f32⟩
  | 30 => ⟨S100000x128, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x128x128, .f32⟩
  | 38 => ⟨S128x128, .f32⟩
  | 39 => ⟨S1x128, .f32⟩
  | 40 => ⟨S128, .f32⟩
  | 41 => ⟨S1x128x128, .f32⟩
  | 42 => ⟨S128x128, .f32⟩
  | 43 => ⟨S_, .i32⟩
  | 44 => ⟨S600000, .i32⟩
  | 45 => ⟨S600000, .i1⟩
  | 46 => ⟨S_, .i32⟩
  | 47 => ⟨S600000, .i32⟩
  | 48 => ⟨S600000, .i32⟩
  | 49 => ⟨S600000, .i32⟩
  | 50 => ⟨S600000x1, .i32⟩
  | 51 => ⟨S600000x128, .f32⟩
  | 52 => ⟨S_, .f32⟩
  | 53 => ⟨S100000x128, .f32⟩
  | 54 => ⟨S600000x1, .i32⟩
  | 55 => ⟨S100000x128, .f32⟩
  | 56 => ⟨S100000x128, .f32⟩
  | 57 => ⟨S1x128, .f32⟩
  | 58 => ⟨S100000x128, .f32⟩
  | 59 => ⟨S100000x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S1x128x128, .f32⟩
  | 67 => ⟨S128x128, .f32⟩
  | 68 => ⟨S1x128, .f32⟩
  | 69 => ⟨S128, .f32⟩
  | 70 => ⟨S1x128x128, .f32⟩
  | 71 => ⟨S128x128, .f32⟩
  | 72 => ⟨S_, .i32⟩
  | 73 => ⟨S600000, .i32⟩
  | 74 => ⟨S600000, .i1⟩
  | 75 => ⟨S_, .i32⟩
  | 76 => ⟨S600000, .i32⟩
  | 77 => ⟨S600000, .i32⟩
  | 78 => ⟨S600000, .i32⟩
  | 79 => ⟨S600000x1, .i32⟩
  | 80 => ⟨S600000x128, .f32⟩
  | 81 => ⟨S_, .f32⟩
  | 82 => ⟨S100000x128, .f32⟩
  | 83 => ⟨S600000x1, .i32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x128, .f32⟩
  | 95 => ⟨S1x128x128, .f32⟩
  | 96 => ⟨S128x128, .f32⟩
  | 97 => ⟨S1x128, .f32⟩
  | 98 => ⟨S128, .f32⟩
  | 99 => ⟨S1x128x128, .f32⟩
  | 100 => ⟨S128x128, .f32⟩
  | 101 => ⟨S_, .i32⟩
  | 102 => ⟨S600000, .i32⟩
  | 103 => ⟨S600000, .i1⟩
  | 104 => ⟨S_, .i32⟩
  | 105 => ⟨S600000, .i32⟩
  | 106 => ⟨S600000, .i32⟩
  | 107 => ⟨S600000, .i32⟩
  | 108 => ⟨S600000x1, .i32⟩
  | 109 => ⟨S600000x128, .f32⟩
  | 110 => ⟨S_, .f32⟩
  | 111 => ⟨S100000x128, .f32⟩
  | 112 => ⟨S600000x1, .i32⟩
  | 113 => ⟨S100000x128, .f32⟩
  | 114 => ⟨S100000x128, .f32⟩
  | 115 => ⟨S1x128, .f32⟩
  | 116 => ⟨S100000x128, .f32⟩
  | 117 => ⟨S100000x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S100000x128, .f32⟩
  | 124 => ⟨S1x128x128, .f32⟩
  | 125 => ⟨S128x128, .f32⟩
  | 126 => ⟨S1x128, .f32⟩
  | 127 => ⟨S128, .f32⟩
  | _ => ⟨S100000x128, .f32⟩

abbrev hbmTy0_1 (i : Nat) : BufTy := match i % 128 with
  | 0 => ⟨S1x128x128, .f32⟩
  | 1 => ⟨S128x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S100000x128, .f32⟩
  | 13 => ⟨S600000x1, .i32⟩
  | 14 => ⟨S100000x128, .f32⟩
  | 15 => ⟨S100000x128, .f32⟩
  | 16 => ⟨S1x128, .f32⟩
  | 17 => ⟨S100000x128, .f32⟩
  | 18 => ⟨S100000x128, .f32⟩
  | 19 => ⟨S100000x128, .f32⟩
  | 20 => ⟨S100000x128, .f32⟩
  | 21 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_cst : Ref sig .tc := ⟨.hbm, 34, rfl⟩
abbrev main_call0_v0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_c_1 : Ref sig .tc := ⟨.hbm, 43, rfl⟩
abbrev main_v33 : Ref sig .tc := ⟨.hbm, 44, rfl⟩
abbrev main_v34 : Ref sig .tc := ⟨.hbm, 45, rfl⟩
abbrev main_c_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_call1_cst : Ref sig .tc := ⟨.hbm, 62, rfl⟩
abbrev main_call1_v0 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_c_4 : Ref sig .tc := ⟨.hbm, 72, rfl⟩
abbrev main_v57 : Ref sig .tc := ⟨.hbm, 73, rfl⟩
abbrev main_v58 : Ref sig .tc := ⟨.hbm, 74, rfl⟩
abbrev main_c_5 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_6 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_call2_cst : Ref sig .tc := ⟨.hbm, 91, rfl⟩
abbrev main_call2_v0 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_c_7 : Ref sig .tc := ⟨.hbm, 101, rfl⟩
abbrev main_v81 : Ref sig .tc := ⟨.hbm, 102, rfl⟩
abbrev main_v82 : Ref sig .tc := ⟨.hbm, 103, rfl⟩
abbrev main_c_8 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_cst_9 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_call3_cst : Ref sig .tc := ⟨.hbm, 120, rfl⟩
abbrev main_call3_v0 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_c_10 : Ref sig .tc := ⟨.hbm, 130, rfl⟩
abbrev main_v105 : Ref sig .tc := ⟨.hbm, 131, rfl⟩
abbrev main_v106 : Ref sig .tc := ⟨.hbm, 132, rfl⟩
abbrev main_c_11 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_cst_12 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  slices_S5x128x128_S1x128x128_0_0_0 : S5x128x128.Slices ![0, 0, 0] S1x128x128
  shapeCasts_S1x128x128_S128x128 : S1x128x128.ShapeCasts S128x128
  slices_S5x128_S1x128_0_0 : S5x128.Slices ![0, 0] S1x128
  shapeCasts_S1x128_S128 : S1x128.ShapeCasts S128
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S5x128x128_S1x128x128_1_0_0 : S5x128x128.Slices ![1, 0, 0] S1x128x128
  slices_S5x128_S1x128_1_0 : S5x128.Slices ![1, 0] S1x128
  slices_S5x128x128_S1x128x128_2_0_0 : S5x128x128.Slices ![2, 0, 0] S1x128x128
  slices_S5x128_S1x128_2_0 : S5x128.Slices ![2, 0] S1x128
  slices_S5x128x128_S1x128x128_3_0_0 : S5x128x128.Slices ![3, 0, 0] S1x128x128
  slices_S5x128_S1x128_3_0 : S5x128.Slices ![3, 0] S1x128
  slices_S5x128x128_S1x128x128_4_0_0 : S5x128x128.Slices ![4, 0, 0] S1x128x128
  slices_S5x128_S1x128_4_0 : S5x128.Slices ![4, 0] S1x128
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.K.Reg0.lean ====
/-
  Region 0 of the program (the first GraphConv layer's dense stage, no residual): a grid of ten points, each
  taking a 10000-row block of the aggregated messages and of the node features, the three weight arrays whole,
  and writing the block's 10000 rows of the layer's output. Stated at a PARAMETER V, the buffer contents the
  region is entered from: each window's block at a point, what the body leaves in the output's staging buffer
  as a function of the input blocks, the body's triple, the pipeline's proof data and its body obligation.
-/
import proofs.«420102_j84559316123938_1_alg».proof.Proof.Gen.Kernel.Launch
import proofs.«420102_j84559316123938_1_alg».proof.Proof.Gen.Kernel.Skeleton
import proofs.«420102_j84559316123938_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store take a whole staging buffer -/

abbrev rB0 : Rect S10000x128 := Rect.unit (s := S10000x128) ![0, 0] S10000x128.size inb_S10000x128_S10000x128_0_0
abbrev rW0 : Rect S128x128 := Rect.unit (s := S128x128) ![0, 0] S128x128.size inb_S128x128_S128x128_0_0
abbrev rR0 : Rect S1x128 := Rect.unit (s := S1x128) ![0, 0] S1x128.size inb_S1x128_S1x128_0_0

/-- The output's staging buffer after the body, from the five input blocks: one store of the payload. -/
def out0_5 (x0 x1 : Vec F S10000x128 .f32) (x2 : Vec F S128x128 .f32) (x3 : Vec F S1x128 .f32) (x4 : Vec F S128x128 .f32) :
    Vec F S10000x128 .f32 :=
  View.canon [⟨rB0, k0_pay1 (View.ld x0 rB0) (View.ld x1 rB0) (View.ld x2 rW0) (View.ld x3 rR0) (View.ld x4 rW0)⟩]

/-- The one store covers the buffer. -/
theorem cover0_5 (p0 : Vec F S10000x128 .f32) (y : S10000x128.Idx) :
    ∃ pc ∈ ([⟨rB0, p0⟩] : List (View.Piece (Elt F) S10000x128 .f32)), y ∈ pc.1.set :=
  View.cover_of_tiled [⟨rB0, p0⟩] S10000x128.size (by rfl) y

/-! ## The body's triple -/

set_option maxHeartbeats 1000000 in
theorem sound_kernel0 (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (x0 x1 : Vec F S10000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gc_kernel i arg1 harg1 arg2 harg2 arg3 harg3 arg4 harg4 arg5 harg5 arg6 harg6) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and the output's at out0_5 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-! ## The body obligation -/

/-- Input window 0's current staging buffer holds its block at every point, fetched there or not: unfetched, the
    block index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: unfetched, the
    block index has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not: unfetched, the
    block index has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, fetched there or not: unfetched, the
    block index has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, fetched there or not: unfetched, the
    block index has not moved, and the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Reg1.lean ====
/-
  Region 1 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.Kernel.Launch
import proofs.«420102_j84559316123938_1_alg».proof.Proof.Gen.Kernel.Skeleton
import proofs.«420102_j84559316123938_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take a whole staging buffer -/

abbrev rB1 : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rR1 : Rect S1x128 := Rect.unit (s := S1x128) ![0, 0] S1x128.size inb_S1x128_S1x128_0_0

/-- The output's staging buffer after the body, from the six input blocks: one store of the payload. -/
def out1_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB1, k1_pay1 (View.ld x0 rB1) (View.ld x1 rB1) (View.ld x2 rW1) (View.ld x3 rR1) (View.ld x4 rW1) (View.ld x5 rB1)⟩]

/-- The one store covers the buffer. -/
theorem cover1_6 (p0 : Vec F S10000x128 .f32) (y : S10000x128.Idx) :
    ∃ pc ∈ ([⟨rB1, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out1_6 of the inputs': six loads, a load of the
    output whose value nothing reads, and one store of the payload over the whole buffer. -/
theorem sound_kernel1 (c : Dev nD) (E : Set ℕ) (i : grid1.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__gc_kernel_res i arg1 harg1 arg2 harg2 arg3 harg3 arg4 harg4 arg5 harg5 arg6 harg6 arg7 harg7) K := by
  simp only [cc1__gc_kernel_res_eq_skeleton]; unfold cc1__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover1_6 _)

/-! ## The pipeline's proof data -/

/-- The proof data of pipeline 1 on core c: the arrays as the region finds them; after the body at point t each
    input's buffer at its block and the output's at out1_6 of the input blocks; nothing owed; the two windows on the
    layer's input array hold a half share each, every other input the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨1, _⟩ => (fullShare : PosShare TreeShare).left
    | ⟨5, _⟩ => (fullShare : PosShare TreeShare).right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' staging memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Reg2.lean ====
/-
  Region 2 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.Kernel.Launch
import proofs.«420102_j84559316123938_1_alg».proof.Proof.Gen.Kernel.Skeleton
import proofs.«420102_j84559316123938_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole staging buffer -/

abbrev rB2 : Rect S10000x128 := Rect.unit (s := S10000x128) ![0, 0] S10000x128.size inb_S10000x128_S10000x128_0_0
abbrev rW2 : Rect S128x128 := Rect.unit (s := S128x128) ![0, 0] S128x128.size inb_S128x128_S128x128_0_0
abbrev rR2 : Rect S1x128 := Rect.unit (s := S1x128) ![0, 0] S1x128.size inb_S1x128_S1x128_0_0

/-- The output's staging buffer after the body, from the six input blocks: one store of the payload. -/
def out2_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB2, k2_pay1 (View.ld x0 rB2) (View.ld x1 rB2) (View.ld x2 rW2) (View.ld x3 rR2) (View.ld x4 rW2) (View.ld x5 rB2)⟩]

/-- The one store covers the buffer. -/
theorem cover2_6 (p0 : Vec F S10000x128 .f32) (y : S10000x128.Idx) :
    ∃ pc ∈ ([⟨rB2, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out2_6 of the inputs': six loads, a load of the
    output whose value nothing reads, and one store of the payload over the whole buffer. -/
theorem sound_kernel2 (c : Dev nD) (E : Set ℕ) (i : grid2.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__gc_kernel_res i arg1 harg1 arg2 harg2 arg3 harg3 arg4 harg4 arg5 harg5 arg6 harg6 arg7 harg7) K := by
  simp only [cc2__gc_kernel_res_eq_skeleton]; unfold cc2__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover2_6 _)

/-! ## The pipeline's proof data -/

/-- The proof data of pipeline 2 on core c: the arrays as the region finds them; after the body at point t each
    input's buffer at its block and the output's at out2_6 of the input blocks; nothing owed; the two windows on the
    layer's input array hold a half share each, every other input the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨1, _⟩ => (fullShare : PosShare TreeShare).left
    | ⟨5, _⟩ => (fullShare : PosShare TreeShare).right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' staging memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Reg3.lean ====
/-
  Region 3 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.Kernel.Launch
import proofs.«420102_j84559316123938_1_alg».proof.Proof.Gen.Kernel.Skeleton
import proofs.«420102_j84559316123938_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the one store take a whole staging buffer -/

abbrev rB3 : Rect S10000x128 := Rect.unit (s := S10000x128) ![0, 0] S10000x128.size inb_S10000x128_S10000x128_0_0
abbrev rW3 : Rect S128x128 := Rect.unit (s := S128x128) ![0, 0] S128x128.size inb_S128x128_S128x128_0_0
abbrev rR3 : Rect S1x128 := Rect.unit (s := S1x128) ![0, 0] S1x128.size inb_S1x128_S1x128_0_0

/-- The output's staging buffer after the body, from the six input blocks: one store of the payload. -/
def out3_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB3, k3_pay1 (View.ld x0 rB3) (View.ld x1 rB3) (View.ld x2 rW3) (View.ld x3 rR3) (View.ld x4 rW3) (View.ld x5 rB3)⟩]

/-- The one store covers the buffer. -/
theorem cover3_6 (p0 : Vec F S10000x128 .f32) (y : S10000x128.Idx) :
    ∃ pc ∈ ([⟨rB3, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out3_6 of the inputs': six loads, a load of the
    output whose value nothing reads, and one store of the payload over the whole buffer. -/
theorem sound_kernel3 (c : Dev nD) (E : Set ℕ) (i : grid3.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__gc_kernel_res i arg1 harg1 arg2 harg2 arg3 harg3 arg4 harg4 arg5 harg5 arg6 harg6 arg7 harg7) K := by
  simp only [cc3__gc_kernel_res_eq_skeleton]; unfold cc3__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover3_6 _)

/-! ## The pipeline's proof data -/

/-- The proof data of pipeline 3 on core c: the arrays as the region finds them; after the body at point t each
    input's buffer at its block and the output's at out3_6 of the input blocks; nothing owed; the two windows on the
    layer's input array hold a half share each, every other input the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨1, _⟩ => (fullShare : PosShare TreeShare).left
    | ⟨5, _⟩ => (fullShare : PosShare TreeShare).right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' staging memrefs hold their blocks, so the body's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Reg4.lean ====
/-
  Region 4 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.Kernel.Launch
import proofs.«420102_j84559316123938_1_alg».proof.Proof.Gen.Kernel.Skeleton
import proofs.«420102_j84559316123938_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and the one store take a whole staging buffer -/

abbrev rB4 : Rect S10000x128 := Rect.unit (s := S10000x128) ![0, 0] S10000x128.size inb_S10000x128_S10000x128_0_0
abbrev rW4 : Rect S128x128 := Rect.unit (s := S128x128) ![0, 0] S128x128.size inb_S128x128_S128x128_0_0
abbrev rR4 : Rect S1x128 := Rect.unit (s := S1x128) ![0, 0] S1x128.size inb_S1x128_S1x128_0_0

/-- The output's staging buffer after the body, from the six input blocks: one store of the payload. -/
def out4_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB4, k4_pay1 (View.ld x0 rB4) (View.ld x1 rB4) (View.ld x2 rW4) (View.ld x3 rR4) (View.ld x4 rW4) (View.ld x5 rB4)⟩]

/-- The one store covers the buffer. -/
theorem cover4_6 (p0 : Vec F S10000x128 .f32) (y : S10000x128.Idx) :
    ∃ pc ∈ ([⟨rB4, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out4_6 of the inputs': six loads, a load of the
    output whose value nothing reads, and one store of the payload over the whole buffer. -/
theorem sound_kernel4 (c : Dev nD) (E : Set ℕ) (i : grid4.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__gc_kernel_res i arg1 harg1 arg2 harg2 arg3 harg3 arg4 harg4 arg5 harg5 arg6 harg6 arg7 harg7) K := by
  simp only [cc4__gc_kernel_res_eq_skeleton]; unfold cc4__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover4_6 _)

/-! ## The pipeline's proof data -/

/-- The proof data of pipeline 4 on core c: the arrays as the region finds them; after the body at point t each
    input's buffer at its block and the output's at out4_6 of the input blocks; nothing owed; the two windows on the
    layer's input array hold a half share each, every other input the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q w := match w with
    | ⟨1, _⟩ => (fullShare : PosShare TreeShare).left
    | ⟨5, _⟩ => (fullShare : PosShare TreeShare).right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' staging memrefs hold their blocks, so the body's triple applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.PDats.lean ====
/-
  The proof data of all five regions as one family, each region's data taken at the buffer contents the region is
  entered from; what rides beside the buffers between two items of the program; and the condition that ties the
  unknown "what region K leaves in its output array" of the conditional frame to the pipeline's own account of
  it (the fold of the ten write-backs).
-/
import proofs.«420102_j84559316123938_1_alg».proof.Proof.Gen.Kernel.Regions
import proofs.«420102_j84559316123938_1_alg».proof.Proof.K.Reg0
import proofs.«420102_j84559316123938_1_alg».proof.Proof.K.Reg1
import proofs.«420102_j84559316123938_1_alg».proof.Proof.K.Reg2
import proofs.«420102_j84559316123938_1_alg».proof.Proof.K.Reg3
import proofs.«420102_j84559316123938_1_alg».proof.Proof.K.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents each region is entered from, read at the TensorCore's references. -/
abbrev E0 : (c : Dev nD) → (b : Ref sig .tc) → Buf (Elt F) ((c : Thread nD τ).loc b) := fun c b => V3 m c b
abbrev E1 : (c : Dev nD) → (b : Ref sig .tc) → Buf (Elt F) ((c : Thread nD τ).loc b) := fun c b => V6 m outs c b
abbrev E2 : (c : Dev nD) → (b : Ref sig .tc) → Buf (Elt F) ((c : Thread nD τ).loc b) := fun c b => V9 m outs c b
abbrev E3 : (c : Dev nD) → (b : Ref sig .tc) → Buf (Elt F) ((c : Thread nD τ).loc b) := fun c b => V12 m outs c b
abbrev E4 : (c : Dev nD) → (b : Ref sig .tc) → Buf (Elt F) ((c : Thread nD τ).loc b) := fun c b => V15 m outs c b
/-- ... and the contents each region leaves. -/
abbrev X0 : (c : Dev nD) → (b : Ref sig .tc) → Buf (Elt F) ((c : Thread nD τ).loc b) := fun c b => V4 m outs c b
abbrev X1 : (c : Dev nD) → (b : Ref sig .tc) → Buf (Elt F) ((c : Thread nD τ).loc b) := fun c b => V7 m outs c b
abbrev X2 : (c : Dev nD) → (b : Ref sig .tc) → Buf (Elt F) ((c : Thread nD τ).loc b) := fun c b => V10 m outs c b
abbrev X3 : (c : Dev nD) → (b : Ref sig .tc) → Buf (Elt F) ((c : Thread nD τ).loc b) := fun c b => V13 m outs c b
abbrev X4 : (c : Dev nD) → (b : Ref sig .tc) → Buf (Elt F) ((c : Thread nD τ).loc b) := fun c b => V16 m outs c b

/-- Every pipeline's proof data, each at its region's entry contents: a literal match on the pipeline. -/
def pdats : (p : Fin 5) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- The same rest between any two items. -/
abbrev Erest : Fin 6 → Dev nD → sProp 𝕄 := fun _ c => R c

/-- The unknown contents of the conditional frame ARE what the pipelines leave: each region's output array after the
    region is the fold of its ten write-backs. -/
structure OutsOk : Prop where
  h4 : ∀ c : Dev nD, outs 4 main_v15 c = (dat0 (E0 m) c).arrAt 5 cfg0.N
  h7 : ∀ c : Dev nD, outs 7 main_v27 c = (dat1 (E1 m outs) c).arrAt 6 cfg1.N
  h10 : ∀ c : Dev nD, outs 10 main_v39 c = (dat2 (E2 m outs) c).arrAt 6 cfg2.N
  h13 : ∀ c : Dev nD, outs 13 main_v51 c = (dat3 (E3 m outs) c).arrAt 6 cfg3.N
  h16 : ∀ c : Dev nD, outs 16 main_v63 c = (dat4 (E4 m outs) c).arrAt 6 cfg4.N

end Cert.Kernel.Hand

end
-- ==== Proof.K.Seg0.lean ====
/-
  Region 0 as one item of the program's run, over the thread state "every unscoped buffer at the contents the
  previous item left, the generator register at some state, nothing owed": entered by splitting the region's six
  arrays (distinct buffers) out of the unscoped buffers, left with them put back at the contents that differ from
  the entry contents only at the output array, which holds the fold of the ten write-backs.
-/
import proofs.«420102_j84559316123938_1_alg».proof.Proof.K.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- At region 0's exit each of its arrays holds what the pipeline leaves: an input its entry contents, the output
    the fold of the write-backs. -/
theorem hF0 (hok : OutsOk m outs) (c : Dev nD) (w : Fin cfg0.W) :
    (dat0 (E0 m) c).arrAt w cfg0.N = X0 m outs c (Pipeline.arrRef spec0 w) := by
  match w with
  | ⟨0, _⟩ => exact (((dat0 (E0 m) c).arrAt_in 0 rfl _).trans (A_eq0 (E0 m) c 0)).trans (V4_of m outs c _ (by decide)).symm
  | ⟨1, _⟩ => exact (((dat0 (E0 m) c).arrAt_in 1 rfl _).trans (A_eq0 (E0 m) c 1)).trans (V4_of m outs c _ (by decide)).symm
  | ⟨2, _⟩ => exact (((dat0 (E0 m) c).arrAt_in 2 rfl _).trans (A_eq0 (E0 m) c 2)).trans (V4_of m outs c _ (by decide)).symm
  | ⟨3, _⟩ => exact (((dat0 (E0 m) c).arrAt_in 3 rfl _).trans (A_eq0 (E0 m) c 3)).trans (V4_of m outs c _ (by decide)).symm
  | ⟨4, _⟩ => exact (((dat0 (E0 m) c).arrAt_in 4 rfl _).trans (A_eq0 (E0 m) c 4)).trans (V4_of m outs c _ (by decide)).symm
  | ⟨5, _⟩ =>
    refine (hok.h4 c).symm.trans ?_
    show outs 4 main_v15 c = Function.update (V3 m c) (Proc.devRef .tc main_v15) (outs 4 main_v15 c) (Proc.devRef .tc main_v15)
    rw [Function.update_self]

/-- Every buffer that is none of region 0's arrays is as the region found it. -/
theorem hrest0 (c : Dev nD) : ∀ b, b ∉ Finset.univ.image (Pipeline.arrRef spec0) → X0 m outs c b = E0 m c b := fun b hb =>
  V4_of m outs c b (fun h => hb (Finset.mem_image.mpr ⟨5, Finset.mem_univ _, (List.mem_singleton.mp h).symm⟩))

set_option backward.isDefEq.respectTransparency.types false in
/-- Region 0 over the thread state. -/
def reg0 (hok : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E0 m c) (X0 m outs c) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg1.lean ====
/-
  Region 1 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.K.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img1 : Finset.univ.image (Pipeline.arrRef spec1)
    = ({main_v19, main_v15, main_v21, main_v26, main_v25, main_v27} : Finset (Ref sig .tc)) := by decide

/-- Those buffers, each whole at the full share, one by one. -/
theorem arrBufs_eq1 (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v19) ↦{fullShare} W main_v19)
          ∗ (((c : Thread nD τ).loc main_v15) ↦{fullShare} W main_v15)
          ∗ (((c : Thread nD τ).loc main_v21) ↦{fullShare} W main_v21)
          ∗ (((c : Thread nD τ).loc main_v26) ↦{fullShare} W main_v26)
          ∗ (((c : Thread nD τ).loc main_v25) ↦{fullShare} W main_v25)
          ∗ (((c : Thread nD τ).loc main_v27) ↦{fullShare} W main_v27)) := by
  unfold Pipeline.arrBufs
  rw [img1, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq1 (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v19) ↦{fullShare} G 0)
          ∗ (((c : Thread nD τ).loc main_v15) ↦{(fullShare : PosShare TreeShare).left} G 1)
          ∗ (((c : Thread nD τ).loc main_v21) ↦{fullShare} G 2)
          ∗ (((c : Thread nD τ).loc main_v26) ↦{fullShare} G 3)
          ∗ (((c : Thread nD τ).loc main_v25) ↦{fullShare} G 4)
          ∗ (((c : Thread nD τ).loc main_v15) ↦{(fullShare : PosShare TreeShare).right} G 5)
          ∗ (((c : Thread nD τ).loc main_v27) ↦{fullShare} G 6)) := by
  have h : ((dat1 V c).arrays G : sProp 𝕄)
      = bigSep Finset.univ fun w : Fin 7 => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY, the arrays' part: the six buffers at contents W are the seven windows' arrays at contents that read W,
    the buffer under two windows halved between them. -/
theorem arrays_of_arrBufs1 (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  rw [arrBufs_eq1, arrays_eq1]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays1 (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  obtain rfl : G = fun w => W (Pipeline.arrRef spec1 w) := funext hG
  rw [arrBufs_eq1, arrays_eq1]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF1 (hok : OutsOk m outs) (c : Dev nD) (w : Fin cfg1.W) :
    (dat1 (E1 m outs) c).arrAt w cfg1.N = X1 m outs c (Pipeline.arrRef spec1 w) := by
  match w with
  | ⟨0, _⟩ => exact (((dat1 (E1 m outs) c).arrAt_in 0 rfl _).trans (A_eq1 (E1 m outs) c 0)).trans (V7_of m outs c _ (by decide)).symm
  | ⟨1, _⟩ => exact (((dat1 (E1 m outs) c).arrAt_in 1 rfl _).trans (A_eq1 (E1 m outs) c 1)).trans (V7_of m outs c _ (by decide)).symm
  | ⟨2, _⟩ => exact (((dat1 (E1 m outs) c).arrAt_in 2 rfl _).trans (A_eq1 (E1 m outs) c 2)).trans (V7_of m outs c _ (by decide)).symm
  | ⟨3, _⟩ => exact (((dat1 (E1 m outs) c).arrAt_in 3 rfl _).trans (A_eq1 (E1 m outs) c 3)).trans (V7_of m outs c _ (by decide)).symm
  | ⟨4, _⟩ => exact (((dat1 (E1 m outs) c).arrAt_in 4 rfl _).trans (A_eq1 (E1 m outs) c 4)).trans (V7_of m outs c _ (by decide)).symm
  | ⟨5, _⟩ => exact (((dat1 (E1 m outs) c).arrAt_in 5 rfl _).trans (A_eq1 (E1 m outs) c 5)).trans (V7_of m outs c _ (by decide)).symm
  | ⟨6, _⟩ =>
    refine (hok.h7 c).symm.trans ?_
    show outs 7 main_v27 c = Function.update (V6 m outs c) (Proc.devRef .tc main_v27) (outs 7 main_v27 c) (Proc.devRef .tc main_v27)
    rw [Function.update_self]

/-- Every buffer that is none of the region's arrays is as the region found it. -/
theorem hrest1 (c : Dev nD) : ∀ b, b ∉ Finset.univ.image (Pipeline.arrRef spec1) → X1 m outs c b = E1 m outs c b := fun b hb =>
  V7_of m outs c b (fun h => hb (Finset.mem_image.mpr ⟨6, Finset.mem_univ _, (List.mem_singleton.mp h).symm⟩))

/-- So the unscoped buffers that are no window's array hold at the exit what they held at the entry. -/
theorem rest_congr1 (c : Dev nD) :
    (Pipeline.unscopedRest (Ix := Unit) (Name := ℕ) (U := UR sig nD τ) (Lvl := ℕ) spec1 c (E1 m outs c) : sProp 𝕄)
      = Pipeline.unscopedRest (Ix := Unit) (Name := ℕ) (U := UR sig nD τ) (Lvl := ℕ) spec1 c (X1 m outs c) := by
  unfold Pipeline.unscopedRest
  exact bigSep_congr fun b hb => by rw [hrest1 m outs c b (Finset.mem_sdiff.mp hb).2]

/-- ENTRY: the unscoped buffers at the entry contents are the region's windowed arrays at those contents, each window
    at its share, beside the unscoped buffers that are no window's array. -/
theorem arrays_of_held1 (c : Dev nD) :
    (StableHlo.held (c : Thread nD τ) (Pipeline.ucRefs τ sig) (V6 m outs c) : sProp 𝕄)
      ⊢ iprop((pdats m outs 1 c).arrays ((pdats m outs 1 c).arrAt · 0)
          ∗ Pipeline.unscopedRest (Ix := Unit) (Name := ℕ) (U := UR sig nD τ) (Lvl := ℕ) spec1 c (E1 m outs c)) := by
  have hsplit := Pipeline.unscopedBufs_split₀ (Ix := Unit) (Name := ℕ) (U := UR sig nD τ) (Lvl := ℕ) cfgs 1 winFacts₀1.arr_unscoped c (E1 m outs c)
  rw [Pipeline.unscopedBufs_held] at hsplit
  rw [hsplit]
  exact BIClass.sep_mono (arrays_of_arrBufs1 (E1 m outs) c (E1 m outs c) _ (fun w => rfl)) .rfl

/-- EXIT: the windowed arrays at what the pipeline leaves and the rest as entered are the unscoped buffers at the
    exit contents. -/
theorem held_of_arrays1 (hok : OutsOk m outs) (c : Dev nD) :
    iprop((pdats m outs 1 c).arrays ((pdats m outs 1 c).arrAt · cfg1.N)
        ∗ Pipeline.unscopedRest (Ix := Unit) (Name := ℕ) (U := UR sig nD τ) (Lvl := ℕ) spec1 c (E1 m outs c))
      ⊢ (StableHlo.held (c : Thread nD τ) (Pipeline.ucRefs τ sig) (V7 m outs c) : sProp 𝕄) := by
  have hsplit := Pipeline.unscopedBufs_split₀ (Ix := Unit) (Name := ℕ) (U := UR sig nD τ) (Lvl := ℕ) cfgs 1 winFacts₀1.arr_unscoped c (X1 m outs c)
  rw [Pipeline.unscopedBufs_held] at hsplit
  rw [hsplit]
  exact BIClass.sep_mono (arrBufs_of_arrays1 (E1 m outs) c (X1 m outs c) _ (hF1 m outs hok c)) (Entails.of_eq (rest_congr1 m outs c))

set_option backward.isDefEq.respectTransparency.types false in
/-- Region 1 over the thread state. -/
def reg1 (hok : OutsOk m outs) : Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (E1 m outs) c).loose
  hwaits := Pipeline.hwaits_of_owed_zero _ _ _ _ L lv 1 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    iintro ⟨⟨Hub, Hp, HO⟩, -, -⟩
    ihave H := (arrays_of_held1 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays1 m outs hok c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg2.lean ====
/-
  Region 2 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.K.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img2 : Finset.univ.image (Pipeline.arrRef spec2)
    = ({main_v31, main_v27, main_v33, main_v38, main_v37, main_v39} : Finset (Ref sig .tc)) := by decide

/-- Those buffers, each whole at the full share, one by one. -/
theorem arrBufs_eq2 (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v31) ↦{fullShare} W main_v31)
          ∗ (((c : Thread nD τ).loc main_v27) ↦{fullShare} W main_v27)
          ∗ (((c : Thread nD τ).loc main_v33) ↦{fullShare} W main_v33)
          ∗ (((c : Thread nD τ).loc main_v38) ↦{fullShare} W main_v38)
          ∗ (((c : Thread nD τ).loc main_v37) ↦{fullShare} W main_v37)
          ∗ (((c : Thread nD τ).loc main_v39) ↦{fullShare} W main_v39)) := by
  unfold Pipeline.arrBufs
  rw [img2, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq2 (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v31) ↦{fullShare} G 0)
          ∗ (((c : Thread nD τ).loc main_v27) ↦{(fullShare : PosShare TreeShare).left} G 1)
          ∗ (((c : Thread nD τ).loc main_v33) ↦{fullShare} G 2)
          ∗ (((c : Thread nD τ).loc main_v38) ↦{fullShare} G 3)
          ∗ (((c : Thread nD τ).loc main_v37) ↦{fullShare} G 4)
          ∗ (((c : Thread nD τ).loc main_v27) ↦{(fullShare : PosShare TreeShare).right} G 5)
          ∗ (((c : Thread nD τ).loc main_v39) ↦{fullShare} G 6)) := by
  have h : ((dat2 V c).arrays G : sProp 𝕄)
      = bigSep Finset.univ fun w : Fin 7 => (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY, the arrays' part: the six buffers at contents W are the seven windows' arrays at contents that read W,
    the buffer under two windows halved between them. -/
theorem arrays_of_arrBufs2 (V : (c : Dev nD) → (b : Ref sig .tc) → Buf (Elt F) ((c : Thread nD τ).loc b)) (c : Dev nD)
    (W : (b : Ref sig .tc) → Buf (Elt F) ((c : Thread nD τ).loc b))
    (G : (w : Fin cfg2.W) → Buf (Elt F) ((cfg2.win w).arr.view.loc (c : Thread nD τ)))
    (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  obtain rfl : G = fun w => W (Pipeline.arrRef spec2 w) := funext hG
  rw [arrBufs_eq2, arrays_eq2]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays2 (V : (c : Dev nD) → (b : Ref sig .tc) → Buf (Elt F) ((c : Thread nD τ).loc b)) (c : Dev nD)
    (W : (b : Ref sig .tc) → Buf (Elt F) ((c : Thread nD τ).loc b))
    (G : (w : Fin cfg2.W) → Buf (Elt F) ((cfg2.win w).arr.view.loc (c : Thread nD τ)))
    (hG : ∀ w, G w = W (Pipeline.arrRef spec2 w)) :
    ((dat2 V c).arrays G : sProp 𝕄) ⊢ Pipeline.arrBufs (Ix := Unit) (Name := ℕ) (U := UR sig nD τ) (Lvl := ℕ) spec2 c W := by
  obtain rfl : G = fun w => W (Pipeline.arrRef spec2 w) := funext hG
  rw [arrBufs_eq2, arrays_eq2]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF2 (hok : OutsOk m outs) (c : Dev nD) (w : Fin cfg2.W) :
    (dat2 (E2 m outs) c).arrAt w cfg2.N = X2 m outs c (Pipeline.arrRef spec2 w) := by
  match w with
  | ⟨0, _⟩ => exact (((dat2 (E2 m outs) c).arrAt_in 0 rfl _).trans (A_eq2 (E2 m outs) c 0)).trans (V10_of m outs c _ (by decide)).symm
  | ⟨1, _⟩ => exact (((dat2 (E2 m outs) c).arrAt_in 1 rfl _).trans (A_eq2 (E2 m outs) c 1)).trans (V10_of m outs c _ (by decide)).symm
  | ⟨2, _⟩ => exact (((dat2 (E2 m outs) c).arrAt_in 2 rfl _).trans (A_eq2 (E2 m outs) c 2)).trans (V10_of m outs c _ (by decide)).symm
  | ⟨3, _⟩ => exact (((dat2 (E2 m outs) c).arrAt_in 3 rfl _).trans (A_eq2 (E2 m outs) c 3)).trans (V10_of m outs c _ (by decide)).symm
  | ⟨4, _⟩ => exact (((dat2 (E2 m outs) c).arrAt_in 4 rfl _).trans (A_eq2 (E2 m outs) c 4)).trans (V10_of m outs c _ (by decide)).symm
  | ⟨5, _⟩ => exact (((dat2 (E2 m outs) c).arrAt_in 5 rfl _).trans (A_eq2 (E2 m outs) c 5)).trans (V10_of m outs c _ (by decide)).symm
  | ⟨6, _⟩ =>
    refine (hok.h10 c).symm.trans ?_
    show outs 10 main_v39 c = Function.update (V9 m outs c) (Proc.devRef .tc main_v39) (outs 10 main_v39 c) (Proc.devRef .tc main_v39)
    rw [Function.update_self]

/-- Every buffer that is none of the region's arrays is as the region found it. -/
theorem hrest2 (c : Dev nD) : ∀ b, b ∉ Finset.univ.image (Pipeline.arrRef spec2) → X2 m outs c b = E2 m outs c b := fun b hb =>
  V10_of m outs c b (fun h => hb (Finset.mem_image.mpr ⟨6, Finset.mem_univ _, (List.mem_singleton.mp h).symm⟩))

/-- So the unscoped buffers that are no window's array hold at the exit what they held at the entry. -/
theorem rest_congr2 (c : Dev nD) :
    (Pipeline.unscopedRest (Ix := Unit) (Name := ℕ) (U := UR sig nD τ) (Lvl := ℕ) spec2 c (E2 m outs c) : sProp 𝕄)
      = Pipeline.unscopedRest (Ix := Unit) (Name := ℕ) (U := UR sig nD τ) (Lvl := ℕ) spec2 c (X2 m outs c) := by
  unfold Pipeline.unscopedRest
  exact bigSep_congr fun b hb => by rw [hrest2 m outs c b (Finset.mem_sdiff.mp hb).2]

/-- ENTRY: the unscoped buffers at the entry contents are the region's windowed arrays at those contents, each window
    at its share, beside the unscoped buffers that are no window's array. -/
theorem arrays_of_held2 (c : Dev nD) :
    (StableHlo.held (c : Thread nD τ) (Pipeline.ucRefs τ sig) (V9 m outs c) : sProp 𝕄)
      ⊢ iprop((pdats m outs 2 c).arrays ((pdats m outs 2 c).arrAt · 0)
          ∗ Pipeline.unscopedRest (Ix := Unit) (Name := ℕ) (U := UR sig nD τ) (Lvl := ℕ) spec2 c (E2 m outs c)) := by
  have hsplit := Pipeline.unscopedBufs_split₀ (Ix := Unit) (Name := ℕ) (U := UR sig nD τ) (Lvl := ℕ) cfgs 2 winFacts₀2.arr_unscoped c (E2 m outs c)
  rw [Pipeline.unscopedBufs_held] at hsplit
  rw [hsplit]
  exact BIClass.sep_mono (arrays_of_arrBufs2 (E2 m outs) c (E2 m outs c) _ (fun w => rfl)) .rfl

/-- EXIT: the windowed arrays at what the pipeline leaves and the rest as entered are the unscoped buffers at the
    exit contents. -/
theorem held_of_arrays2 (hok : OutsOk m outs) (c : Dev nD) :
    iprop((pdats m outs 2 c).arrays ((pdats m outs 2 c).arrAt · cfg2.N)
        ∗ Pipeline.unscopedRest (Ix := Unit) (Name := ℕ) (U := UR sig nD τ) (Lvl := ℕ) spec2 c (E2 m outs c))
      ⊢ (StableHlo.held (c : Thread nD τ) (Pipeline.ucRefs τ sig) (V10 m outs c) : sProp 𝕄) := by
  have hsplit := Pipeline.unscopedBufs_split₀ (Ix := Unit) (Name := ℕ) (U := UR sig nD τ) (Lvl := ℕ) cfgs 2 winFacts₀2.arr_unscoped c (X2 m outs c)
  rw [Pipeline.unscopedBufs_held] at hsplit
  rw [hsplit]
  exact BIClass.sep_mono (arrBufs_of_arrays2 (E2 m outs) c (X2 m outs c) _ (hF2 m outs hok c)) (Entails.of_eq (rest_congr2 m outs c))

set_option backward.isDefEq.respectTransparency.types false in
/-- Region 2 over the thread state. -/
def reg2 (hok : OutsOk m outs) : Pipeline.RegionSeg (pcfgs (F := F)) adm (pdats m outs) () defs₀ 𝒱₀ L lv 2 where
  win := winFacts₀2
  block_pos := block_pos2
  stage_whole := stage_whole2
  K := PEmpty
  osem k := k.elim
  ho := Pipeline.OwnSemFacts.none _
  hbody c := (body_obligation2 (E2 m outs) c).loose
  hwaits := Pipeline.hwaits_of_owed_zero _ _ _ _ L lv 2 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    iintro ⟨⟨Hub, Hp, HO⟩, -, -⟩
    ihave H := (arrays_of_held2 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays2 m outs hok c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg3.lean ====
/-
  Region 3 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.K.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img3 : Finset.univ.image (Pipeline.arrRef spec3)
    = ({main_v43, main_v39, main_v45, main_v50, main_v49, main_v51} : Finset (Ref sig .tc)) := by decide

/-- Those buffers, each whole at the full share, one by one. -/
theorem arrBufs_eq3 (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop((((c : Thread nD τ).loc main_v43) ↦{fullShare} W main_v43)
          ∗ (((c : Thread nD τ).loc main_v39) ↦{fullShare} W main_v39)
          ∗ (((c : Thread nD τ).loc main_v45) ↦{fullShare} W main_v45)
          ∗ (((c : Thread nD τ).loc main_v50) ↦{fullShare} W main_v50)
          ∗ (((c : Thread nD τ).loc main_v49) ↦{fullShare} W main_v49)
          ∗ (((c : Thread nD τ).loc main_v51) ↦{fullShare} W main_v51)) := by
  unfold Pipeline.arrBufs
  rw [img3, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq3 (V : (c : Dev nD) → (b : Ref sig .tc) → Buf (Elt F) ((c : Thread nD τ).loc b)) (c : Dev nD)
    (G : (w : Fin cfg3.W) → Buf (Elt F) ((cfg3.win w).arr.view.loc (c : Thread nD τ))) :
    ((dat3 V c).arrays G : sProp 𝕄)
      = iprop((((c : Thread nD τ).loc main_v43) ↦{fullShare} G 0)
          ∗ (((c : Thread nD τ).loc main_v39) ↦{(fullShare : PosShare TreeShare).left} G 1)
          ∗ (((c : Thread nD τ).loc main_v45) ↦{fullShare} G 2)
          ∗ (((c : Thread nD τ).loc main_v50) ↦{fullShare} G 3)
          ∗ (((c : Thread nD τ).loc main_v49) ↦{fullShare} G 4)
          ∗ (((c : Thread nD τ).loc main_v39) ↦{(fullShare : PosShare TreeShare).right} G 5)
          ∗ (((c : Thread nD τ).loc main_v51) ↦{fullShare} G 6)) := by
  have h : ((dat3 V c).arrays G : sProp 𝕄)
      = bigSep Finset.univ fun w : Fin 7 => (((c : Thread nD τ).loc (Pipeline.arrRef spec3 w)) ↦{(dat3 V c).share w} G w : sProp 𝕄) := by
    unfold Dat.arrays
    exact bigSep_congr fun w _ => by rw [(arr_whole3 w).set_eq_univ]
  rw [h, bigSep_W3]
  rfl

/-- ENTRY, the arrays' part: the six buffers at contents W are the seven windows' arrays at contents that read W,
    the buffer under two windows halved between them. -/
theorem arrays_of_arrBufs3 (V : (c : Dev nD) → (b : Ref sig .tc) → Buf (Elt F) ((c : Thread nD τ).loc b)) (c : Dev nD)
    (W : (b : Ref sig .tc) → Buf (Elt F) ((c : Thread nD τ).loc b))
    (G : (w : Fin cfg3.W) → Buf (Elt F) ((cfg3.win w).arr.view.loc (c : Thread nD τ)))
    (hG : ∀ w, G w = W (Pipeline.arrRef spec3 w)) :
    (Pipeline.arrBufs (Ix := Unit) (Name := ℕ) (U := UR sig nD τ) (Lvl := ℕ) spec3 c W : sProp 𝕄) ⊢ (dat3 V c).arrays G := by
  obtain rfl : G = fun w => W (Pipeline.arrRef spec3 w) := funext hG
  rw [arrBufs_eq3, arrays_eq3]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays3 (V : (c : Dev nD) → (b : Ref sig .tc) → Buf (Elt F) ((c : Thread nD τ).loc b)) (c : Dev nD)
    (W : (b : Ref sig .tc) → Buf (Elt F) ((c : Thread nD τ).loc b))
    (G : (w : Fin cfg3.W) → Buf (Elt F) ((cfg3.win w).arr.view.loc (c : Thread nD τ)))
    (hG : ∀ w, G w = W (Pipeline.arrRef spec3 w)) :
    ((dat3 V c).arrays G : sProp 𝕄) ⊢ Pipeline.arrBufs (Ix := Unit) (Name := ℕ) (U := UR sig nD τ) (Lvl := ℕ) spec3 c W := by
  obtain rfl : G = fun w => W (Pipeline.arrRef spec3 w) := funext hG
  rw [arrBufs_eq3, arrays_eq3]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF3 (hok : OutsOk m outs) (c : Dev nD) (w : Fin cfg3.W) :
    (dat3 (E3 m outs) c).arrAt w cfg3.N = X3 m outs c (Pipeline.arrRef spec3 w) := by
  match w with
  | ⟨0, _⟩ => exact (((dat3 (E3 m outs) c).arrAt_in 0 rfl _).trans (A_eq3 (E3 m outs) c 0)).trans (V13_of m outs c _ (by decide)).symm
  | ⟨1, _⟩ => exact (((dat3 (E3 m outs) c).arrAt_in 1 rfl _).trans (A_eq3 (E3 m outs) c 1)).trans (V13_of m outs c _ (by decide)).symm
  | ⟨2, _⟩ => exact (((dat3 (E3 m outs) c).arrAt_in 2 rfl _).trans (A_eq3 (E3 m outs) c 2)).trans (V13_of m outs c _ (by decide)).symm
  | ⟨3, _⟩ => exact (((dat3 (E3 m outs) c).arrAt_in 3 rfl _).trans (A_eq3 (E3 m outs) c 3)).trans (V13_of m outs c _ (by decide)).symm
  | ⟨4, _⟩ => exact (((dat3 (E3 m outs) c).arrAt_in 4 rfl _).trans (A_eq3 (E3 m outs) c 4)).trans (V13_of m outs c _ (by decide)).symm
  | ⟨5, _⟩ => exact (((dat3 (E3 m outs) c).arrAt_in 5 rfl _).trans (A_eq3 (E3 m outs) c 5)).trans (V13_of m outs c _ (by decide)).symm
  | ⟨6, _⟩ =>
    refine (hok.h13 c).symm.trans ?_
    show outs 13 main_v51 c = Function.update (V12 m outs c) (Proc.devRef .tc main_v51) (outs 13 main_v51 c) (Proc.devRef .tc main_v51)
    rw [Function.update_self]

/-- Every buffer that is none of the region's arrays is as the region found it. -/
theorem hrest3 (c : Dev nD) : ∀ b, b ∉ Finset.univ.image (Pipeline.arrRef spec3) → X3 m outs c b = E3 m outs c b := fun b hb =>
  V13_of m outs c b (fun h => hb (Finset.mem_image.mpr ⟨6, Finset.mem_univ _, (List.mem_singleton.mp h).symm⟩))

/-- So the unscoped buffers that are no window's array hold at the exit what they held at the entry. -/
theorem rest_congr3 (c : Dev nD) :
    (Pipeline.unscopedRest (Ix := Unit) (Name := ℕ) (U := UR sig nD τ) (Lvl := ℕ) spec3 c (E3 m outs c) : sProp 𝕄)
      = Pipeline.unscopedRest (Ix := Unit) (Name := ℕ) (U := UR sig nD τ) (Lvl := ℕ) spec3 c (X3 m outs c) := by
  unfold Pipeline.unscopedRest
  exact bigSep_congr fun b hb => by rw [hrest3 m outs c b (Finset.mem_sdiff.mp hb).2]

/-- ENTRY: the unscoped buffers at the entry contents are the region's windowed arrays at those contents, each window
    at its share, beside the unscoped buffers that are no window's array. -/
theorem arrays_of_held3 (c : Dev nD) :
    (StableHlo.held (c : Thread nD τ) (Pipeline.ucRefs τ sig) (V12 m outs c) : sProp 𝕄)
      ⊢ iprop((pdats m outs 3 c).arrays ((pdats m outs 3 c).arrAt · 0)
          ∗ Pipeline.unscopedRest (Ix := Unit) (Name := ℕ) (U := UR sig nD τ) (Lvl := ℕ) spec3 c (E3 m outs c)) := by
  have hsplit := Pipeline.unscopedBufs_split₀ (Ix := Unit) (Name := ℕ) (U := UR sig nD τ) (Lvl := ℕ) cfgs 3 winFacts₀3.arr_unscoped c (E3 m outs c)
  rw [Pipeline.unscopedBufs_held] at hsplit
  rw [hsplit]
  exact BIClass.sep_mono (arrays_of_arrBufs3 (E3 m outs) c (E3 m outs c) _ (fun w => rfl)) .rfl

/-- EXIT: the windowed arrays at what the pipeline leaves and the rest as entered are the unscoped buffers at the
    exit contents. -/
theorem held_of_arrays3 (hok : OutsOk m outs) (c : Dev nD) :
    iprop((pdats m outs 3 c).arrays ((pdats m outs 3 c).arrAt · cfg3.N)
        ∗ Pipeline.unscopedRest (Ix := Unit) (Name := ℕ) (U := UR sig nD τ) (Lvl := ℕ) spec3 c (E3 m outs c))
      ⊢ (StableHlo.held (c : Thread nD τ) (Pipeline.ucRefs τ sig) (V13 m outs c) : sProp 𝕄) := by
  have hsplit := Pipeline.unscopedBufs_split₀ (Ix := Unit) (Name := ℕ) (U := UR sig nD τ) (Lvl := ℕ) cfgs 3 winFacts₀3.arr_unscoped c (X3 m outs c)
  rw [Pipeline.unscopedBufs_held] at hsplit
  rw [hsplit]
  exact BIClass.sep_mono (arrBufs_of_arrays3 (E3 m outs) c (X3 m outs c) _ (hF3 m outs hok c)) (Entails.of_eq (rest_congr3 m outs c))

set_option backward.isDefEq.respectTransparency.types false in
/-- Region 3 over the thread state. -/
def reg3 (hok : OutsOk m outs) : Pipeline.RegionSeg (pcfgs (F := F)) adm (pdats m outs) () defs₀ 𝒱₀ L lv 3 where
  win := winFacts₀3
  block_pos := block_pos3
  stage_whole := stage_whole3
  K := PEmpty
  osem k := k.elim
  ho := Pipeline.OwnSemFacts.none _
  hbody c := (body_obligation3 (E3 m outs) c).loose
  hwaits := Pipeline.hwaits_of_owed_zero _ _ _ _ L lv 3 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec3 c (E3 m outs c)
  hentry c := by
    rw [Pipeline.ownSems0_none]
    iintro ⟨⟨Hub, Hp, HO⟩, -, -⟩
    ihave H := (arrays_of_held3 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays3 m outs hok c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Seg4.lean ====
/-
  Region 4 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.K.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img4 : Finset.univ.image (Pipeline.arrRef spec4)
    = ({main_v55, main_v51, main_v57, main_v62, main_v61, main_v63} : Finset (Ref sig .tc)) := by decide

/-- Those buffers, each whole at the full share, one by one. -/
theorem arrBufs_eq4 (c : Dev nD) (W : (b : Ref sig .tc) → Buf (Elt F) ((c : Thread nD τ).loc b)) :
    (Pipeline.arrBufs (Ix := Unit) (Name := ℕ) (U := UR sig nD τ) (Lvl := ℕ) spec4 c W : sProp 𝕄)
      = iprop((((c : Thread nD τ).loc main_v55) ↦{fullShare} W main_v55)
          ∗ (((c : Thread nD τ).loc main_v51) ↦{fullShare} W main_v51)
          ∗ (((c : Thread nD τ).loc main_v57) ↦{fullShare} W main_v57)
          ∗ (((c : Thread nD τ).loc main_v62) ↦{fullShare} W main_v62)
          ∗ (((c : Thread nD τ).loc main_v61) ↦{fullShare} W main_v61)
          ∗ (((c : Thread nD τ).loc main_v63) ↦{fullShare} W main_v63)) := by
  unfold Pipeline.arrBufs
  rw [img4, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq4 (V : (c : Dev nD) → (b : Ref sig .tc) → Buf (Elt F) ((c : Thread nD τ).loc b)) (c : Dev nD)
    (G : (w : Fin cfg4.W) → Buf (Elt F) ((cfg4.win w).arr.view.loc (c : Thread nD τ))) :
    ((dat4 V c).arrays G : sProp 𝕄)
      = iprop((((c : Thread nD τ).loc main_v55) ↦{fullShare} G 0)
          ∗ (((c : Thread nD τ).loc main_v51) ↦{(fullShare : PosShare TreeShare).left} G 1)
          ∗ (((c : Thread nD τ).loc main_v57) ↦{fullShare} G 2)
          ∗ (((c : Thread nD τ).loc main_v62) ↦{fullShare} G 3)
          ∗ (((c : Thread nD τ).loc main_v61) ↦{fullShare} G 4)
          ∗ (((c : Thread nD τ).loc main_v51) ↦{(fullShare : PosShare TreeShare).right} G 5)
          ∗ (((c : Thread nD τ).loc main_v63) ↦{fullShare} G 6)) := by
  have h : ((dat4 V c).arrays G : sProp 𝕄)
      = bigSep Finset.univ fun w : Fin 7 => (((c : Thread nD τ).loc (Pipeline.arrRef spec4 w)) ↦{(dat4 V c).share w} G w : sProp 𝕄) := by
    unfold Dat.arrays
    exact bigSep_congr fun w _ => by rw [(arr_whole4 w).set_eq_univ]
  rw [h, bigSep_W4]
  rfl

/-- ENTRY, the arrays' part: the six buffers at contents W are the seven windows' arrays at contents that read W,
    the buffer under two windows halved between them. -/
theorem arrays_of_arrBufs4 (V : (c : Dev nD) → (b : Ref sig .tc) → Buf (Elt F) ((c : Thread nD τ).loc b)) (c : Dev nD)
    (W : (b : Ref sig .tc) → Buf (Elt F) ((c : Thread nD τ).loc b))
    (G : (w : Fin cfg4.W) → Buf (Elt F) ((cfg4.win w).arr.view.loc (c : Thread nD τ)))
    (hG : ∀ w, G w = W (Pipeline.arrRef spec4 w)) :
    (Pipeline.arrBufs (Ix := Unit) (Name := ℕ) (U := UR sig nD τ) (Lvl := ℕ) spec4 c W : sProp 𝕄) ⊢ (dat4 V c).arrays G := by
  obtain rfl : G = fun w => W (Pipeline.arrRef spec4 w) := funext hG
  rw [arrBufs_eq4, arrays_eq4]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays4 (V : (c : Dev nD) → (b : Ref sig .tc) → Buf (Elt F) ((c : Thread nD τ).loc b)) (c : Dev nD)
    (W : (b : Ref sig .tc) → Buf (Elt F) ((c : Thread nD τ).loc b))
    (G : (w : Fin cfg4.W) → Buf (Elt F) ((cfg4.win w).arr.view.loc (c : Thread nD τ)))
    (hG : ∀ w, G w = W (Pipeline.arrRef spec4 w)) :
    ((dat4 V c).arrays G : sProp 𝕄) ⊢ Pipeline.arrBufs (Ix := Unit) (Name := ℕ) (U := UR sig nD τ) (Lvl := ℕ) spec4 c W := by
  obtain rfl : G = fun w => W (Pipeline.arrRef spec4 w) := funext hG
  rw [arrBufs_eq4, arrays_eq4]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF4 (hok : OutsOk m outs) (c : Dev nD) (w : Fin cfg4.W) :
    (dat4 (E4 m outs) c).arrAt w cfg4.N = X4 m outs c (Pipeline.arrRef spec4 w) := by
  match w with
  | ⟨0, _⟩ => exact (((dat4 (E4 m outs) c).arrAt_in 0 rfl _).trans (A_eq4 (E4 m outs) c 0)).trans (V16_of m outs c _ (by decide)).symm
  | ⟨1, _⟩ => exact (((dat4 (E4 m outs) c).arrAt_in 1 rfl _).trans (A_eq4 (E4 m outs) c 1)).trans (V16_of m outs c _ (by decide)).symm
  | ⟨2, _⟩ => exact (((dat4 (E4 m outs) c).arrAt_in 2 rfl _).trans (A_eq4 (E4 m outs) c 2)).trans (V16_of m outs c _ (by decide)).symm
  | ⟨3, _⟩ => exact (((dat4 (E4 m outs) c).arrAt_in 3 rfl _).trans (A_eq4 (E4 m outs) c 3)).trans (V16_of m outs c _ (by decide)).symm
  | ⟨4, _⟩ => exact (((dat4 (E4 m outs) c).arrAt_in 4 rfl _).trans (A_eq4 (E4 m outs) c 4)).trans (V16_of m outs c _ (by decide)).symm
  | ⟨5, _⟩ => exact (((dat4 (E4 m outs) c).arrAt_in 5 rfl _).trans (A_eq4 (E4 m outs) c 5)).trans (V16_of m outs c _ (by decide)).symm
  | ⟨6, _⟩ =>
    refine (hok.h16 c).symm.trans ?_
    show outs 16 main_v63 c = Function.update (V15 m outs c) (Proc.devRef .tc main_v63) (outs 16 main_v63 c) (Proc.devRef .tc main_v63)
    rw [Function.update_self]

/-- Every buffer that is none of the region's arrays is as the region found it. -/
theorem hrest4 (c : Dev nD) : ∀ b, b ∉ Finset.univ.image (Pipeline.arrRef spec4) → X4 m outs c b = E4 m outs c b := fun b hb =>
  V16_of m outs c b (fun h => hb (Finset.mem_image.mpr ⟨6, Finset.mem_univ _, (List.mem_singleton.mp h).symm⟩))

/-- So the unscoped buffers that are no window's array hold at the exit what they held at the entry. -/
theorem rest_congr4 (c : Dev nD) :
    (Pipeline.unscopedRest (Ix := Unit) (Name := ℕ) (U := UR sig nD τ) (Lvl := ℕ) spec4 c (E4 m outs c) : sProp 𝕄)
      = Pipeline.unscopedRest (Ix := Unit) (Name := ℕ) (U := UR sig nD τ) (Lvl := ℕ) spec4 c (X4 m outs c) := by
  unfold Pipeline.unscopedRest
  exact bigSep_congr fun b hb => by rw [hrest4 m outs c b (Finset.mem_sdiff.mp hb).2]

/-- ENTRY: the unscoped buffers at the entry contents are the region's windowed arrays at those contents, each window
    at its share, beside the unscoped buffers that are no window's array. -/
theorem arrays_of_held4 (c : Dev nD) :
    (StableHlo.held (c : Thread nD τ) (Pipeline.ucRefs τ sig) (V15 m outs c) : sProp 𝕄)
      ⊢ iprop((pdats m outs 4 c).arrays ((pdats m outs 4 c).arrAt · 0)
          ∗ Pipeline.unscopedRest (Ix := Unit) (Name := ℕ) (U := UR sig nD τ) (Lvl := ℕ) spec4 c (E4 m outs c)) := by
  have hsplit := Pipeline.unscopedBufs_split₀ (Ix := Unit) (Name := ℕ) (U := UR sig nD τ) (Lvl := ℕ) cfgs 4 winFacts₀4.arr_unscoped c (E4 m outs c)
  rw [Pipeline.unscopedBufs_held] at hsplit
  rw [hsplit]
  exact BIClass.sep_mono (arrays_of_arrBufs4 (E4 m outs) c (E4 m outs c) _ (fun w => rfl)) .rfl

/-- EXIT: the windowed arrays at what the pipeline leaves and the rest as entered are the unscoped buffers at the
    exit contents. -/
theorem held_of_arrays4 (hok : OutsOk m outs) (c : Dev nD) :
    iprop((pdats m outs 4 c).arrays ((pdats m outs 4 c).arrAt · cfg4.N)
        ∗ Pipeline.unscopedRest (Ix := Unit) (Name := ℕ) (U := UR sig nD τ) (Lvl := ℕ) spec4 c (E4 m outs c))
      ⊢ (StableHlo.held (c : Thread nD τ) (Pipeline.ucRefs τ sig) (V16 m outs c) : sProp 𝕄) := by
  have hsplit := Pipeline.unscopedBufs_split₀ (Ix := Unit) (Name := ℕ) (U := UR sig nD τ) (Lvl := ℕ) cfgs 4 winFacts₀4.arr_unscoped c (X4 m outs c)
  rw [Pipeline.unscopedBufs_held] at hsplit
  rw [hsplit]
  exact BIClass.sep_mono (arrBufs_of_arrays4 (E4 m outs) c (X4 m outs c) _ (hF4 m outs hok c)) (Entails.of_eq (rest_congr4 m outs c))

set_option backward.isDefEq.respectTransparency.types false in
/-- Region 4 over the thread state. -/
def reg4 (hok : OutsOk m outs) : Pipeline.RegionSeg (pcfgs (F := F)) adm (pdats m outs) () defs₀ 𝒱₀ L lv 4 where
  win := winFacts₀4
  block_pos := block_pos4
  stage_whole := stage_whole4
  K := PEmpty
  osem k := k.elim
  ho := Pipeline.OwnSemFacts.none _
  hbody c := (body_obligation4 (E4 m outs) c).loose
  hwaits := Pipeline.hwaits_of_owed_zero _ _ _ _ L lv 4 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec4 c (E4 m outs c)
  hentry c := by
    rw [Pipeline.ownSems0_none]
    iintro ⟨⟨Hub, Hp, HO⟩, -, -⟩
    ihave H := (arrays_of_held4 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays4 m outs hok c); isplitl [Ha] <;> iassumption
    isplitl [HY]; · iexact HY
    unfold Pipeline.Dat.owesAt Pipeline.owesWithin
    icases HO with ⟨%W, -, HO⟩; iexists W; iexact HO

end Cert.Kernel.Hand

end
-- ==== Proof.K.Outs.lean ====
/-
  The unknown contents of the conditional frame, chosen. What region K leaves in its output array is the fold of
  the region's ten write-backs over the contents the region is entered from, and those contents depend on the
  unknowns of the earlier regions only. So the five unknowns are determined in order: region 0's from the launch
  contents, region 1's from region 0's, and so on; the family below holds each at its reference and the launch
  contents elsewhere. The entry contents of a region read the family only at the earlier regions' references, so
  the family chosen at the end agrees, for every region, with the partial family the region's output was built from.
-/
import proofs.«420102_j84559316123938_1_alg».proof.Proof.K.PDats

set_option maxRecDepth 16384

noncomputable section

namespace Cert.Kernel.Hand

open Cert.Kernel Cert.Kernel.Gen
open Idealize.ShloMosaic Idealize.ShloMosaic.TcCoe
open Idealize.ShloMosaic.Pipeline (Dat)

variable {F : FTy → Type} [FloatOps F]

variable (m : (ℓ : Loc nD τ sig) → Buf (Elt F) ℓ)

/-! ## The five unknowns, in order -/

/-- What region 0 leaves in its output array: a function of the launch contents alone. -/
def o4 (c : Dev nD) : Buf (Elt F) ((c : Thread nD τ).loc main_v15) := (dat0 (E0 m) c).arrAt 5 cfg0.N
/-- The family that knows region 0's output only (the launch contents elsewhere). -/
def outs1 : Outs (F := F) := fun _ r c => if h : r = main_v15 then h ▸ o4 m c else m ((c : Thread nD τ).loc r)
/-- What region 1 leaves in its output array, entered from contents that hold region 0's output. -/
def o7 (c : Dev nD) : Buf (Elt F) ((c : Thread nD τ).loc main_v27) := (dat1 (E1 m (outs1 m)) c).arrAt 6 cfg1.N
def outs2 : Outs (F := F) := fun n r c => if h : r = main_v27 then h ▸ o7 m c else outs1 m n r c
/-- What region 2 leaves in its output array. -/
def o10 (c : Dev nD) : Buf (Elt F) ((c : Thread nD τ).loc main_v39) := (dat2 (E2 m (outs2 m)) c).arrAt 6 cfg2.N
def outs3 : Outs (F := F) := fun n r c => if h : r = main_v39 then h ▸ o10 m c else outs2 m n r c
/-- What region 3 leaves in its output array. -/
def o13 (c : Dev nD) : Buf (Elt F) ((c : Thread nD τ).loc main_v51) := (dat3 (E3 m (outs3 m)) c).arrAt 6 cfg3.N
def outs4 : Outs (F := F) := fun n r c => if h : r = main_v51 then h ▸ o13 m c else outs3 m n r c
/-- What region 4 leaves in its output array. -/
def o16 (c : Dev nD) : Buf (Elt F) ((c : Thread nD τ).loc main_v63) := (dat4 (E4 m (outs4 m)) c).arrAt 6 cfg4.N
/-- The family that knows all five outputs. -/
def outsOf : Outs (F := F) := fun n r c => if h : r = main_v63 then h ▸ o16 m c else outs4 m n r c

/-! ## Each family read at the references it knows -/

theorem outs1_v15 (n : ℕ) (c : Dev nD) : outs1 m n main_v15 c = o4 m c := rfl
theorem outs2_v15 (n : ℕ) (c : Dev nD) : outs2 m n main_v15 c = o4 m c := rfl
theorem outs2_v27 (n : ℕ) (c : Dev nD) : outs2 m n main_v27 c = o7 m c := rfl
theorem outs3_v15 (n : ℕ) (c : Dev nD) : outs3 m n main_v15 c = o4 m c := rfl
theorem outs3_v27 (n : ℕ) (c : Dev nD) : outs3 m n main_v27 c = o7 m c := rfl
theorem outs3_v39 (n : ℕ) (c : Dev nD) : outs3 m n main_v39 c = o10 m c := rfl
theorem outs4_v15 (n : ℕ) (c : Dev nD) : outs4 m n main_v15 c = o4 m c := rfl
theorem outs4_v27 (n : ℕ) (c : Dev nD) : outs4 m n main_v27 c = o7 m c := rfl
theorem outs4_v39 (n : ℕ) (c : Dev nD) : outs4 m n main_v39 c = o10 m c := rfl
theorem outs4_v51 (n : ℕ) (c : Dev nD) : outs4 m n main_v51 c = o13 m c := rfl
theorem outsOf_v15 (n : ℕ) (c : Dev nD) : outsOf m n main_v15 c = o4 m c := rfl
theorem outsOf_v27 (n : ℕ) (c : Dev nD) : outsOf m n main_v27 c = o7 m c := rfl
theorem outsOf_v39 (n : ℕ) (c : Dev nD) : outsOf m n main_v39 c = o10 m c := rfl
theorem outsOf_v51 (n : ℕ) (c : Dev nD) : outsOf m n main_v51 c = o13 m c := rfl
theorem outsOf_v63 (n : ℕ) (c : Dev nD) : outsOf m n main_v63 c = o16 m c := rfl

/-! ## The entry contents depend on the earlier unknowns only -/

section Congr
variable (outs outs' : Outs (F := F))

theorem V4_congr (h4 : ∀ c, outs 4 main_v15 c = outs' 4 main_v15 c) (c : Dev nD) : V4 m outs c = V4 m outs' c := by
  show Function.update (V3 m c) main_v15 (outs 4 main_v15 c) = Function.update (V3 m c) main_v15 (outs' 4 main_v15 c)
  rw [h4 c]
theorem V6_congr (h4 : ∀ c, outs 4 main_v15 c = outs' 4 main_v15 c) (c : Dev nD) : V6 m outs c = V6 m outs' c :=
  congrArg (fun v => StableHlo.after hostOps1_1 (StableHlo.after hostOps1 v)) (V4_congr m outs outs' h4 c)
theorem V7_congr (h4 : ∀ c, outs 4 main_v15 c = outs' 4 main_v15 c) (h7 : ∀ c, outs 7 main_v27 c = outs' 7 main_v27 c) (c : Dev nD) :
    V7 m outs c = V7 m outs' c := by
  show Function.update (V6 m outs c) main_v27 (outs 7 main_v27 c) = Function.update (V6 m outs' c) main_v27 (outs' 7 main_v27 c)
  rw [V6_congr m outs outs' h4 c, h7 c]
theorem V9_congr (h4 : ∀ c, outs 4 main_v15 c = outs' 4 main_v15 c) (h7 : ∀ c, outs 7 main_v27 c = outs' 7 main_v27 c) (c : Dev nD) :
    V9 m outs c = V9 m outs' c :=
  congrArg (fun v => StableHlo.after hostOps2_1 (StableHlo.after hostOps2 v)) (V7_congr m outs outs' h4 h7 c)
theorem V10_congr (h4 : ∀ c, outs 4 main_v15 c = outs' 4 main_v15 c) (h7 : ∀ c, outs 7 main_v27 c = outs' 7 main_v27 c)
    (h10 : ∀ c, outs 10 main_v39 c = outs' 10 main_v39 c) (c : Dev nD) : V10 m outs c = V10 m outs' c := by
  show Function.update (V9 m outs c) main_v39 (outs 10 main_v39 c) = Function.update (V9 m outs' c) main_v39 (outs' 10 main_v39 c)
  rw [V9_congr m outs outs' h4 h7 c, h10 c]
theorem V12_congr (h4 : ∀ c, outs 4 main_v15 c = outs' 4 main_v15 c) (h7 : ∀ c, outs 7 main_v27 c = outs' 7 main_v27 c)
    (h10 : ∀ c, outs 10 main_v39 c = outs' 10 main_v39 c) (c : Dev nD) : V12 m outs c = V12 m outs' c :=
  congrArg (fun v => StableHlo.after hostOps3_1 (StableHlo.after hostOps3 v)) (V10_congr m outs outs' h4 h7 h10 c)
theorem V13_congr (h4 : ∀ c, outs 4 main_v15 c = outs' 4 main_v15 c) (h7 : ∀ c, outs 7 main_v27 c = outs' 7 main_v27 c)
    (h10 : ∀ c, outs 10 main_v39 c = outs' 10 main_v39 c) (h13 : ∀ c, outs 13 main_v51 c = outs' 13 main_v51 c) (c : Dev nD) :
    V13 m outs c = V13 m outs' c := by
  show Function.update (V12 m outs c) main_v51 (outs 13 main_v51 c) = Function.update (V12 m outs' c) main_v51 (outs' 13 main_v51 c)
  rw [V12_congr m outs outs' h4 h7 h10 c, h13 c]
theorem V15_congr (h4 : ∀ c, outs 4 main_v15 c = outs' 4 main_v15 c) (h7 : ∀ c, outs 7 main_v27 c = outs' 7 main_v27 c)
    (h10 : ∀ c, outs 10 main_v39 c = outs' 10 main_v39 c) (h13 : ∀ c, outs 13 main_v51 c = outs' 13 main_v51 c) (c : Dev nD) :
    V15 m outs c = V15 m outs' c :=
  congrArg (fun v => StableHlo.after hostOps4_1 (StableHlo.after hostOps4 v)) (V13_congr m outs outs' h4 h7 h10 h13 c)

/-- Region 1 is entered from contents that read the unknowns at region 0's output only. -/
theorem E1_congr (h4 : ∀ c, outs 4 main_v15 c = outs' 4 main_v15 c) : E1 m outs = E1 m outs' := by
  funext c b; exact congrFun (V6_congr m outs outs' h4 c) _
/-- Region 2: at the outputs of regions 0 and 1. -/
theorem E2_congr (h4 : ∀ c, outs 4 main_v15 c = outs' 4 main_v15 c) (h7 : ∀ c, outs 7 main_v27 c = outs' 7 main_v27 c) :
    E2 m outs = E2 m outs' := by
  funext c b; exact congrFun (V9_congr m outs outs' h4 h7 c) _
/-- Region 3: at the outputs of regions 0, 1 and 2. -/
theorem E3_congr (h4 : ∀ c, outs 4 main_v15 c = outs' 4 main_v15 c) (h7 : ∀ c, outs 7 main_v27 c = outs' 7 main_v27 c)
    (h10 : ∀ c, outs 10 main_v39 c = outs' 10 main_v39 c) : E3 m outs = E3 m outs' := by
  funext c b; exact congrFun (V12_congr m outs outs' h4 h7 h10 c) _
/-- Region 4: at the outputs of regions 0 to 3. -/
theorem E4_congr (h4 : ∀ c, outs 4 main_v15 c = outs' 4 main_v15 c) (h7 : ∀ c, outs 7 main_v27 c = outs' 7 main_v27 c)
    (h10 : ∀ c, outs 10 main_v39 c = outs' 10 main_v39 c) (h13 : ∀ c, outs 13 main_v51 c = outs' 13 main_v51 c) :
    E4 m outs = E4 m outs' := by
  funext c b; exact congrFun (V15_congr m outs outs' h4 h7 h10 h13 c) _

end Congr

/-! ## The chosen family is the pipelines' own account -/

theorem outsOk : OutsOk m (outsOf m) where
  h4 c := outsOf_v15 m 4 c
  h7 c := (outsOf_v27 m 7 c).trans (congrArg (fun E => (dat1 E c).arrAt 6 cfg1.N)
    (E1_congr m (outs1 m) (outsOf m) (fun c => (outs1_v15 m 4 c).trans (outsOf_v15 m 4 c).symm)))
  h10 c := (outsOf_v39 m 10 c).trans (congrArg (fun E => (dat2 E c).arrAt 6 cfg2.N)
    (E2_congr m (outs2 m) (outsOf m) (fun c => (outs2_v15 m 4 c).trans (outsOf_v15 m 4 c).symm)
      (fun c => (outs2_v27 m 7 c).trans (outsOf_v27 m 7 c).symm)))
  h13 c := (outsOf_v51 m 13 c).trans (congrArg (fun E => (dat3 E c).arrAt 6 cfg3.N)
    (E3_congr m (outs3 m) (outsOf m) (fun c => (outs3_v15 m 4 c).trans (outsOf_v15 m 4 c).symm)
      (fun c => (outs3_v27 m 7 c).trans (outsOf_v27 m 7 c).symm) (fun c => (outs3_v39 m 10 c).trans (outsOf_v39 m 10 c).symm)))
  h16 c := (outsOf_v63 m 16 c).trans (congrArg (fun E => (dat4 E c).arrAt 6 cfg4.N)
    (E4_congr m (outs4 m) (outsOf m) (fun c => (outs4_v15 m 4 c).trans (outsOf_v15 m 4 c).symm)
      (fun c => (outs4_v27 m 7 c).trans (outsOf_v27 m 7 c).symm) (fun c => (outs4_v39 m 10 c).trans (outsOf_v39 m 10 c).symm)
      (fun c => (outs4_v51 m 13 c).trans (outsOf_v51 m 13 c).symm)))

end Cert.Kernel.Hand

end
-- ==== Proof.K.Frame.lean ====
/-
  The program's frame: every weakly fair execution terminates, nothing faults, and the argument arrays end as
  launched — the conditional frame of the five regions, given each region's record over the thread state, with
  the regions' unknown output contents instantiated at what the pipelines leave.
-/
import proofs.«420102_j84559316123938_1_alg».proof.Proof.K.Seg0
import proofs.«420102_j84559316123938_1_alg».proof.Proof.K.Seg1
import proofs.«420102_j84559316123938_1_alg».proof.Proof.K.Seg2
import proofs.«420102_j84559316123938_1_alg».proof.Proof.K.Seg3
import proofs.«420102_j84559316123938_1_alg».proof.Proof.K.Seg4
import proofs.«420102_j84559316123938_1_alg».proof.Proof.K.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element: the pipeline library's at every pipeline's staging cells. -/
abbrev u₀ : UR sig nD τ := initOf (Pipeline.cells cfgs cellOf_inj) (Pipeline.launchToks cfgs cellOf_inj)

/-- It yields itself, and no further ghost resource per core. -/
theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core makes the rest that rides along: its generator register at its launch state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (Erest (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the rest still owes nothing. -/
theorem hE5 (c : Dev nD) : Erest (F := F) 5 c ⊢ (iprop(∃ W, owes (c : Thread nD τ) (0 : CellTallies nD τ sig Unit) W) : sProp 𝕄) := by
  iintro ⟨-, HO⟩; iexact HO

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (emb₁ : Emb (UR sig nD τ) 𝕄) () 𝒱₀ L lv (fun _ _ => rfl) ρ (outsOf m) (pdats m (outsOf m))
    (0 : Dev nD → CellTallies nD τ sig Unit) (fun _ => (BI.emp : sProp 𝕄)) u₀ hu₀ (Erest (F := F)) (hE0 ρ) hE5
    (reg0 m (outsOf m) (outsOk m)) (fun _ => .rfl) (fun _ => .rfl)
    (reg1 m (outsOf m) (outsOk m)) (fun _ => .rfl) (fun _ => .rfl)
    (reg2 m (outsOf m) (outsOk m)) (fun _ => .rfl) (fun _ => .rfl)
    (reg3 m (outsOf m) (outsOk m)) (fun _ => .rfl) (fun _ => .rfl)
    (reg4 m (outsOf m) (outsOk m)) (fun _ => .rfl) (fun _ => .rfl)

end Cert.Kernel.Hand

end
-- ==== Proof.KI.Reg0.lean ====
/-
  Region 0 of the program (the first GraphConv layer's dense stage, no residual): a grid of ten points, each
  taking a 10000-row block of the aggregated messages and of the node features, the three weight arrays whole,
  and writing the block's 10000 rows of the layer's output. Stated at a PARAMETER V, the buffer contents the
  region is entered from: each window's block at a point, what the body leaves in the output's staging buffer
  as a function of the input blocks, the body's triple, the pipeline's proof data and its body obligation.
-/
import proofs.«420102_j84559316123938_1_alg».proof.Proof.Gen.KernelIdeal.Launch
import proofs.«420102_j84559316123938_1_alg».proof.Proof.Gen.KernelIdeal.Skeleton
import proofs.«420102_j84559316123938_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's accesses: every load and the one store take a whole staging buffer -/

abbrev rB0 : Rect S10000x128 := Rect.unit (s := S10000x128) ![0, 0] S10000x128.size inb_S10000x128_S10000x128_0_0
abbrev rW0 : Rect S128x128 := Rect.unit (s := S128x128) ![0, 0] S128x128.size inb_S128x128_S128x128_0_0
abbrev rR0 : Rect S1x128 := Rect.unit (s := S1x128) ![0, 0] S1x128.size inb_S1x128_S1x128_0_0

/-- The output's staging buffer after the body, from the five input blocks: one store of the payload. -/
def out0_5 (x0 x1 : Vec F S10000x128 .f32) (x2 : Vec F S128x128 .f32) (x3 : Vec F S1x128 .f32) (x4 : Vec F S128x128 .f32) :
    Vec F S10000x128 .f32 :=
  View.canon [⟨rB0, k0_pay1 (View.ld x0 rB0) (View.ld x1 rB0) (View.ld x2 rW0) (View.ld x3 rR0) (View.ld x4 rW0)⟩]

/-- The one store covers the buffer. -/
theorem cover0_5 (p0 : Vec F S10000x128 .f32) (y : S10000x128.Idx) :
    ∃ pc ∈ ([⟨rB0, p0⟩] : List (View.Piece (Elt F) S10000x128 .f32)), y ∈ pc.1.set :=
  View.cover_of_tiled [⟨rB0, p0⟩] S10000x128.size (by rfl) y

/-! ## The body's triple -/

set_option maxHeartbeats 1000000 in
theorem sound_kernel0 (c : Dev nD) (E : Set ℕ) (i : grid0.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (x0 x1 : Vec F S10000x128 .f32) (x2 : Vec F S128x128 .f32) (x3 : Vec F S1x128 .f32) (x4 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__gc_kernel i arg1 harg1 arg2 harg2 arg3 harg3 arg4 harg4 arg5 harg5 arg6 harg6) K := by
  simp only [cc0__gc_kernel_eq_skeleton]; unfold cc0__gc_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- The proof data of pipeline 0 on core c: the arrays as the region finds them; after the body at point t each
    input's buffer at its block and the output's at out0_5 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

/-! ## The body obligation -/

/-- Input window 0's current staging buffer holds its block at every point, fetched there or not: unfetched, the
    block index has not moved, and the buffer still holds the previous point's block, which is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d

/-- Input window 1's current staging buffer holds its block at every point, fetched there or not: unfetched, the
    block index has not moved, and the buffer still holds the previous point's block, which is this point's. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_1 (c : Dev nD) (t : Fin cfg0.N) (d) : (dat0 V c).before 1 t d = iblk0 V c 1 t :=
  before0_1_of V (dat0 V c) (A_eq0 V c 1) (after0_1 V c) t d

/-- Input window 2's current staging buffer holds its block at every point, fetched there or not: unfetched, the
    block index has not moved, and the buffer still holds the previous point's block, which is this point's. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_2 (c : Dev nD) (t : Fin cfg0.N) (d) : (dat0 V c).before 2 t d = iblk0 V c 2 t :=
  before0_2_of V (dat0 V c) (A_eq0 V c 2) (after0_2 V c) t d

/-- Input window 3's current staging buffer holds its block at every point, fetched there or not: unfetched, the
    block index has not moved, and the buffer still holds the previous point's block, which is this point's. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_3 (c : Dev nD) (t : Fin cfg0.N) (d) : (dat0 V c).before 3 t d = iblk0 V c 3 t :=
  before0_3_of V (dat0 V c) (A_eq0 V c 3) (after0_3 V c) t d

/-- Input window 4's current staging buffer holds its block at every point, fetched there or not: unfetched, the
    block index has not moved, and the buffer still holds the previous point's block, which is this point's. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_4 (c : Dev nD) (t : Fin cfg0.N) (d) : (dat0 V c).before 4 t d = iblk0 V c 4 t :=
  before0_4_of V (dat0 V c) (A_eq0 V c 4) (after0_4 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Reg1.lean ====
/-
  Region 1 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.KernelIdeal.Launch
import proofs.«420102_j84559316123938_1_alg».proof.Proof.Gen.KernelIdeal.Skeleton
import proofs.«420102_j84559316123938_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses: every load and the one store take a whole staging buffer -/

abbrev rB1 : Rect S10000x128 := Rect.unit (s := S10000x128) ![0, 0] S10000x128.size inb_S10000x128_S10000x128_0_0
abbrev rW1 : Rect S128x128 := Rect.unit (s := S128x128) ![0, 0] S128x128.size inb_S128x128_S128x128_0_0
abbrev rR1 : Rect S1x128 := Rect.unit (s := S1x128) ![0, 0] S1x128.size inb_S1x128_S1x128_0_0

/-- The output's staging buffer after the body, from the six input blocks: one store of the payload. -/
def out1_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB1, k1_pay1 (View.ld x0 rB1) (View.ld x1 rB1) (View.ld x2 rW1) (View.ld x3 rR1) (View.ld x4 rW1) (View.ld x5 rB1)⟩]

/-- The one store covers the buffer. -/
theorem cover1_6 (p0 : Vec F S10000x128 .f32) (y : S10000x128.Idx) :
    ∃ pc ∈ ([⟨rB1, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out1_6 of the inputs': six loads, a load of the
    output whose value nothing reads, and one store of the payload over the whole buffer. -/
theorem sound_kernel1 (c : Dev nD) (E : Set ℕ) (i : grid1.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out1_6 x0 x1 x2 x3 x4 x5)) -∗ K ⟨⟩))
      ⊢ wp frame (wpE (defs₀ (F := F)) Variants.none c none) E
          (cc1__gc_kernel_res i arg1 harg1 arg2 harg2 arg3 harg3 arg4 harg4 arg5 harg5 arg6 harg6 arg7 harg7) K := by
  simp only [cc1__gc_kernel_res_eq_skeleton]; unfold cc1__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover1_6 _)

/-! ## The pipeline's proof data -/

/-- The proof data of pipeline 1 on core c: the arrays as the region finds them; after the body at point t each
    input's buffer at its block and the output's at out1_6 of the input blocks; nothing owed; the two windows on the
    layer's input array hold a half share each, every other input the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨1, _⟩ => (fullShare : PosShare TreeShare).left
    | ⟨5, _⟩ => (fullShare : PosShare TreeShare).right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t
    = out1_6 (iblk1 V c 0 t) (iblk1 V c 1 t) (iblk1 V c 2 t) (iblk1 V c 3 t) (iblk1 V c 4 t) (iblk1 V c 5 t) := by dsimp only [dat1]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' staging memrefs hold their blocks, so the body's triple applies; the invariant
    and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel1 c Set.univ _ _ _ _ _ _ _ _ _ _ _ _ _ _ _
    (iblk1 V c 0 t) (iblk1 V c 1 t) (iblk1 V c 2 t) (iblk1 V c 3 t) (iblk1 V c 4 t) (iblk1 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Reg2.lean ====
/-
  Region 2 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.KernelIdeal.Launch
import proofs.«420102_j84559316123938_1_alg».proof.Proof.Gen.KernelIdeal.Skeleton
import proofs.«420102_j84559316123938_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and the one store take a whole staging buffer -/

abbrev rB2 : Rect S10000x128 := Rect.unit (s := S10000x128) ![0, 0] S10000x128.size inb_S10000x128_S10000x128_0_0
abbrev rW2 : Rect S128x128 := Rect.unit (s := S128x128) ![0, 0] S128x128.size inb_S128x128_S128x128_0_0
abbrev rR2 : Rect S1x128 := Rect.unit (s := S1x128) ![0, 0] S1x128.size inb_S1x128_S1x128_0_0

/-- The output's staging buffer after the body, from the six input blocks: one store of the payload. -/
def out2_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB2, k2_pay1 (View.ld x0 rB2) (View.ld x1 rB2) (View.ld x2 rW2) (View.ld x3 rR2) (View.ld x4 rW2) (View.ld x5 rB2)⟩]

/-- The one store covers the buffer. -/
theorem cover2_6 (p0 : Vec F S10000x128 .f32) (y : S10000x128.Idx) :
    ∃ pc ∈ ([⟨rB2, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out2_6 of the inputs': six loads, a load of the
    output whose value nothing reads, and one store of the payload over the whole buffer. -/
theorem sound_kernel2 (c : Dev nD) (E : Set ℕ) (i : grid2.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__gc_kernel_res i arg1 harg1 arg2 harg2 arg3 harg3 arg4 harg4 arg5 harg5 arg6 harg6 arg7 harg7) K := by
  simp only [cc2__gc_kernel_res_eq_skeleton]; unfold cc2__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover2_6 _)

/-! ## The pipeline's proof data -/

/-- The proof data of pipeline 2 on core c: the arrays as the region finds them; after the body at point t each
    input's buffer at its block and the output's at out2_6 of the input blocks; nothing owed; the two windows on the
    layer's input array hold a half share each, every other input the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q w := match w with
    | ⟨1, _⟩ => (fullShare : PosShare TreeShare).left
    | ⟨5, _⟩ => (fullShare : PosShare TreeShare).right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t
    = out2_6 (iblk2 V c 0 t) (iblk2 V c 1 t) (iblk2 V c 2 t) (iblk2 V c 3 t) (iblk2 V c 4 t) (iblk2 V c 5 t) := by dsimp only [dat2]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body obligation -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' staging memrefs hold their blocks, so the body's triple applies; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel2 c Set.univ _ _ _ _ _ _ _ _ _ _ _ _ _ _ _
    (iblk2 V c 0 t) (iblk2 V c 1 t) (iblk2 V c 2 t) (iblk2 V c 3 t) (iblk2 V c 4 t) (iblk2 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Reg3.lean ====
/-
  Region 3 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.KernelIdeal.Launch
import proofs.«420102_j84559316123938_1_alg».proof.Proof.Gen.KernelIdeal.Skeleton
import proofs.«420102_j84559316123938_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses: every load and the one store take a whole staging buffer -/

abbrev rB3 : Rect S10000x128 := Rect.unit (s := S10000x128) ![0, 0] S10000x128.size inb_S10000x128_S10000x128_0_0
abbrev rW3 : Rect S128x128 := Rect.unit (s := S128x128) ![0, 0] S128x128.size inb_S128x128_S128x128_0_0
abbrev rR3 : Rect S1x128 := Rect.unit (s := S1x128) ![0, 0] S1x128.size inb_S1x128_S1x128_0_0

/-- The output's staging buffer after the body, from the six input blocks: one store of the payload. -/
def out3_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB3, k3_pay1 (View.ld x0 rB3) (View.ld x1 rB3) (View.ld x2 rW3) (View.ld x3 rR3) (View.ld x4 rW3) (View.ld x5 rB3)⟩]

/-- The one store covers the buffer. -/
theorem cover3_6 (p0 : Vec F S10000x128 .f32) (y : S10000x128.Idx) :
    ∃ pc ∈ ([⟨rB3, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out3_6 of the inputs': six loads, a load of the
    output whose value nothing reads, and one store of the payload over the whole buffer. -/
theorem sound_kernel3 (c : Dev nD) (E : Set ℕ) (i : grid3.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out3_6 x0 x1 x2 x3 x4 x5)) -∗ K ⟨⟩))
      ⊢ wp frame (wpE (defs₀ (F := F)) Variants.none c none) E
          (cc3__gc_kernel_res i arg1 harg1 arg2 harg2 arg3 harg3 arg4 harg4 arg5 harg5 arg6 harg6 arg7 harg7) K := by
  simp only [cc3__gc_kernel_res_eq_skeleton]; unfold cc3__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover3_6 _)

/-! ## The pipeline's proof data -/

/-- The proof data of pipeline 3 on core c: the arrays as the region finds them; after the body at point t each
    input's buffer at its block and the output's at out3_6 of the input blocks; nothing owed; the two windows on the
    layer's input array hold a half share each, every other input the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3_6 (iblk3 V c 0 t) (iblk3 V c 1 t) (iblk3 V c 2 t) (iblk3 V c 3 t) (iblk3 V c 4 t) (iblk3 V c 5 t)
  Φ _ := Pipeline.ΦA spec3 c
  q w := match w with
    | ⟨1, _⟩ => (fullShare : PosShare TreeShare).left
    | ⟨5, _⟩ => (fullShare : PosShare TreeShare).right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t
    = out3_6 (iblk3 V c 0 t) (iblk3 V c 1 t) (iblk3 V c 2 t) (iblk3 V c 3 t) (iblk3 V c 4 t) (iblk3 V c 5 t) := by dsimp only [dat3]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body obligation -/

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- The body at any point: the inputs' staging memrefs hold their blocks, so the body's triple applies; the invariant
    and what the core owes pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel3 c Set.univ _ _ _ _ _ _ _ _ _ _ _ _ _ _ _
    (iblk3 V c 0 t) (iblk3 V c 1 t) (iblk3 V c 2 t) (iblk3 V c 3 t) (iblk3 V c 4 t) (iblk3 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Reg4.lean ====
/-
  Region 4 of the program (a GraphConv layer's dense stage with the residual added): a grid of ten points, each
  taking a 10000-row block of the aggregated messages, of the layer's input and of the residual (the layer's input
  again: windows 1 and 5 read ONE array, so each holds half of its share), the three weight arrays whole, and writing
  the block's 10000 rows of the layer's output. Stated at a PARAMETER V, the buffer contents the region is entered
  from: each window's block at a point, what the body leaves in the output's staging buffer as a function of the
  input blocks, the body's triple, the pipeline's proof data and its body obligation.
-/
import proofs.«420102_j84559316123938_1_alg».proof.Proof.Gen.KernelIdeal.Launch
import proofs.«420102_j84559316123938_1_alg».proof.Proof.Gen.KernelIdeal.Skeleton
import proofs.«420102_j84559316123938_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-! ## The body's accesses: every load and the one store take a whole staging buffer -/

abbrev rB4 : Rect S10000x128 := Rect.unit (s := S10000x128) ![0, 0] S10000x128.size inb_S10000x128_S10000x128_0_0
abbrev rW4 : Rect S128x128 := Rect.unit (s := S128x128) ![0, 0] S128x128.size inb_S128x128_S128x128_0_0
abbrev rR4 : Rect S1x128 := Rect.unit (s := S1x128) ![0, 0] S1x128.size inb_S1x128_S1x128_0_0

/-- The output's staging buffer after the body, from the six input blocks: one store of the payload. -/
def out4_6 (x0 x1 : Vec F S10000x128 .f32) (x2 : Vec F S128x128 .f32) (x3 : Vec F S1x128 .f32) (x4 : Vec F S128x128 .f32)
    (x5 : Vec F S10000x128 .f32) : Vec F S10000x128 .f32 :=
  View.canon [⟨rB4, k4_pay1 (View.ld x0 rB4) (View.ld x1 rB4) (View.ld x2 rW4) (View.ld x3 rR4) (View.ld x4 rW4) (View.ld x5 rB4)⟩]

/-- The one store covers the buffer. -/
theorem cover4_6 (p0 : Vec F S10000x128 .f32) (y : S10000x128.Idx) :
    ∃ pc ∈ ([⟨rB4, p0⟩] : List (View.Piece (Elt F) S10000x128 .f32)), y ∈ pc.1.set :=
  ⟨_, List.mem_singleton_self _, View.mem_set_unit_zero (by funext a; fin_cases a <;> rfl) inb_S10000x128_S10000x128_0_0 y⟩

/-! ## The body's triple -/

set_option maxHeartbeats 1000000 in
/-- The body on whole staging memrefs, the six inputs' at read contents and the output's at anything, runs to the
    continuation holding the inputs' as they were and the output's at out4_6 of the inputs': six loads, a load of the
    output whose value nothing reads, and one store of the payload over the whole buffer. -/
theorem sound_kernel4 (c : Dev nD) (E : Set ℕ) (i : grid4.Coords)
    (arg1 : Memref sig .tc .vmem S10000x128 .f32) (harg1 : arg1.IsWhole) (arg2 : Memref sig .tc .vmem S10000x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S128x128 .f32) (harg5 : arg5.IsWhole) (arg6 : Memref sig .tc .vmem S10000x128 .f32) (harg6 : arg6.IsWhole)
    (arg7 : Memref sig .tc .vmem S10000x128 .f32) (harg7 : arg7.IsWhole)
    (x0 x1 : Vec F S10000x128 .f32) (x2 : Vec F S128x128 .f32) (x3 : Vec F S1x128 .f32) (x4 : Vec F S128x128 .f32) (x5 : Vec F S10000x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out4_6 x0 x1 x2 x3 x4 x5)) -∗ K ⟨⟩))
      ⊢ wp frame (wpE (defs₀ (F := F)) Variants.none c none) E
          (cc4__gc_kernel_res i arg1 harg1 arg2 harg2 arg3 harg3 arg4 harg4 arg5 harg5 arg6 harg6 arg7 harg7) K := by
  simp only [cc4__gc_kernel_res_eq_skeleton]; unfold cc4__gc_kernel_res_skel
  unfold owns
  iintro ⟨⟨%fa, %hfa, Ha⟩, ⟨%fb, %hfb, Hb⟩, ⟨%fc, %hfc, Hc⟩, ⟨%fd, %hfd, Hd⟩, ⟨%fe, %hfe, He⟩, ⟨%fg, %hfg, Hg⟩, ⟨%dz, %fz, -, Hz⟩, Hk⟩
  subst hfa hfb hfc hfd hfe hfg
  sl_exec
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hg]
  · iexists fg; isplitr; · ipureintro; rfl
    iexact Hg
  iexists _; isplitr
  swap; · iexact Hz
  ipureintro
  exact View.read_writes_eq_canon _ _ _ (cover4_6 _)

/-! ## The pipeline's proof data -/

/-- The proof data of pipeline 4 on core c: the arrays as the region finds them; after the body at point t each
    input's buffer at its block and the output's at out4_6 of the input blocks; nothing owed; the two windows on the
    layer's input array hold a half share each, every other input the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => out4_6 (iblk4 V c 0 t) (iblk4 V c 1 t) (iblk4 V c 2 t) (iblk4 V c 3 t) (iblk4 V c 4 t) (iblk4 V c 5 t)
  Φ _ := Pipeline.ΦA spec4 c
  q w := match w with
    | ⟨1, _⟩ => (fullShare : PosShare TreeShare).left
    | ⟨5, _⟩ => (fullShare : PosShare TreeShare).right
    | _ => fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t
    = out4_6 (iblk4 V c 0 t) (iblk4 V c 1 t) (iblk4 V c 2 t) (iblk4 V c 3 t) (iblk4 V c 4 t) (iblk4 V c 5 t) := by dsimp only [dat4]

/-! ## Each input's staging buffer holds its block at every point

An input window's current staging buffer holds the window's block at every point, fetched there or not: where the
pipeline does not fetch it (the three weight windows after the first point) the block index has not moved, so the
block the buffer still holds is this point's. Stated for any proof data whose array is the entry contents and whose
body leaves the block in place. -/

theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)
theorem before4_5_of {c : Dev nD} (dat : Dat τ (Elt F) Unit ℕ (UR sig nD τ) ℕ cfg4 c) (hA : dat.A 5 = V c (Pipeline.arrRef spec4 5))
    (hafter : ∀ t, dat.after 5 t = iblk4 V c 5 t) (t : Fin cfg4.N) (d) : dat.before 5 t d = iblk4 V c 5 t :=
  (dat.before_in_eq_fetched 5 rfl (fun _ => rfl) (fun _ _ _ => rfl) (fun t => by rw [hafter]; unfold Dat.blockOf iblk4; rw [hA]; try rfl) t d).trans
    (by unfold Dat.fetched Dat.blockOf iblk4; rw [hA]; try rfl)

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d
theorem before4_5 (c : Dev nD) (t : Fin cfg4.N) (d) : (dat4 V c).before 5 t d = iblk4 V c 5 t :=
  before4_5_of V (dat4 V c) (A_eq4 V c 5) (after4_5 V c) t d

/-! ## The body obligation -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t))

/-- The body at any point: the inputs' staging memrefs hold their blocks, so the body's triple applies; the invariant
    and what the core owes pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6]
  iintro ⟨HΦ, Ho, ⟨%da, Ha⟩, ⟨%db, Hb⟩, ⟨%dc, Hc⟩, ⟨%dd, Hd⟩, ⟨%de, He⟩, ⟨%dg, Hg⟩, ⟨%dz, Hz⟩⟩
  iapply (sound_kernel4 c Set.univ _ _ _ _ _ _ _ _ _ _ _ _ _ _ _
    (iblk4 V c 0 t) (iblk4 V c 1 t) (iblk4 V c 2 t) (iblk4 V c 3 t) (iblk4 V c 4 t) (iblk4 V c 5 t) _)
  isplitl [Ha]; · iexact Ha
  isplitl [Hb]; · iexact Hb
  isplitl [Hc]; · iexact Hc
  isplitl [Hd]; · iexact Hd
  isplitl [He]; · iexact He
  isplitl [Hg]; · iexact Hg
  isplitl [Hz]; · iexists _; iexact Hz
  iintro ⟨Ha, Hb, Hc, Hd, He, Hg, Hz⟩
  isplitl [HΦ]; · iexact HΦ
  isplitl [Ho]; · iexact Ho
  isplitl [Ha]; · iexact Ha
  isplitl [Hb]; · iexact Hb
  isplitl [Hc]; · iexact Hc
  isplitl [Hd]; · iexact Hd
  isplitl [He]; · iexact He
  isplitl [Hg]; · iexact Hg
  iexact Hz

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.PDats.lean ====
/-
  The proof data of all five regions as one family, each region's data taken at the buffer contents the region is
  entered from; what rides beside the buffers between two items of the program; and the condition that ties the
  unknown "what region K leaves in its output array" of the conditional frame to the pipeline's own account of
  it (the fold of the ten write-backs).
-/
import proofs.«420102_j84559316123938_1_alg».proof.Proof.Gen.KernelIdeal.Regions
import proofs.«420102_j84559316123938_1_alg».proof.Proof.KI.Reg0
import proofs.«420102_j84559316123938_1_alg».proof.Proof.KI.Reg1
import proofs.«420102_j84559316123938_1_alg».proof.Proof.KI.Reg2
import proofs.«420102_j84559316123938_1_alg».proof.Proof.KI.Reg3
import proofs.«420102_j84559316123938_1_alg».proof.Proof.KI.Reg4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- The buffer contents each region is entered from, read at the TensorCore's references. -/
abbrev E0 : (c : Dev nD) → (b : Ref sig .tc) → Buf (Elt F) ((c : Thread nD τ).loc b) := fun c b => V3 m c b
abbrev E1 : (c : Dev nD) → (b : Ref sig .tc) → Buf (Elt F) ((c : Thread nD τ).loc b) := fun c b => V6 m outs c b
abbrev E2 : (c : Dev nD) → (b : Ref sig .tc) → Buf (Elt F) ((c : Thread nD τ).loc b) := fun c b => V9 m outs c b
abbrev E3 : (c : Dev nD) → (b : Ref sig .tc) → Buf (Elt F) ((c : Thread nD τ).loc b) := fun c b => V12 m outs c b
abbrev E4 : (c : Dev nD) → (b : Ref sig .tc) → Buf (Elt F) ((c : Thread nD τ).loc b) := fun c b => V15 m outs c b
/-- ... and the contents each region leaves. -/
abbrev X0 : (c : Dev nD) → (b : Ref sig .tc) → Buf (Elt F) ((c : Thread nD τ).loc b) := fun c b => V4 m outs c b
abbrev X1 : (c : Dev nD) → (b : Ref sig .tc) → Buf (Elt F) ((c : Thread nD τ).loc b) := fun c b => V7 m outs c b
abbrev X2 : (c : Dev nD) → (b : Ref sig .tc) → Buf (Elt F) ((c : Thread nD τ).loc b) := fun c b => V10 m outs c b
abbrev X3 : (c : Dev nD) → (b : Ref sig .tc) → Buf (Elt F) ((c : Thread nD τ).loc b) := fun c b => V13 m outs c b
abbrev X4 : (c : Dev nD) → (b : Ref sig .tc) → Buf (Elt F) ((c : Thread nD τ).loc b) := fun c b => V16 m outs c b

/-- Every pipeline's proof data, each at its region's entry contents: a literal match on the pipeline. -/
def pdats : (p : Fin 5) → (c : Dev nD) → Dat τ (Elt F) Unit ℕ (UR sig nD τ) ℕ (cfgs p) c
  | ⟨0, _⟩ => fun c => dat0 (E0 m) c
  | ⟨1, _⟩ => fun c => dat1 (E1 m outs) c
  | ⟨2, _⟩ => fun c => dat2 (E2 m outs) c
  | ⟨3, _⟩ => fun c => dat3 (E3 m outs) c
  | ⟨4, _⟩ => fun c => dat4 (E4 m outs) c

abbrev 𝒱₀ : Variants := Variants.none
/-- No core owes another anything: no level is assigned. -/
abbrev L : GSem nD τ sig → Finset Unit := fun _ => ∅
abbrev lv : GSem nD τ sig → Unit → ℕ := fun _ _ => 0

/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)
/-- The same rest between any two items. -/
abbrev Erest : Fin 6 → Dev nD → sProp 𝕄 := fun _ c => R c

/-- The unknown contents of the conditional frame ARE what the pipelines leave: each region's output array after the
    region is the fold of its ten write-backs. -/
structure OutsOk : Prop where
  h4 : ∀ c : Dev nD, outs 4 main_v15 c = (dat0 (E0 m) c).arrAt 5 cfg0.N
  h7 : ∀ c : Dev nD, outs 7 main_v27 c = (dat1 (E1 m outs) c).arrAt 6 cfg1.N
  h10 : ∀ c : Dev nD, outs 10 main_v39 c = (dat2 (E2 m outs) c).arrAt 6 cfg2.N
  h13 : ∀ c : Dev nD, outs 13 main_v51 c = (dat3 (E3 m outs) c).arrAt 6 cfg3.N
  h16 : ∀ c : Dev nD, outs 16 main_v63 c = (dat4 (E4 m outs) c).arrAt 6 cfg4.N

end Cert.KernelIdeal.Hand

end
-- ==== Proof.KI.Seg0.lean ====
/-
  Region 0 as one item of the program's run, over the thread state "every unscoped buffer at the contents the
  previous item left, the generator register at some state, nothing owed": entered by splitting the region's six
  arrays (distinct buffers) out of the unscoped buffers, left with them put back at the contents that differ from
  the entry contents only at the output array, which holds the fold of the ten write-backs.
-/
import proofs.«420102_j84559316123938_1_alg».proof.Proof.KI.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-- At region 0's exit each of its arrays holds what the pipeline leaves: an input its entry contents, the output
    the fold of the write-backs. -/
theorem hF0 (hok : OutsOk m outs) (c : Dev nD) (w : Fin cfg0.W) :
    (dat0 (E0 m) c).arrAt w cfg0.N = X0 m outs c (Pipeline.arrRef spec0 w) := by
  match w with
  | ⟨0, _⟩ => exact (((dat0 (E0 m) c).arrAt_in 0 rfl _).trans (A_eq0 (E0 m) c 0)).trans (V4_of m outs c _ (by decide)).symm
  | ⟨1, _⟩ => exact (((dat0 (E0 m) c).arrAt_in 1 rfl _).trans (A_eq0 (E0 m) c 1)).trans (V4_of m outs c _ (by decide)).symm
  | ⟨2, _⟩ => exact (((dat0 (E0 m) c).arrAt_in 2 rfl _).trans (A_eq0 (E0 m) c 2)).trans (V4_of m outs c _ (by decide)).symm
  | ⟨3, _⟩ => exact (((dat0 (E0 m) c).arrAt_in 3 rfl _).trans (A_eq0 (E0 m) c 3)).trans (V4_of m outs c _ (by decide)).symm
  | ⟨4, _⟩ => exact (((dat0 (E0 m) c).arrAt_in 4 rfl _).trans (A_eq0 (E0 m) c 4)).trans (V4_of m outs c _ (by decide)).symm
  | ⟨5, _⟩ =>
    refine (hok.h4 c).symm.trans ?_
    show outs 4 main_v15 c = Function.update (V3 m c) (Proc.devRef .tc main_v15) (outs 4 main_v15 c) (Proc.devRef .tc main_v15)
    rw [Function.update_self]

/-- Every buffer that is none of region 0's arrays is as the region found it. -/
theorem hrest0 (c : Dev nD) : ∀ b, b ∉ Finset.univ.image (Pipeline.arrRef spec0) → X0 m outs c b = E0 m c b := fun b hb =>
  V4_of m outs c b (fun h => hb (Finset.mem_image.mpr ⟨5, Finset.mem_univ _, (List.mem_singleton.mp h).symm⟩))

set_option backward.isDefEq.respectTransparency.types false in
/-- Region 0 over the thread state. -/
def reg0 (hok : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m outs) ((pdats m outs 0 c).share_full fun _ => rfl)
      (E0 m c) (X0 m outs c) ((pdats m outs 0 c).arrAt · cfg0.N) (hF0 m outs hok c) (hrest0 m outs c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg1.lean ====
/-
  Region 1 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.KI.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img1 : Finset.univ.image (Pipeline.arrRef spec1)
    = ({main_v19, main_v15, main_v21, main_v26, main_v25, main_v27} : Finset (Ref sig .tc)) := by decide

/-- Those buffers, each whole at the full share, one by one. -/
theorem arrBufs_eq1 (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v19) ↦{fullShare} W main_v19)
          ∗ (((c : Thread nD τ).loc main_v15) ↦{fullShare} W main_v15)
          ∗ (((c : Thread nD τ).loc main_v21) ↦{fullShare} W main_v21)
          ∗ (((c : Thread nD τ).loc main_v26) ↦{fullShare} W main_v26)
          ∗ (((c : Thread nD τ).loc main_v25) ↦{fullShare} W main_v25)
          ∗ (((c : Thread nD τ).loc main_v27) ↦{fullShare} W main_v27)) := by
  unfold Pipeline.arrBufs
  rw [img1, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq1 (V : (c : Dev nD) → (b : Ref sig .tc) → Buf (Elt F) ((c : Thread nD τ).loc b)) (c : Dev nD)
    (G : (w : Fin cfg1.W) → Buf (Elt F) ((cfg1.win w).arr.view.loc (c : Thread nD τ))) :
    ((dat1 V c).arrays G : sProp 𝕄)
      = iprop((((c : Thread nD τ).loc main_v19) ↦{fullShare} G 0)
          ∗ (((c : Thread nD τ).loc main_v15) ↦{(fullShare : PosShare TreeShare).left} G 1)
          ∗ (((c : Thread nD τ).loc main_v21) ↦{fullShare} G 2)
          ∗ (((c : Thread nD τ).loc main_v26) ↦{fullShare} G 3)
          ∗ (((c : Thread nD τ).loc main_v25) ↦{fullShare} G 4)
          ∗ (((c : Thread nD τ).loc main_v15) ↦{(fullShare : PosShare TreeShare).right} G 5)
          ∗ (((c : Thread nD τ).loc main_v27) ↦{fullShare} G 6)) := by
  have h : ((dat1 V c).arrays G : sProp 𝕄)
      = bigSep Finset.univ fun w : Fin 7 => (((c : Thread nD τ).loc (Pipeline.arrRef spec1 w)) ↦{(dat1 V c).share w} G w : sProp 𝕄) := by
    unfold Dat.arrays
    exact bigSep_congr fun w _ => by rw [(arr_whole1 w).set_eq_univ]
  rw [h, bigSep_W1]
  rfl

/-- ENTRY, the arrays' part: the six buffers at contents W are the seven windows' arrays at contents that read W,
    the buffer under two windows halved between them. -/
theorem arrays_of_arrBufs1 (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    (Pipeline.arrBufs (Ix := Unit) (Name := ℕ) (U := UR sig nD τ) (Lvl := ℕ) spec1 c W : sProp 𝕄) ⊢ (dat1 V c).arrays G := by
  obtain rfl : G = fun w => W (Pipeline.arrRef spec1 w) := funext hG
  rw [arrBufs_eq1, arrays_eq1]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays1 (V : (c : Dev nD) → (b : Ref sig .tc) → Buf (Elt F) ((c : Thread nD τ).loc b)) (c : Dev nD)
    (W : (b : Ref sig .tc) → Buf (Elt F) ((c : Thread nD τ).loc b))
    (G : (w : Fin cfg1.W) → Buf (Elt F) ((cfg1.win w).arr.view.loc (c : Thread nD τ)))
    (hG : ∀ w, G w = W (Pipeline.arrRef spec1 w)) :
    ((dat1 V c).arrays G : sProp 𝕄) ⊢ Pipeline.arrBufs (Ix := Unit) (Name := ℕ) (U := UR sig nD τ) (Lvl := ℕ) spec1 c W := by
  obtain rfl : G = fun w => W (Pipeline.arrRef spec1 w) := funext hG
  rw [arrBufs_eq1, arrays_eq1]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF1 (hok : OutsOk m outs) (c : Dev nD) (w : Fin cfg1.W) :
    (dat1 (E1 m outs) c).arrAt w cfg1.N = X1 m outs c (Pipeline.arrRef spec1 w) := by
  match w with
  | ⟨0, _⟩ => exact (((dat1 (E1 m outs) c).arrAt_in 0 rfl _).trans (A_eq1 (E1 m outs) c 0)).trans (V7_of m outs c _ (by decide)).symm
  | ⟨1, _⟩ => exact (((dat1 (E1 m outs) c).arrAt_in 1 rfl _).trans (A_eq1 (E1 m outs) c 1)).trans (V7_of m outs c _ (by decide)).symm
  | ⟨2, _⟩ => exact (((dat1 (E1 m outs) c).arrAt_in 2 rfl _).trans (A_eq1 (E1 m outs) c 2)).trans (V7_of m outs c _ (by decide)).symm
  | ⟨3, _⟩ => exact (((dat1 (E1 m outs) c).arrAt_in 3 rfl _).trans (A_eq1 (E1 m outs) c 3)).trans (V7_of m outs c _ (by decide)).symm
  | ⟨4, _⟩ => exact (((dat1 (E1 m outs) c).arrAt_in 4 rfl _).trans (A_eq1 (E1 m outs) c 4)).trans (V7_of m outs c _ (by decide)).symm
  | ⟨5, _⟩ => exact (((dat1 (E1 m outs) c).arrAt_in 5 rfl _).trans (A_eq1 (E1 m outs) c 5)).trans (V7_of m outs c _ (by decide)).symm
  | ⟨6, _⟩ =>
    refine (hok.h7 c).symm.trans ?_
    show outs 7 main_v27 c = Function.update (V6 m outs c) (Proc.devRef .tc main_v27) (outs 7 main_v27 c) (Proc.devRef .tc main_v27)
    rw [Function.update_self]

/-- Every buffer that is none of the region's arrays is as the region found it. -/
theorem hrest1 (c : Dev nD) : ∀ b, b ∉ Finset.univ.image (Pipeline.arrRef spec1) → X1 m outs c b = E1 m outs c b := fun b hb =>
  V7_of m outs c b (fun h => hb (Finset.mem_image.mpr ⟨6, Finset.mem_univ _, (List.mem_singleton.mp h).symm⟩))

/-- So the unscoped buffers that are no window's array hold at the exit what they held at the entry. -/
theorem rest_congr1 (c : Dev nD) :
    (Pipeline.unscopedRest (Ix := Unit) (Name := ℕ) (U := UR sig nD τ) (Lvl := ℕ) spec1 c (E1 m outs c) : sProp 𝕄)
      = Pipeline.unscopedRest (Ix := Unit) (Name := ℕ) (U := UR sig nD τ) (Lvl := ℕ) spec1 c (X1 m outs c) := by
  unfold Pipeline.unscopedRest
  exact bigSep_congr fun b hb => by rw [hrest1 m outs c b (Finset.mem_sdiff.mp hb).2]

/-- ENTRY: the unscoped buffers at the entry contents are the region's windowed arrays at those contents, each window
    at its share, beside the unscoped buffers that are no window's array. -/
theorem arrays_of_held1 (c : Dev nD) :
    (StableHlo.held (c : Thread nD τ) (Pipeline.ucRefs τ sig) (V6 m outs c) : sProp 𝕄)
      ⊢ iprop((pdats m outs 1 c).arrays ((pdats m outs 1 c).arrAt · 0)
          ∗ Pipeline.unscopedRest (Ix := Unit) (Name := ℕ) (U := UR sig nD τ) (Lvl := ℕ) spec1 c (E1 m outs c)) := by
  have hsplit := Pipeline.unscopedBufs_split₀ (Ix := Unit) (Name := ℕ) (U := UR sig nD τ) (Lvl := ℕ) cfgs 1 winFacts₀1.arr_unscoped c (E1 m outs c)
  rw [Pipeline.unscopedBufs_held] at hsplit
  rw [hsplit]
  exact BIClass.sep_mono (arrays_of_arrBufs1 (E1 m outs) c (E1 m outs c) _ (fun w => rfl)) .rfl

/-- EXIT: the windowed arrays at what the pipeline leaves and the rest as entered are the unscoped buffers at the
    exit contents. -/
theorem held_of_arrays1 (hok : OutsOk m outs) (c : Dev nD) :
    iprop((pdats m outs 1 c).arrays ((pdats m outs 1 c).arrAt · cfg1.N)
        ∗ Pipeline.unscopedRest (Ix := Unit) (Name := ℕ) (U := UR sig nD τ) (Lvl := ℕ) spec1 c (E1 m outs c))
      ⊢ (StableHlo.held (c : Thread nD τ) (Pipeline.ucRefs τ sig) (V7 m outs c) : sProp 𝕄) := by
  have hsplit := Pipeline.unscopedBufs_split₀ (Ix := Unit) (Name := ℕ) (U := UR sig nD τ) (Lvl := ℕ) cfgs 1 winFacts₀1.arr_unscoped c (X1 m outs c)
  rw [Pipeline.unscopedBufs_held] at hsplit
  rw [hsplit]
  exact BIClass.sep_mono (arrBufs_of_arrays1 (E1 m outs) c (X1 m outs c) _ (hF1 m outs hok c)) (Entails.of_eq (rest_congr1 m outs c))

set_option backward.isDefEq.respectTransparency.types false in
/-- Region 1 over the thread state. -/
def reg1 (hok : OutsOk m outs) : Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (E1 m outs) c).loose
  hwaits := Pipeline.hwaits_of_owed_zero _ _ _ _ L lv 1 fun _ _ => rfl
  pre c := iprop(StableHlo.held (c : Thread nD τ) (Pipeline.ucRefs τ sig) (V6 m outs c) ∗ R c)
  post c := iprop(StableHlo.held (c : Thread nD τ) (Pipeline.ucRefs τ sig) (V7 m outs c) ∗ R c)
  X c := iprop(∃ r, prngReg c r)
  Y c := iprop(∃ r, prngReg c r)
  Z c := Pipeline.unscopedRest (Ix := Unit) (Name := ℕ) (U := UR sig nD τ) (Lvl := ℕ) spec1 c (E1 m outs c)
  hentry c := by
    rw [Pipeline.ownSems0_none]
    iintro ⟨⟨Hub, Hp, HO⟩, -, -⟩
    ihave H := (arrays_of_held1 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays1 m outs hok c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg2.lean ====
/-
  Region 2 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.KI.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img2 : Finset.univ.image (Pipeline.arrRef spec2)
    = ({main_v31, main_v27, main_v33, main_v38, main_v37, main_v39} : Finset (Ref sig .tc)) := by decide

/-- Those buffers, each whole at the full share, one by one. -/
theorem arrBufs_eq2 (c : Dev nD) (W : (b : Ref sig .tc) → Buf (Elt F) ((c : Thread nD τ).loc b)) :
    (Pipeline.arrBufs (Ix := Unit) (Name := ℕ) (U := UR sig nD τ) (Lvl := ℕ) spec2 c W : sProp 𝕄)
      = iprop((((c : Thread nD τ).loc main_v31) ↦{fullShare} W main_v31)
          ∗ (((c : Thread nD τ).loc main_v27) ↦{fullShare} W main_v27)
          ∗ (((c : Thread nD τ).loc main_v33) ↦{fullShare} W main_v33)
          ∗ (((c : Thread nD τ).loc main_v38) ↦{fullShare} W main_v38)
          ∗ (((c : Thread nD τ).loc main_v37) ↦{fullShare} W main_v37)
          ∗ (((c : Thread nD τ).loc main_v39) ↦{fullShare} W main_v39)) := by
  unfold Pipeline.arrBufs
  rw [img2, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq2 (V : (c : Dev nD) → (b : Ref sig .tc) → Buf (Elt F) ((c : Thread nD τ).loc b)) (c : Dev nD)
    (G : (w : Fin cfg2.W) → Buf (Elt F) ((cfg2.win w).arr.view.loc (c : Thread nD τ))) :
    ((dat2 V c).arrays G : sProp 𝕄)
      = iprop((((c : Thread nD τ).loc main_v31) ↦{fullShare} G 0)
          ∗ (((c : Thread nD τ).loc main_v27) ↦{(fullShare : PosShare TreeShare).left} G 1)
          ∗ (((c : Thread nD τ).loc main_v33) ↦{fullShare} G 2)
          ∗ (((c : Thread nD τ).loc main_v38) ↦{fullShare} G 3)
          ∗ (((c : Thread nD τ).loc main_v37) ↦{fullShare} G 4)
          ∗ (((c : Thread nD τ).loc main_v27) ↦{(fullShare : PosShare TreeShare).right} G 5)
          ∗ (((c : Thread nD τ).loc main_v39) ↦{fullShare} G 6)) := by
  have h : ((dat2 V c).arrays G : sProp 𝕄)
      = bigSep Finset.univ fun w : Fin 7 => (((c : Thread nD τ).loc (Pipeline.arrRef spec2 w)) ↦{(dat2 V c).share w} G w : sProp 𝕄) := by
    unfold Dat.arrays
    exact bigSep_congr fun w _ => by rw [(arr_whole2 w).set_eq_univ]
  rw [h, bigSep_W2]
  rfl

/-- ENTRY, the arrays' part: the six buffers at contents W are the seven windows' arrays at contents that read W,
    the buffer under two windows halved between them. -/
theorem arrays_of_arrBufs2 (V : (c : Dev nD) → (b : Ref sig .tc) → Buf (Elt F) ((c : Thread nD τ).loc b)) (c : Dev nD)
    (W : (b : Ref sig .tc) → Buf (Elt F) ((c : Thread nD τ).loc b))
    (G : (w : Fin cfg2.W) → Buf (Elt F) ((cfg2.win w).arr.view.loc (c : Thread nD τ)))
    (hG : ∀ w, G w = W (Pipeline.arrRef spec2 w)) :
    (Pipeline.arrBufs (Ix := Unit) (Name := ℕ) (U := UR sig nD τ) (Lvl := ℕ) spec2 c W : sProp 𝕄) ⊢ (dat2 V c).arrays G := by
  obtain rfl : G = fun w => W (Pipeline.arrRef spec2 w) := funext hG
  rw [arrBufs_eq2, arrays_eq2]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays2 (V : (c : Dev nD) → (b : Ref sig .tc) → Buf (Elt F) ((c : Thread nD τ).loc b)) (c : Dev nD)
    (W : (b : Ref sig .tc) → Buf (Elt F) ((c : Thread nD τ).loc b))
    (G : (w : Fin cfg2.W) → Buf (Elt F) ((cfg2.win w).arr.view.loc (c : Thread nD τ)))
    (hG : ∀ w, G w = W (Pipeline.arrRef spec2 w)) :
    ((dat2 V c).arrays G : sProp 𝕄) ⊢ Pipeline.arrBufs (Ix := Unit) (Name := ℕ) (U := UR sig nD τ) (Lvl := ℕ) spec2 c W := by
  obtain rfl : G = fun w => W (Pipeline.arrRef spec2 w) := funext hG
  rw [arrBufs_eq2, arrays_eq2]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF2 (hok : OutsOk m outs) (c : Dev nD) (w : Fin cfg2.W) :
    (dat2 (E2 m outs) c).arrAt w cfg2.N = X2 m outs c (Pipeline.arrRef spec2 w) := by
  match w with
  | ⟨0, _⟩ => exact (((dat2 (E2 m outs) c).arrAt_in 0 rfl _).trans (A_eq2 (E2 m outs) c 0)).trans (V10_of m outs c _ (by decide)).symm
  | ⟨1, _⟩ => exact (((dat2 (E2 m outs) c).arrAt_in 1 rfl _).trans (A_eq2 (E2 m outs) c 1)).trans (V10_of m outs c _ (by decide)).symm
  | ⟨2, _⟩ => exact (((dat2 (E2 m outs) c).arrAt_in 2 rfl _).trans (A_eq2 (E2 m outs) c 2)).trans (V10_of m outs c _ (by decide)).symm
  | ⟨3, _⟩ => exact (((dat2 (E2 m outs) c).arrAt_in 3 rfl _).trans (A_eq2 (E2 m outs) c 3)).trans (V10_of m outs c _ (by decide)).symm
  | ⟨4, _⟩ => exact (((dat2 (E2 m outs) c).arrAt_in 4 rfl _).trans (A_eq2 (E2 m outs) c 4)).trans (V10_of m outs c _ (by decide)).symm
  | ⟨5, _⟩ => exact (((dat2 (E2 m outs) c).arrAt_in 5 rfl _).trans (A_eq2 (E2 m outs) c 5)).trans (V10_of m outs c _ (by decide)).symm
  | ⟨6, _⟩ =>
    refine (hok.h10 c).symm.trans ?_
    show outs 10 main_v39 c = Function.update (V9 m outs c) (Proc.devRef .tc main_v39) (outs 10 main_v39 c) (Proc.devRef .tc main_v39)
    rw [Function.update_self]

/-- Every buffer that is none of the region's arrays is as the region found it. -/
theorem hrest2 (c : Dev nD) : ∀ b, b ∉ Finset.univ.image (Pipeline.arrRef spec2) → X2 m outs c b = E2 m outs c b := fun b hb =>
  V10_of m outs c b (fun h => hb (Finset.mem_image.mpr ⟨6, Finset.mem_univ _, (List.mem_singleton.mp h).symm⟩))

/-- So the unscoped buffers that are no window's array hold at the exit what they held at the entry. -/
theorem rest_congr2 (c : Dev nD) :
    (Pipeline.unscopedRest (Ix := Unit) (Name := ℕ) (U := UR sig nD τ) (Lvl := ℕ) spec2 c (E2 m outs c) : sProp 𝕄)
      = Pipeline.unscopedRest (Ix := Unit) (Name := ℕ) (U := UR sig nD τ) (Lvl := ℕ) spec2 c (X2 m outs c) := by
  unfold Pipeline.unscopedRest
  exact bigSep_congr fun b hb => by rw [hrest2 m outs c b (Finset.mem_sdiff.mp hb).2]

/-- ENTRY: the unscoped buffers at the entry contents are the region's windowed arrays at those contents, each window
    at its share, beside the unscoped buffers that are no window's array. -/
theorem arrays_of_held2 (c : Dev nD) :
    (StableHlo.held (c : Thread nD τ) (Pipeline.ucRefs τ sig) (V9 m outs c) : sProp 𝕄)
      ⊢ iprop((pdats m outs 2 c).arrays ((pdats m outs 2 c).arrAt · 0)
          ∗ Pipeline.unscopedRest (Ix := Unit) (Name := ℕ) (U := UR sig nD τ) (Lvl := ℕ) spec2 c (E2 m outs c)) := by
  have hsplit := Pipeline.unscopedBufs_split₀ (Ix := Unit) (Name := ℕ) (U := UR sig nD τ) (Lvl := ℕ) cfgs 2 winFacts₀2.arr_unscoped c (E2 m outs c)
  rw [Pipeline.unscopedBufs_held] at hsplit
  rw [hsplit]
  exact BIClass.sep_mono (arrays_of_arrBufs2 (E2 m outs) c (E2 m outs c) _ (fun w => rfl)) .rfl

/-- EXIT: the windowed arrays at what the pipeline leaves and the rest as entered are the unscoped buffers at the
    exit contents. -/
theorem held_of_arrays2 (hok : OutsOk m outs) (c : Dev nD) :
    iprop((pdats m outs 2 c).arrays ((pdats m outs 2 c).arrAt · cfg2.N)
        ∗ Pipeline.unscopedRest (Ix := Unit) (Name := ℕ) (U := UR sig nD τ) (Lvl := ℕ) spec2 c (E2 m outs c))
      ⊢ (StableHlo.held (c : Thread nD τ) (Pipeline.ucRefs τ sig) (V10 m outs c) : sProp 𝕄) := by
  have hsplit := Pipeline.unscopedBufs_split₀ (Ix := Unit) (Name := ℕ) (U := UR sig nD τ) (Lvl := ℕ) cfgs 2 winFacts₀2.arr_unscoped c (X2 m outs c)
  rw [Pipeline.unscopedBufs_held] at hsplit
  rw [hsplit]
  exact BIClass.sep_mono (arrBufs_of_arrays2 (E2 m outs) c (X2 m outs c) _ (hF2 m outs hok c)) (Entails.of_eq (rest_congr2 m outs c))

set_option backward.isDefEq.respectTransparency.types false in
/-- Region 2 over the thread state. -/
def reg2 (hok : OutsOk m outs) : Pipeline.RegionSeg (pcfgs (F := F)) adm (pdats m outs) () defs₀ 𝒱₀ L lv 2 where
  win := winFacts₀2
  block_pos := block_pos2
  stage_whole := stage_whole2
  K := PEmpty
  osem k := k.elim
  ho := Pipeline.OwnSemFacts.none _
  hbody c := (body_obligation2 (E2 m outs) c).loose
  hwaits := Pipeline.hwaits_of_owed_zero _ _ _ _ L lv 2 fun _ _ => rfl
  pre c := iprop(StableHlo.held (c : Thread nD τ) (Pipeline.ucRefs τ sig) (V9 m outs c) ∗ R c)
  post c := iprop(StableHlo.held (c : Thread nD τ) (Pipeline.ucRefs τ sig) (V10 m outs c) ∗ R c)
  X c := iprop(∃ r, prngReg c r)
  Y c := iprop(∃ r, prngReg c r)
  Z c := Pipeline.unscopedRest (Ix := Unit) (Name := ℕ) (U := UR sig nD τ) (Lvl := ℕ) spec2 c (E2 m outs c)
  hentry c := by
    rw [Pipeline.ownSems0_none]
    iintro ⟨⟨Hub, Hp, HO⟩, -, -⟩
    ihave H := (arrays_of_held2 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m outs 2 c).Φ (Fin.last _) = Pipeline.ΦA spec2 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays2 m outs hok c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg3.lean ====
/-
  Region 3 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.KI.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img3 : Finset.univ.image (Pipeline.arrRef spec3)
    = ({main_v43, main_v39, main_v45, main_v50, main_v49, main_v51} : Finset (Ref sig .tc)) := by decide

/-- Those buffers, each whole at the full share, one by one. -/
theorem arrBufs_eq3 (c : Dev nD) (W : (b : Ref sig .tc) → Buf (Elt F) ((c : Thread nD τ).loc b)) :
    (Pipeline.arrBufs (Ix := Unit) (Name := ℕ) (U := UR sig nD τ) (Lvl := ℕ) spec3 c W : sProp 𝕄)
      = iprop((((c : Thread nD τ).loc main_v43) ↦{fullShare} W main_v43)
          ∗ (((c : Thread nD τ).loc main_v39) ↦{fullShare} W main_v39)
          ∗ (((c : Thread nD τ).loc main_v45) ↦{fullShare} W main_v45)
          ∗ (((c : Thread nD τ).loc main_v50) ↦{fullShare} W main_v50)
          ∗ (((c : Thread nD τ).loc main_v49) ↦{fullShare} W main_v49)
          ∗ (((c : Thread nD τ).loc main_v51) ↦{fullShare} W main_v51)) := by
  unfold Pipeline.arrBufs
  rw [img3, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq3 (V : (c : Dev nD) → (b : Ref sig .tc) → Buf (Elt F) ((c : Thread nD τ).loc b)) (c : Dev nD)
    (G : (w : Fin cfg3.W) → Buf (Elt F) ((cfg3.win w).arr.view.loc (c : Thread nD τ))) :
    ((dat3 V c).arrays G : sProp 𝕄)
      = iprop((((c : Thread nD τ).loc main_v43) ↦{fullShare} G 0)
          ∗ (((c : Thread nD τ).loc main_v39) ↦{(fullShare : PosShare TreeShare).left} G 1)
          ∗ (((c : Thread nD τ).loc main_v45) ↦{fullShare} G 2)
          ∗ (((c : Thread nD τ).loc main_v50) ↦{fullShare} G 3)
          ∗ (((c : Thread nD τ).loc main_v49) ↦{fullShare} G 4)
          ∗ (((c : Thread nD τ).loc main_v39) ↦{(fullShare : PosShare TreeShare).right} G 5)
          ∗ (((c : Thread nD τ).loc main_v51) ↦{fullShare} G 6)) := by
  have h : ((dat3 V c).arrays G : sProp 𝕄)
      = bigSep Finset.univ fun w : Fin 7 => (((c : Thread nD τ).loc (Pipeline.arrRef spec3 w)) ↦{(dat3 V c).share w} G w : sProp 𝕄) := by
    unfold Dat.arrays
    exact bigSep_congr fun w _ => by rw [(arr_whole3 w).set_eq_univ]
  rw [h, bigSep_W3]
  rfl

/-- ENTRY, the arrays' part: the six buffers at contents W are the seven windows' arrays at contents that read W,
    the buffer under two windows halved between them. -/
theorem arrays_of_arrBufs3 (V : (c : Dev nD) → (b : Ref sig .tc) → Buf (Elt F) ((c : Thread nD τ).loc b)) (c : Dev nD)
    (W : (b : Ref sig .tc) → Buf (Elt F) ((c : Thread nD τ).loc b))
    (G : (w : Fin cfg3.W) → Buf (Elt F) ((cfg3.win w).arr.view.loc (c : Thread nD τ)))
    (hG : ∀ w, G w = W (Pipeline.arrRef spec3 w)) :
    (Pipeline.arrBufs (Ix := Unit) (Name := ℕ) (U := UR sig nD τ) (Lvl := ℕ) spec3 c W : sProp 𝕄) ⊢ (dat3 V c).arrays G := by
  obtain rfl : G = fun w => W (Pipeline.arrRef spec3 w) := funext hG
  rw [arrBufs_eq3, arrays_eq3]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays3 (V : (c : Dev nD) → (b : Ref sig .tc) → Buf (Elt F) ((c : Thread nD τ).loc b)) (c : Dev nD)
    (W : (b : Ref sig .tc) → Buf (Elt F) ((c : Thread nD τ).loc b))
    (G : (w : Fin cfg3.W) → Buf (Elt F) ((cfg3.win w).arr.view.loc (c : Thread nD τ)))
    (hG : ∀ w, G w = W (Pipeline.arrRef spec3 w)) :
    ((dat3 V c).arrays G : sProp 𝕄) ⊢ Pipeline.arrBufs (Ix := Unit) (Name := ℕ) (U := UR sig nD τ) (Lvl := ℕ) spec3 c W := by
  obtain rfl : G = fun w => W (Pipeline.arrRef spec3 w) := funext hG
  rw [arrBufs_eq3, arrays_eq3]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF3 (hok : OutsOk m outs) (c : Dev nD) (w : Fin cfg3.W) :
    (dat3 (E3 m outs) c).arrAt w cfg3.N = X3 m outs c (Pipeline.arrRef spec3 w) := by
  match w with
  | ⟨0, _⟩ => exact (((dat3 (E3 m outs) c).arrAt_in 0 rfl _).trans (A_eq3 (E3 m outs) c 0)).trans (V13_of m outs c _ (by decide)).symm
  | ⟨1, _⟩ => exact (((dat3 (E3 m outs) c).arrAt_in 1 rfl _).trans (A_eq3 (E3 m outs) c 1)).trans (V13_of m outs c _ (by decide)).symm
  | ⟨2, _⟩ => exact (((dat3 (E3 m outs) c).arrAt_in 2 rfl _).trans (A_eq3 (E3 m outs) c 2)).trans (V13_of m outs c _ (by decide)).symm
  | ⟨3, _⟩ => exact (((dat3 (E3 m outs) c).arrAt_in 3 rfl _).trans (A_eq3 (E3 m outs) c 3)).trans (V13_of m outs c _ (by decide)).symm
  | ⟨4, _⟩ => exact (((dat3 (E3 m outs) c).arrAt_in 4 rfl _).trans (A_eq3 (E3 m outs) c 4)).trans (V13_of m outs c _ (by decide)).symm
  | ⟨5, _⟩ => exact (((dat3 (E3 m outs) c).arrAt_in 5 rfl _).trans (A_eq3 (E3 m outs) c 5)).trans (V13_of m outs c _ (by decide)).symm
  | ⟨6, _⟩ =>
    refine (hok.h13 c).symm.trans ?_
    show outs 13 main_v51 c = Function.update (V12 m outs c) (Proc.devRef .tc main_v51) (outs 13 main_v51 c) (Proc.devRef .tc main_v51)
    rw [Function.update_self]

/-- Every buffer that is none of the region's arrays is as the region found it. -/
theorem hrest3 (c : Dev nD) : ∀ b, b ∉ Finset.univ.image (Pipeline.arrRef spec3) → X3 m outs c b = E3 m outs c b := fun b hb =>
  V13_of m outs c b (fun h => hb (Finset.mem_image.mpr ⟨6, Finset.mem_univ _, (List.mem_singleton.mp h).symm⟩))

/-- So the unscoped buffers that are no window's array hold at the exit what they held at the entry. -/
theorem rest_congr3 (c : Dev nD) :
    (Pipeline.unscopedRest (Ix := Unit) (Name := ℕ) (U := UR sig nD τ) (Lvl := ℕ) spec3 c (E3 m outs c) : sProp 𝕄)
      = Pipeline.unscopedRest (Ix := Unit) (Name := ℕ) (U := UR sig nD τ) (Lvl := ℕ) spec3 c (X3 m outs c) := by
  unfold Pipeline.unscopedRest
  exact bigSep_congr fun b hb => by rw [hrest3 m outs c b (Finset.mem_sdiff.mp hb).2]

/-- ENTRY: the unscoped buffers at the entry contents are the region's windowed arrays at those contents, each window
    at its share, beside the unscoped buffers that are no window's array. -/
theorem arrays_of_held3 (c : Dev nD) :
    (StableHlo.held (c : Thread nD τ) (Pipeline.ucRefs τ sig) (V12 m outs c) : sProp 𝕄)
      ⊢ iprop((pdats m outs 3 c).arrays ((pdats m outs 3 c).arrAt · 0)
          ∗ Pipeline.unscopedRest (Ix := Unit) (Name := ℕ) (U := UR sig nD τ) (Lvl := ℕ) spec3 c (E3 m outs c)) := by
  have hsplit := Pipeline.unscopedBufs_split₀ (Ix := Unit) (Name := ℕ) (U := UR sig nD τ) (Lvl := ℕ) cfgs 3 winFacts₀3.arr_unscoped c (E3 m outs c)
  rw [Pipeline.unscopedBufs_held] at hsplit
  rw [hsplit]
  exact BIClass.sep_mono (arrays_of_arrBufs3 (E3 m outs) c (E3 m outs c) _ (fun w => rfl)) .rfl

/-- EXIT: the windowed arrays at what the pipeline leaves and the rest as entered are the unscoped buffers at the
    exit contents. -/
theorem held_of_arrays3 (hok : OutsOk m outs) (c : Dev nD) :
    iprop((pdats m outs 3 c).arrays ((pdats m outs 3 c).arrAt · cfg3.N)
        ∗ Pipeline.unscopedRest (Ix := Unit) (Name := ℕ) (U := UR sig nD τ) (Lvl := ℕ) spec3 c (E3 m outs c))
      ⊢ (StableHlo.held (c : Thread nD τ) (Pipeline.ucRefs τ sig) (V13 m outs c) : sProp 𝕄) := by
  have hsplit := Pipeline.unscopedBufs_split₀ (Ix := Unit) (Name := ℕ) (U := UR sig nD τ) (Lvl := ℕ) cfgs 3 winFacts₀3.arr_unscoped c (X3 m outs c)
  rw [Pipeline.unscopedBufs_held] at hsplit
  rw [hsplit]
  exact BIClass.sep_mono (arrBufs_of_arrays3 (E3 m outs) c (X3 m outs c) _ (hF3 m outs hok c)) (Entails.of_eq (rest_congr3 m outs c))

set_option backward.isDefEq.respectTransparency.types false in
/-- Region 3 over the thread state. -/
def reg3 (hok : OutsOk m outs) : Pipeline.RegionSeg (pcfgs (F := F)) adm (pdats m outs) () defs₀ 𝒱₀ L lv 3 where
  win := winFacts₀3
  block_pos := block_pos3
  stage_whole := stage_whole3
  K := PEmpty
  osem k := k.elim
  ho := Pipeline.OwnSemFacts.none _
  hbody c := (body_obligation3 (E3 m outs) c).loose
  hwaits := Pipeline.hwaits_of_owed_zero _ _ _ _ L lv 3 fun _ _ => rfl
  pre c := iprop(StableHlo.held (c : Thread nD τ) (Pipeline.ucRefs τ sig) (V12 m outs c) ∗ R c)
  post c := iprop(StableHlo.held (c : Thread nD τ) (Pipeline.ucRefs τ sig) (V13 m outs c) ∗ R c)
  X c := iprop(∃ r, prngReg c r)
  Y c := iprop(∃ r, prngReg c r)
  Z c := Pipeline.unscopedRest (Ix := Unit) (Name := ℕ) (U := UR sig nD τ) (Lvl := ℕ) spec3 c (E3 m outs c)
  hentry c := by
    rw [Pipeline.ownSems0_none]
    iintro ⟨⟨Hub, Hp, HO⟩, -, -⟩
    ihave H := (arrays_of_held3 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m outs 3 c).Φ (Fin.last _) = Pipeline.ΦA spec3 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays3 m outs hok c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Seg4.lean ====
/-
  Region 4 as one item of the program's run, over the thread state "every unscoped buffer at the contents the
  previous item left, the generator register at some state, nothing owed". Two of its seven windows (the layer's
  input and the residual) read ONE array, so the six distinct buffers behind the windows are dealt to the seven
  windows with that buffer's share halved; at the exit the two halves, which both still hold the entry contents,
  are joined again, and the output array holds the fold of the ten write-backs.
-/
import proofs.«420102_j84559316123938_1_alg».proof.Proof.KI.PDats
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (outs : Outs (F := F))

/-! ## The six buffers behind the seven windows -/

/-- The distinct buffers behind the region's windowed arrays. -/
theorem img4 : Finset.univ.image (Pipeline.arrRef spec4)
    = ({main_v55, main_v51, main_v57, main_v62, main_v61, main_v63} : Finset (Ref sig .tc)) := by decide

/-- Those buffers, each whole at the full share, one by one. -/
theorem arrBufs_eq4 (c : Dev nD) (W : (b : Ref sig .tc) → Buf (Elt F) ((c : Thread nD τ).loc b)) :
    (Pipeline.arrBufs (Ix := Unit) (Name := ℕ) (U := UR sig nD τ) (Lvl := ℕ) spec4 c W : sProp 𝕄)
      = iprop((((c : Thread nD τ).loc main_v55) ↦{fullShare} W main_v55)
          ∗ (((c : Thread nD τ).loc main_v51) ↦{fullShare} W main_v51)
          ∗ (((c : Thread nD τ).loc main_v57) ↦{fullShare} W main_v57)
          ∗ (((c : Thread nD τ).loc main_v62) ↦{fullShare} W main_v62)
          ∗ (((c : Thread nD τ).loc main_v61) ↦{fullShare} W main_v61)
          ∗ (((c : Thread nD τ).loc main_v63) ↦{fullShare} W main_v63)) := by
  unfold Pipeline.arrBufs
  rw [img4, bigSep_insert (by decide), bigSep_insert (by decide), bigSep_insert (by decide), bigSep_insert (by decide),
    bigSep_insert (by decide), bigSep_singleton]
  rfl

/-- The windowed arrays, window by window: each a whole buffer at the window's share, the two windows on one array
    at its two halves. -/
theorem arrays_eq4 (V : (c : Dev nD) → (b : Ref sig .tc) → Buf (Elt F) ((c : Thread nD τ).loc b)) (c : Dev nD)
    (G : (w : Fin cfg4.W) → Buf (Elt F) ((cfg4.win w).arr.view.loc (c : Thread nD τ))) :
    ((dat4 V c).arrays G : sProp 𝕄)
      = iprop((((c : Thread nD τ).loc main_v55) ↦{fullShare} G 0)
          ∗ (((c : Thread nD τ).loc main_v51) ↦{(fullShare : PosShare TreeShare).left} G 1)
          ∗ (((c : Thread nD τ).loc main_v57) ↦{fullShare} G 2)
          ∗ (((c : Thread nD τ).loc main_v62) ↦{fullShare} G 3)
          ∗ (((c : Thread nD τ).loc main_v61) ↦{fullShare} G 4)
          ∗ (((c : Thread nD τ).loc main_v51) ↦{(fullShare : PosShare TreeShare).right} G 5)
          ∗ (((c : Thread nD τ).loc main_v63) ↦{fullShare} G 6)) := by
  have h : ((dat4 V c).arrays G : sProp 𝕄)
      = bigSep Finset.univ fun w : Fin 7 => (((c : Thread nD τ).loc (Pipeline.arrRef spec4 w)) ↦{(dat4 V c).share w} G w : sProp 𝕄) := by
    unfold Dat.arrays
    exact bigSep_congr fun w _ => by rw [(arr_whole4 w).set_eq_univ]
  rw [h, bigSep_W4]
  rfl

/-- ENTRY, the arrays' part: the six buffers at contents W are the seven windows' arrays at contents that read W,
    the buffer under two windows halved between them. -/
theorem arrays_of_arrBufs4 (V : (c : Dev nD) → (b : Ref sig .tc) → Buf (Elt F) ((c : Thread nD τ).loc b)) (c : Dev nD)
    (W : (b : Ref sig .tc) → Buf (Elt F) ((c : Thread nD τ).loc b))
    (G : (w : Fin cfg4.W) → Buf (Elt F) ((cfg4.win w).arr.view.loc (c : Thread nD τ)))
    (hG : ∀ w, G w = W (Pipeline.arrRef spec4 w)) :
    (Pipeline.arrBufs (Ix := Unit) (Name := ℕ) (U := UR sig nD τ) (Lvl := ℕ) spec4 c W : sProp 𝕄) ⊢ (dat4 V c).arrays G := by
  obtain rfl : G = fun w => W (Pipeline.arrRef spec4 w) := funext hG
  rw [arrBufs_eq4, arrays_eq4]
  iintro ⟨Ha, Hb, Hc, Hd, He, Hz⟩
  ihave Hb := (pointsTo_share (PosShare.mem_left_op_right fullShare)).1 $$ Hb
  icases Hb with ⟨Hbl, Hbr⟩
  isplitl [Ha]; · iexact Ha
  isplitl [Hbl]; · iexact Hbl
  isplitl [Hc]; · iexact Hc
  isplitl [Hd]; · iexact Hd
  isplitl [He]; · iexact He
  isplitl [Hbr]; · iexact Hbr
  iexact Hz

/-- EXIT, the arrays' part: the seven windows' arrays at contents that read W — so the two halves of the shared
    buffer hold the same contents and join — are the six buffers at W. -/
theorem arrBufs_of_arrays4 (V : (c : Dev nD) → (b : Ref sig .tc) → Buf (Elt F) ((c : Thread nD τ).loc b)) (c : Dev nD)
    (W : (b : Ref sig .tc) → Buf (Elt F) ((c : Thread nD τ).loc b))
    (G : (w : Fin cfg4.W) → Buf (Elt F) ((cfg4.win w).arr.view.loc (c : Thread nD τ)))
    (hG : ∀ w, G w = W (Pipeline.arrRef spec4 w)) :
    ((dat4 V c).arrays G : sProp 𝕄) ⊢ Pipeline.arrBufs (Ix := Unit) (Name := ℕ) (U := UR sig nD τ) (Lvl := ℕ) spec4 c W := by
  obtain rfl : G = fun w => W (Pipeline.arrRef spec4 w) := funext hG
  rw [arrBufs_eq4, arrays_eq4]
  iintro ⟨Ha, Hbl, Hc, Hd, He, Hbr, Hz⟩
  ihave Hb := (pointsTo_share (PosShare.mem_left_op_right fullShare)).2 $$ [Hbl Hbr]
  · isplitl [Hbl] <;> iassumption
  isplitl [Ha]; · iexact Ha
  isplitl [Hb]; · iexact Hb
  isplitl [Hc]; · iexact Hc
  isplitl [Hd]; · iexact Hd
  isplitl [He]; · iexact He
  iexact Hz

/-! ## The contents at the exit -/

set_option maxHeartbeats 1000000 in
/-- At the region's exit each of its arrays holds what the pipeline leaves: an input its entry contents, the output
    the fold of the write-backs. -/
theorem hF4 (hok : OutsOk m outs) (c : Dev nD) (w : Fin cfg4.W) :
    (dat4 (E4 m outs) c).arrAt w cfg4.N = X4 m outs c (Pipeline.arrRef spec4 w) := by
  match w with
  | ⟨0, _⟩ => exact (((dat4 (E4 m outs) c).arrAt_in 0 rfl _).trans (A_eq4 (E4 m outs) c 0)).trans (V16_of m outs c _ (by decide)).symm
  | ⟨1, _⟩ => exact (((dat4 (E4 m outs) c).arrAt_in 1 rfl _).trans (A_eq4 (E4 m outs) c 1)).trans (V16_of m outs c _ (by decide)).symm
  | ⟨2, _⟩ => exact (((dat4 (E4 m outs) c).arrAt_in 2 rfl _).trans (A_eq4 (E4 m outs) c 2)).trans (V16_of m outs c _ (by decide)).symm
  | ⟨3, _⟩ => exact (((dat4 (E4 m outs) c).arrAt_in 3 rfl _).trans (A_eq4 (E4 m outs) c 3)).trans (V16_of m outs c _ (by decide)).symm
  | ⟨4, _⟩ => exact (((dat4 (E4 m outs) c).arrAt_in 4 rfl _).trans (A_eq4 (E4 m outs) c 4)).trans (V16_of m outs c _ (by decide)).symm
  | ⟨5, _⟩ => exact (((dat4 (E4 m outs) c).arrAt_in 5 rfl _).trans (A_eq4 (E4 m outs) c 5)).trans (V16_of m outs c _ (by decide)).symm
  | ⟨6, _⟩ =>
    refine (hok.h16 c).symm.trans ?_
    show outs 16 main_v63 c = Function.update (V15 m outs c) (Proc.devRef .tc main_v63) (outs 16 main_v63 c) (Proc.devRef .tc main_v63)
    rw [Function.update_self]

/-- Every buffer that is none of the region's arrays is as the region found it. -/
theorem hrest4 (c : Dev nD) : ∀ b, b ∉ Finset.univ.image (Pipeline.arrRef spec4) → X4 m outs c b = E4 m outs c b := fun b hb =>
  V16_of m outs c b (fun h => hb (Finset.mem_image.mpr ⟨6, Finset.mem_univ _, (List.mem_singleton.mp h).symm⟩))

/-- So the unscoped buffers that are no window's array hold at the exit what they held at the entry. -/
theorem rest_congr4 (c : Dev nD) :
    (Pipeline.unscopedRest (Ix := Unit) (Name := ℕ) (U := UR sig nD τ) (Lvl := ℕ) spec4 c (E4 m outs c) : sProp 𝕄)
      = Pipeline.unscopedRest (Ix := Unit) (Name := ℕ) (U := UR sig nD τ) (Lvl := ℕ) spec4 c (X4 m outs c) := by
  unfold Pipeline.unscopedRest
  exact bigSep_congr fun b hb => by rw [hrest4 m outs c b (Finset.mem_sdiff.mp hb).2]

/-- ENTRY: the unscoped buffers at the entry contents are the region's windowed arrays at those contents, each window
    at its share, beside the unscoped buffers that are no window's array. -/
theorem arrays_of_held4 (c : Dev nD) :
    (StableHlo.held (c : Thread nD τ) (Pipeline.ucRefs τ sig) (V15 m outs c) : sProp 𝕄)
      ⊢ iprop((pdats m outs 4 c).arrays ((pdats m outs 4 c).arrAt · 0)
          ∗ Pipeline.unscopedRest (Ix := Unit) (Name := ℕ) (U := UR sig nD τ) (Lvl := ℕ) spec4 c (E4 m outs c)) := by
  have hsplit := Pipeline.unscopedBufs_split₀ (Ix := Unit) (Name := ℕ) (U := UR sig nD τ) (Lvl := ℕ) cfgs 4 winFacts₀4.arr_unscoped c (E4 m outs c)
  rw [Pipeline.unscopedBufs_held] at hsplit
  rw [hsplit]
  exact BIClass.sep_mono (arrays_of_arrBufs4 (E4 m outs) c (E4 m outs c) _ (fun w => rfl)) .rfl

/-- EXIT: the windowed arrays at what the pipeline leaves and the rest as entered are the unscoped buffers at the
    exit contents. -/
theorem held_of_arrays4 (hok : OutsOk m outs) (c : Dev nD) :
    iprop((pdats m outs 4 c).arrays ((pdats m outs 4 c).arrAt · cfg4.N)
        ∗ Pipeline.unscopedRest (Ix := Unit) (Name := ℕ) (U := UR sig nD τ) (Lvl := ℕ) spec4 c (E4 m outs c))
      ⊢ (StableHlo.held (c : Thread nD τ) (Pipeline.ucRefs τ sig) (V16 m outs c) : sProp 𝕄) := by
  have hsplit := Pipeline.unscopedBufs_split₀ (Ix := Unit) (Name := ℕ) (U := UR sig nD τ) (Lvl := ℕ) cfgs 4 winFacts₀4.arr_unscoped c (X4 m outs c)
  rw [Pipeline.unscopedBufs_held] at hsplit
  rw [hsplit]
  exact BIClass.sep_mono (arrBufs_of_arrays4 (E4 m outs) c (X4 m outs c) _ (hF4 m outs hok c)) (Entails.of_eq (rest_congr4 m outs c))

set_option backward.isDefEq.respectTransparency.types false in
/-- Region 4 over the thread state. -/
def reg4 (hok : OutsOk m outs) : Pipeline.RegionSeg (pcfgs (F := F)) adm (pdats m outs) () defs₀ 𝒱₀ L lv 4 where
  win := winFacts₀4
  block_pos := block_pos4
  stage_whole := stage_whole4
  K := PEmpty
  osem k := k.elim
  ho := Pipeline.OwnSemFacts.none _
  hbody c := (body_obligation4 (E4 m outs) c).loose
  hwaits := Pipeline.hwaits_of_owed_zero _ _ _ _ L lv 4 fun _ _ => rfl
  pre c := iprop(StableHlo.held (c : Thread nD τ) (Pipeline.ucRefs τ sig) (V15 m outs c) ∗ R c)
  post c := iprop(StableHlo.held (c : Thread nD τ) (Pipeline.ucRefs τ sig) (V16 m outs c) ∗ R c)
  X c := iprop(∃ r, prngReg c r)
  Y c := iprop(∃ r, prngReg c r)
  Z c := Pipeline.unscopedRest (Ix := Unit) (Name := ℕ) (U := UR sig nD τ) (Lvl := ℕ) spec4 c (E4 m outs c)
  hentry c := by
    rw [Pipeline.ownSems0_none]
    iintro ⟨⟨Hub, Hp, HO⟩, -, -⟩
    ihave H := (arrays_of_held4 m outs c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m outs 4 c).Φ (Fin.last _) = Pipeline.ΦA spec4 c from rfl]; unfold Pipeline.ΦA
    iintro ⟨Hr, Hp⟩
    isplitl [Hp]; · iexact Hp
    isplitr; · iempintro
    iexact Hr
  hexit c := by
    iintro ⟨Ha, HO, HY, Hrest⟩
    imodintro
    isplitl [Ha Hrest]
    · iapply (held_of_arrays4 m outs hok c); isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KI.Outs.lean ====
/-
  The unknown contents of the conditional frame, chosen. What region K leaves in its output array is the fold of
  the region's ten write-backs over the contents the region is entered from, and those contents depend on the
  unknowns of the earlier regions only. So the five unknowns are determined in order: region 0's from the launch
  contents, region 1's from region 0's, and so on; the family below holds each at its reference and the launch
  contents elsewhere. The entry contents of a region read the family only at the earlier regions' references, so
  the family chosen at the end agrees, for every region, with the partial family the region's output was built from.
-/
import proofs.«420102_j84559316123938_1_alg».proof.Proof.KI.PDats

set_option maxRecDepth 16384

noncomputable section

namespace Cert.KernelIdeal.Hand

open Cert.KernelIdeal Cert.KernelIdeal.Gen
open Idealize.ShloMosaic Idealize.ShloMosaic.TcCoe
open Idealize.ShloMosaic.Pipeline (Dat)

variable {F : FTy → Type} [FloatOps F]

variable (m : (ℓ : Loc nD τ sig) → Buf (Elt F) ℓ)

/-! ## The five unknowns, in order -/

/-- What region 0 leaves in its output array: a function of the launch contents alone. -/
def o4 (c : Dev nD) : Buf (Elt F) ((c : Thread nD τ).loc main_v15) := (dat0 (E0 m) c).arrAt 5 cfg0.N
/-- The family that knows region 0's output only (the launch contents elsewhere). -/
def outs1 : Outs (F := F) := fun _ r c => if h : r = main_v15 then h ▸ o4 m c else m ((c : Thread nD τ).loc r)
/-- What region 1 leaves in its output array, entered from contents that hold region 0's output. -/
def o7 (c : Dev nD) : Buf (Elt F) ((c : Thread nD τ).loc main_v27) := (dat1 (E1 m (outs1 m)) c).arrAt 6 cfg1.N
def outs2 : Outs (F := F) := fun n r c => if h : r = main_v27 then h ▸ o7 m c else outs1 m n r c
/-- What region 2 leaves in its output array. -/
def o10 (c : Dev nD) : Buf (Elt F) ((c : Thread nD τ).loc main_v39) := (dat2 (E2 m (outs2 m)) c).arrAt 6 cfg2.N
def outs3 : Outs (F := F) := fun n r c => if h : r = main_v39 then h ▸ o10 m c else outs2 m n r c
/-- What region 3 leaves in its output array. -/
def o13 (c : Dev nD) : Buf (Elt F) ((c : Thread nD τ).loc main_v51) := (dat3 (E3 m (outs3 m)) c).arrAt 6 cfg3.N
def outs4 : Outs (F := F) := fun n r c => if h : r = main_v51 then h ▸ o13 m c else outs3 m n r c
/-- What region 4 leaves in its output array. -/
def o16 (c : Dev nD) : Buf (Elt F) ((c : Thread nD τ).loc main_v63) := (dat4 (E4 m (outs4 m)) c).arrAt 6 cfg4.N
/-- The family that knows all five outputs. -/
def outsOf : Outs (F := F) := fun n r c => if h : r = main_v63 then h ▸ o16 m c else outs4 m n r c

/-! ## Each family read at the references it knows -/

theorem outs1_v15 (n : ℕ) (c : Dev nD) : outs1 m n main_v15 c = o4 m c := rfl
theorem outs2_v15 (n : ℕ) (c : Dev nD) : outs2 m n main_v15 c = o4 m c := rfl
theorem outs2_v27 (n : ℕ) (c : Dev nD) : outs2 m n main_v27 c = o7 m c := rfl
theorem outs3_v15 (n : ℕ) (c : Dev nD) : outs3 m n main_v15 c = o4 m c := rfl
theorem outs3_v27 (n : ℕ) (c : Dev nD) : outs3 m n main_v27 c = o7 m c := rfl
theorem outs3_v39 (n : ℕ) (c : Dev nD) : outs3 m n main_v39 c = o10 m c := rfl
theorem outs4_v15 (n : ℕ) (c : Dev nD) : outs4 m n main_v15 c = o4 m c := rfl
theorem outs4_v27 (n : ℕ) (c : Dev nD) : outs4 m n main_v27 c = o7 m c := rfl
theorem outs4_v39 (n : ℕ) (c : Dev nD) : outs4 m n main_v39 c = o10 m c := rfl
theorem outs4_v51 (n : ℕ) (c : Dev nD) : outs4 m n main_v51 c = o13 m c := rfl
theorem outsOf_v15 (n : ℕ) (c : Dev nD) : outsOf m n main_v15 c = o4 m c := rfl
theorem outsOf_v27 (n : ℕ) (c : Dev nD) : outsOf m n main_v27 c = o7 m c := rfl
theorem outsOf_v39 (n : ℕ) (c : Dev nD) : outsOf m n main_v39 c = o10 m c := rfl
theorem outsOf_v51 (n : ℕ) (c : Dev nD) : outsOf m n main_v51 c = o13 m c := rfl
theorem outsOf_v63 (n : ℕ) (c : Dev nD) : outsOf m n main_v63 c = o16 m c := rfl

/-! ## The entry contents depend on the earlier unknowns only -/

section Congr
variable (outs outs' : Outs (F := F))

theorem V4_congr (h4 : ∀ c, outs 4 main_v15 c = outs' 4 main_v15 c) (c : Dev nD) : V4 m outs c = V4 m outs' c := by
  show Function.update (V3 m c) main_v15 (outs 4 main_v15 c) = Function.update (V3 m c) main_v15 (outs' 4 main_v15 c)
  rw [h4 c]
theorem V6_congr (h4 : ∀ c, outs 4 main_v15 c = outs' 4 main_v15 c) (c : Dev nD) : V6 m outs c = V6 m outs' c :=
  congrArg (fun v => StableHlo.after hostOps1_1 (StableHlo.after hostOps1 v)) (V4_congr m outs outs' h4 c)
theorem V7_congr (h4 : ∀ c, outs 4 main_v15 c = outs' 4 main_v15 c) (h7 : ∀ c, outs 7 main_v27 c = outs' 7 main_v27 c) (c : Dev nD) :
    V7 m outs c = V7 m outs' c := by
  show Function.update (V6 m outs c) main_v27 (outs 7 main_v27 c) = Function.update (V6 m outs' c) main_v27 (outs' 7 main_v27 c)
  rw [V6_congr m outs outs' h4 c, h7 c]
theorem V9_congr (h4 : ∀ c, outs 4 main_v15 c = outs' 4 main_v15 c) (h7 : ∀ c, outs 7 main_v27 c = outs' 7 main_v27 c) (c : Dev nD) :
    V9 m outs c = V9 m outs' c :=
  congrArg (fun v => StableHlo.after hostOps2_1 (StableHlo.after hostOps2 v)) (V7_congr m outs outs' h4 h7 c)
theorem V10_congr (h4 : ∀ c, outs 4 main_v15 c = outs' 4 main_v15 c) (h7 : ∀ c, outs 7 main_v27 c = outs' 7 main_v27 c)
    (h10 : ∀ c, outs 10 main_v39 c = outs' 10 main_v39 c) (c : Dev nD) : V10 m outs c = V10 m outs' c := by
  show Function.update (V9 m outs c) main_v39 (outs 10 main_v39 c) = Function.update (V9 m outs' c) main_v39 (outs' 10 main_v39 c)
  rw [V9_congr m outs outs' h4 h7 c, h10 c]
theorem V12_congr (h4 : ∀ c, outs 4 main_v15 c = outs' 4 main_v15 c) (h7 : ∀ c, outs 7 main_v27 c = outs' 7 main_v27 c)
    (h10 : ∀ c, outs 10 main_v39 c = outs' 10 main_v39 c) (c : Dev nD) : V12 m outs c = V12 m outs' c :=
  congrArg (fun v => StableHlo.after hostOps3_1 (StableHlo.after hostOps3 v)) (V10_congr m outs outs' h4 h7 h10 c)
theorem V13_congr (h4 : ∀ c, outs 4 main_v15 c = outs' 4 main_v15 c) (h7 : ∀ c, outs 7 main_v27 c = outs' 7 main_v27 c)
    (h10 : ∀ c, outs 10 main_v39 c = outs' 10 main_v39 c) (h13 : ∀ c, outs 13 main_v51 c = outs' 13 main_v51 c) (c : Dev nD) :
    V13 m outs c = V13 m outs' c := by
  show Function.update (V12 m outs c) main_v51 (outs 13 main_v51 c) = Function.update (V12 m outs' c) main_v51 (outs' 13 main_v51 c)
  rw [V12_congr m outs outs' h4 h7 h10 c, h13 c]
theorem V15_congr (h4 : ∀ c, outs 4 main_v15 c = outs' 4 main_v15 c) (h7 : ∀ c, outs 7 main_v27 c = outs' 7 main_v27 c)
    (h10 : ∀ c, outs 10 main_v39 c = outs' 10 main_v39 c) (h13 : ∀ c, outs 13 main_v51 c = outs' 13 main_v51 c) (c : Dev nD) :
    V15 m outs c = V15 m outs' c :=
  congrArg (fun v => StableHlo.after hostOps4_1 (StableHlo.after hostOps4 v)) (V13_congr m outs outs' h4 h7 h10 h13 c)

/-- Region 1 is entered from contents that read the unknowns at region 0's output only. -/
theorem E1_congr (h4 : ∀ c, outs 4 main_v15 c = outs' 4 main_v15 c) : E1 m outs = E1 m outs' := by
  funext c b; exact congrFun (V6_congr m outs outs' h4 c) _
/-- Region 2: at the outputs of regions 0 and 1. -/
theorem E2_congr (h4 : ∀ c, outs 4 main_v15 c = outs' 4 main_v15 c) (h7 : ∀ c, outs 7 main_v27 c = outs' 7 main_v27 c) :
    E2 m outs = E2 m outs' := by
  funext c b; exact congrFun (V9_congr m outs outs' h4 h7 c) _
/-- Region 3: at the outputs of regions 0, 1 and 2. -/
theorem E3_congr (h4 : ∀ c, outs 4 main_v15 c = outs' 4 main_v15 c) (h7 : ∀ c, outs 7 main_v27 c = outs' 7 main_v27 c)
    (h10 : ∀ c, outs 10 main_v39 c = outs' 10 main_v39 c) : E3 m outs = E3 m outs' := by
  funext c b; exact congrFun (V12_congr m outs outs' h4 h7 h10 c) _
/-- Region 4: at the outputs of regions 0 to 3. -/
theorem E4_congr (h4 : ∀ c, outs 4 main_v15 c = outs' 4 main_v15 c) (h7 : ∀ c, outs 7 main_v27 c = outs' 7 main_v27 c)
    (h10 : ∀ c, outs 10 main_v39 c = outs' 10 main_v39 c) (h13 : ∀ c, outs 13 main_v51 c = outs' 13 main_v51 c) :
    E4 m outs = E4 m outs' := by
  funext c b; exact congrFun (V15_congr m outs outs' h4 h7 h10 h13 c) _

end Congr

/-! ## The chosen family is the pipelines' own account -/

theorem outsOk : OutsOk m (outsOf m) where
  h4 c := outsOf_v15 m 4 c
  h7 c := (outsOf_v27 m 7 c).trans (congrArg (fun E => (dat1 E c).arrAt 6 cfg1.N)
    (E1_congr m (outs1 m) (outsOf m) (fun c => (outs1_v15 m 4 c).trans (outsOf_v15 m 4 c).symm)))
  h10 c := (outsOf_v39 m 10 c).trans (congrArg (fun E => (dat2 E c).arrAt 6 cfg2.N)
    (E2_congr m (outs2 m) (outsOf m) (fun c => (outs2_v15 m 4 c).trans (outsOf_v15 m 4 c).symm)
      (fun c => (outs2_v27 m 7 c).trans (outsOf_v27 m 7 c).symm)))
  h13 c := (outsOf_v51 m 13 c).trans (congrArg (fun E => (dat3 E c).arrAt 6 cfg3.N)
    (E3_congr m (outs3 m) (outsOf m) (fun c => (outs3_v15 m 4 c).trans (outsOf_v15 m 4 c).symm)
      (fun c => (outs3_v27 m 7 c).trans (outsOf_v27 m 7 c).symm) (fun c => (outs3_v39 m 10 c).trans (outsOf_v39 m 10 c).symm)))
  h16 c := (outsOf_v63 m 16 c).trans (congrArg (fun E => (dat4 E c).arrAt 6 cfg4.N)
    (E4_congr m (outs4 m) (outsOf m) (fun c => (outs4_v15 m 4 c).trans (outsOf_v15 m 4 c).symm)
      (fun c => (outs4_v27 m 7 c).trans (outsOf_v27 m 7 c).symm) (fun c => (outs4_v39 m 10 c).trans (outsOf_v39 m 10 c).symm)
      (fun c => (outs4_v51 m 13 c).trans (outsOf_v51 m 13 c).symm)))

end Cert.KernelIdeal.Hand

end
-- ==== Proof.KI.Frame.lean ====
/-
  The program's frame: every weakly fair execution terminates, nothing faults, and the argument arrays end as
  launched — the conditional frame of the five regions, given each region's record over the thread state, with
  the regions' unknown output contents instantiated at what the pipelines leave.
-/
import proofs.«420102_j84559316123938_1_alg».proof.Proof.KI.Seg0
import proofs.«420102_j84559316123938_1_alg».proof.Proof.KI.Seg1
import proofs.«420102_j84559316123938_1_alg».proof.Proof.KI.Seg2
import proofs.«420102_j84559316123938_1_alg».proof.Proof.KI.Seg3
import proofs.«420102_j84559316123938_1_alg».proof.Proof.KI.Seg4
import proofs.«420102_j84559316123938_1_alg».proof.Proof.KI.Outs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's ghost element: the pipeline library's at every pipeline's staging cells. -/
abbrev u₀ : UR sig nD τ := initOf (Pipeline.cells cfgs cellOf_inj) (Pipeline.launchToks cfgs cellOf_inj)

/-- It yields itself, and no further ghost resource per core. -/
theorem hu₀ : (ownU (u₀ : UR sig nD τ) : sProp 𝕄)
    ⊢ |={Set.univ}=> iprop(BI.own ((emb₁ : Emb (UR sig nD τ) 𝕄) (initOf (Pipeline.cells cfgs cellOf_inj) (Pipeline.launchToks cfgs cellOf_inj)))
        ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own ((emb₁ : Emb (UR sig nD τ) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core makes the rest that rides along: its generator register at its launch state, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (Erest (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the rest still owes nothing. -/
theorem hE5 (c : Dev nD) : Erest (F := F) 5 c ⊢ (iprop(∃ W, owes (c : Thread nD τ) (0 : CellTallies nD τ sig Unit) W) : sProp 𝕄) := by
  iintro ⟨-, HO⟩; iexact HO

set_option backward.isDefEq.respectTransparency.types false in
/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Gen.frame_cond m (emb₁ : Emb (UR sig nD τ) 𝕄) () 𝒱₀ L lv (fun _ _ => rfl) ρ (outsOf m) (pdats m (outsOf m))
    (0 : Dev nD → CellTallies nD τ sig Unit) (fun _ => (BI.emp : sProp 𝕄)) u₀ hu₀ (Erest (F := F)) (hE0 ρ) hE5
    (reg0 m (outsOf m) (outsOk m)) (fun _ => .rfl) (fun _ => .rfl)
    (reg1 m (outsOf m) (outsOk m)) (fun _ => .rfl) (fun _ => .rfl)
    (reg2 m (outsOf m) (outsOk m)) (fun _ => .rfl) (fun _ => .rfl)
    (reg3 m (outsOf m) (outsOk m)) (fun _ => .rfl) (fun _ => .rfl)
    (reg4 m (outsOf m) (outsOk m)) (fun _ => .rfl) (fun _ => .rfl)

end Cert.KernelIdeal.Hand

end
-- ==== Proof.KI.RunCond.lean ====
/-
  The program's run from the regions' records, with the RESULT read at the end as well as the arguments: for any
  contents the regions leave and any proof data, given per region a record entered from the thread state before it
  and left at the one after it, every weakly fair execution terminates, the result array ends at what the last
  region left in it, and every argument array ends as launched.
-/
import proofs.«420102_j84559316123938_1_alg».proof.Proof.Gen.KernelIdeal.Regions

set_option maxRecDepth 1460

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

/-- The last region's output array holds, in the last valuation, what that region left in it. -/
theorem V16_main_v63 (outs : Outs (F := F)) (c : Dev nD) : V16 m outs c main_v63 = outs 16 main_v63 c := by
  show Function.update (V15 m outs c) (Proc.devRef .tc main_v63) (outs 16 main_v63 c) (Proc.devRef .tc main_v63) = _
  rw [Function.update_self]

set_option backward.isDefEq.respectTransparency.types false in
/-- The run, given the regions' records. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V6 m outs c) ∗ E 1 c) ⊢ R1.pre c)
    (hpost1 : ∀ c : Dev nD, R1.post c ⊢ iprop(StableHlo.held (c : Thread nD τ) (Pipeline.ucRefs τ sig) (V7 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V9 m outs c) ∗ E 2 c) ⊢ R2.pre c)
    (hpost2 : ∀ c : Dev nD, R2.post c ⊢ iprop(StableHlo.held (c : Thread nD τ) (Pipeline.ucRefs τ sig) (V10 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V12 m outs c) ∗ E 3 c) ⊢ R3.pre c)
    (hpost3 : ∀ c : Dev nD, R3.post c ⊢ iprop(StableHlo.held (c : Thread nD τ) (Pipeline.ucRefs τ sig) (V13 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V15 m outs c) ∗ E 4 c) ⊢ R4.pre c)
    (hpost4 : ∀ c : Dev nD, R4.post c ⊢ iprop(StableHlo.held (c : Thread nD τ) (Pipeline.ucRefs τ sig) (V16 m outs c) ∗ E 5 c)) :
    θ_run defs (onTc (τ := τ) (main (F := F))) ⟨m, fun _ => 0, ρ⟩ (fun r => ∀ c : Dev nD,
      r.2.mem ((c.tc : Thread nD τ).loc main_v63) = outs 16 main_v63 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          Prog.lift (.customCall (Pipeline.entry 3) ()),
          StableHlo.seq hostOps4,
          StableHlo.seq hostOps4_1,
          Prog.lift (.customCall (Pipeline.entry 4) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V16 m outs c))
    (hch := fun c => ⟨.rfl, .rfl, .rfl, hpre0 c, hpost0 c, .rfl, hpre1 c, hpost1 c, .rfl, hpre2 c, hpost2 c, .rfl, hpre3 c, hpost3 c, .rfl, hpre4 c, (hpost4 c).trans (sep_mono .rfl (hE5 c))⟩)
    (hinit := ?_) (QY := fun c s => s.mem ((c.tc : Thread nD τ).loc main_v63) = outs 16 main_v63 c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result's buffer and each argument's read off the last valuation
    unfold StableHlo.held
    iintro ⟨Hh, HSI⟩
    ihave Hr := (pointsTo_read_all (Pipeline.ucRefs τ sig) (fun b => ((c : Thread nD τ).1, b)) (V16 m outs c) s') $$ [Hh HSI]
    · isplitl [Hh] <;> iassumption
    icases Hr with ⟨%h, HSI⟩
    imodintro
    isplitr
    · ipureintro
      exact ⟨(h (Proc.devRef .tc main_v63) (Finset.mem_filter.mpr ⟨StableHlo.devRef_mem_tcRefs main_v63, by decide⟩)).trans (V16_main_v63 m outs c),
        (h (Proc.devRef .tc main_arg0) (Finset.mem_filter.mpr ⟨StableHlo.devRef_mem_tcRefs main_arg0, by decide⟩)).trans (V16_main_arg0 m outs c),
        (h (Proc.devRef .tc main_arg1) (Finset.mem_filter.mpr ⟨StableHlo.devRef_mem_tcRefs main_arg1, by decide⟩)).trans (V16_main_arg1 m outs c),
        (h (Proc.devRef .tc main_arg2) (Finset.mem_filter.mpr ⟨StableHlo.devRef_mem_tcRefs main_arg2, by decide⟩)).trans (V16_main_arg2 m outs c),
        (h (Proc.devRef .tc main_arg3) (Finset.mem_filter.mpr ⟨StableHlo.devRef_mem_tcRefs main_arg3, by decide⟩)).trans (V16_main_arg3 m outs c),
        (h (Proc.devRef .tc main_arg4) (Finset.mem_filter.mpr ⟨StableHlo.devRef_mem_tcRefs main_arg4, by decide⟩)).trans (V16_main_arg4 m outs c)⟩
    · iexact HSI

end Cert.KernelIdeal.Hand

end
-- ==== Proof.KI.Run.lean ====
/-
  The idealized kernel's run with its result named: every weakly fair execution terminates, the result array ends
  at what the last region's pipeline leaves in it, and the arguments end as launched.
-/
import proofs.«420102_j84559316123938_1_alg».proof.Proof.KI.Frame
import proofs.«420102_j84559316123938_1_alg».proof.Proof.KI.RunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) ⟨m, fun _ => 0, ρ⟩ (fun r => ∀ c : Dev nD,
      r.2.mem ((c.tc : Thread nD τ).loc main_v63) = outsOf m 16 main_v63 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  run_cond m (emb₁ : Emb (UR sig nD τ) 𝕄) () 𝒱₀ L lv (fun _ _ => rfl) ρ (outsOf m) (pdats m (outsOf m))
    (0 : Dev nD → CellTallies nD τ sig Unit) (fun _ => (BI.emp : sProp 𝕄)) u₀ hu₀ (Erest (F := F)) (hE0 ρ) hE5
    (reg0 m (outsOf m) (outsOk m)) (fun _ => .rfl) (fun _ => .rfl)
    (reg1 m (outsOf m) (outsOk m)) (fun _ => .rfl) (fun _ => .rfl)
    (reg2 m (outsOf m) (outsOk m)) (fun _ => .rfl) (fun _ => .rfl)
    (reg3 m (outsOf m) (outsOk m)) (fun _ => .rfl) (fun _ => .rfl)
    (reg4 m (outsOf m) (outsOk m)) (fun _ => .rfl) (fun _ => .rfl)

end Cert.KernelIdeal.Hand

end
-- ==== Proof.KI.HostDefs.lean ====
/-
  The host side of one GraphConv layer as the program computes it between two kernel regions, as pure functions of
  the edge list, of the layer's input and of the stacked weights: the source and destination ids, the source ids
  wrapped as NumPy wraps a negative index and laid out as a column of start indices, the per-edge test that the
  wrapped id is a row of the table, the take that fills a row whose id fails the test, the scatter-add of the
  taken rows into the destination rows, and the layer's slices of the stacked weights.
-/
import proofs.«420102_j84559316123938_1_alg».proof.Proof.Gen.KernelIdeal

noncomputable section

namespace Cert.KernelIdeal.Hand

open Cert.KernelIdeal Cert.KernelIdeal.Gen
open Idealize.ShloMosaic

variable {F : FTy → Type} [FloatOps F]

/-- Row 0 of the edge list: the source node of each edge. -/
def srcOf (A1 : IVec S2x600000 32) : IVec S600000 32 :=
  shapeCast S600000 (extractStridedSlice S1x600000 ![0, 0] A1 slices_S2x600000_S1x600000_0_0) shapeCasts_S1x600000_S600000
/-- Row 1 of the edge list: the destination node of each edge. -/
def dstOf (A1 : IVec S2x600000 32) : IVec S600000 32 :=
  shapeCast S600000 (extractStridedSlice S1x600000 ![1, 0] A1 slices_S2x600000_S1x600000_1_0) shapeCasts_S1x600000_S600000

/-- A source id with NumPy's wrap of a negative index (id + 100000 when id < 0). -/
def wrapOf (s : IVec S600000 32) : IVec S600000 32 :=
  select (cmpi .slt s (broadcastInDim S600000 ![] bcast_S_S600000 (constantI S_ 32 0#32)))
    (addi s (broadcastInDim S600000 ![] bcast_S_S600000 (constantI S_ 32 100000#32))) s
/-- The wrapped ids as the column of start indices the gather reads. -/
def idxOf (s : IVec S600000 32) : IVec S600000x1 32 :=
  broadcastInDim S600000x1 ![0] bcast_S600000_S600000x1_0 (wrapOf s)
/-- Per edge: the wrapped id is a row of the table, 0 ≤ id ≤ 99999. -/
def maskOf (s : IVec S600000 32) : IVec S600000 1 :=
  Host.reduce IntOp.andi
    (andi (cmpi .sge (idxOf s) (broadcastInDim S600000x1 ![] bcast_S_S600000x1 (constantI S_ 32 0#32)))
      (cmpi .sle (idxOf s) (broadcastInDim S600000x1 ![0, 1] bcast_S1x1_S600000x1_0_1 (broadcastInDim S1x1 ![1] bcast_S1_S1x1_1 (constantI S1 32 99999#32)))))
    (constantI S_ 1 1#1) reducesTo_S600000x1_S600000_d1 h_S_
/-- The rows of X at the wrapped ids, without the fill. -/
def gatherOf (X : FVec F S100000x128 .f32) (s : IVec S600000 32) : FVec F S600000x128 .f32 :=
  Host.gather gather_S100000x128_S600000x1_S600000x128_1_0_n_n_0_1_1128 X (idxOf s)
/-- The take: row e of X at edge e's wrapped id where the test holds, the fill pattern elsewhere. -/
def takeOf (X : FVec F S100000x128 .f32) (s : IVec S600000 32) : FVec F S600000x128 .f32 :=
  select (broadcastInDim S600000x128 ![0] bcast_S600000_S600000x128_0 (maskOf s)) (gatherOf X s)
    (broadcastInDim S600000x128 ![] bcast_S_S600000x128 (constant S_ .f32 0x7FC00000#32))
/-- The scatter-add of per-edge rows U into the destination rows, from zero. -/
def scatterOf (U : FVec F S600000x128 .f32) (d : IVec S600000 32) : FVec F S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 d) U
/-- The layer's aggregated messages as the kernel's program computes them. -/
def aggOf (X : FVec F S100000x128 .f32) (s d : IVec S600000 32) : FVec F S100000x128 .f32 := scatterOf (takeOf X s) d

/-- Slice l of a stack of five [128, 128] matrices. -/
def matOf (l : Nat) (h : S5x128x128.Slices ![l, 0, 0] S1x128x128) (A : FVec F S5x128x128 .f32) : FVec F S128x128 .f32 :=
  shapeCast S128x128 (extractStridedSlice S1x128x128 ![l, 0, 0] A h) shapeCasts_S1x128x128_S128x128
/-- Row l of the stack of five bias rows, as a vector. -/
def biasOf (l : Nat) (h : S5x128.Slices ![l, 0] S1x128) (A : FVec F S5x128 .f32) : FVec F S128 .f32 :=
  shapeCast S128 (extractStridedSlice S1x128 ![l, 0] A h) shapeCasts_S1x128_S128
/-- ... and as the [1, 128] row the kernel region takes. -/
def biasRowOf (l : Nat) (h : S5x128.Slices ![l, 0] S1x128) (A : FVec F S5x128 .f32) : FVec F S1x128 .f32 :=
  shapeCast S1x128 (biasOf l h A) shapeCasts_S128_S1x128

end Cert.KernelIdeal.Hand

end
-- ==== Proof.KI.Glue.lean ====
/-
  What each region's window arrays hold when the region is entered, as the host functions of one GraphConv layer
  applied to the launch contents of the five arguments and to what the previous region left in its output array.
  Each host stretch is first read as a function of ANY contents it starts from (the take: the rows of the layer's
  input at the wrapped source ids; the scatter-add of the taken rows into the destination rows; the layer's slices
  of the stacked weights); the buffers a stretch does not write are carried through it unchanged; a region changes
  its output array only. Composing the two along the program gives, per region, the aggregated messages, the layer's
  input and the three weight slices.
-/
import proofs.«420102_j84559316123938_1_alg».proof.Proof.KI.PDats
import proofs.«420102_j84559316123938_1_alg».proof.Proof.KI.HostDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe
open Idealize.ShloMosaic.StableHlo (after_cons after_nil)

variable {F : FTy → Type} [FloatOps F]

variable (m : (ℓ : Loc nD τ sig) → Buf (Elt F) ℓ) (outs : Outs (F := F))

/-! ## The launch contents of the five arguments, at their literal types -/

/-- The node features. -/
abbrev A0 (c : Dev nD) : FVec F S100000x128 .f32 := m ((c : Thread nD τ).loc main_arg0)
/-- The edge list. -/
abbrev A1 (c : Dev nD) : IVec S2x600000 32 := m ((c : Thread nD τ).loc main_arg1)
/-- The stacked relation weights. -/
abbrev A2 (c : Dev nD) : FVec F S5x128x128 .f32 := m ((c : Thread nD τ).loc main_arg2)
/-- The stacked biases. -/
abbrev A3 (c : Dev nD) : FVec F S5x128 .f32 := m ((c : Thread nD τ).loc main_arg3)
/-- The stacked root weights. -/
abbrev A4 (c : Dev nD) : FVec F S5x128x128 .f32 := m ((c : Thread nD τ).loc main_arg4)

/-! ## Each host stretch as a function of the contents it starts from -/

section Stretch
variable (W : Valuation τ sig (Elt F))

/-- The first stretch leaves the source ids in their buffer, -/
theorem src_of_ops : StableHlo.after hostOps0 W (Proc.devRef .tc main_v1) = srcOf (W (Proc.devRef .tc main_arg1)) := by
  after_results; rfl
/-- and the destination ids in theirs. -/
theorem dst_of_ops : StableHlo.after hostOps0 W (Proc.devRef .tc main_v3) = dstOf (W (Proc.devRef .tc main_arg1)) := by
  after_results; rfl

/-! ### Layer 0 -/

set_option maxHeartbeats 1000000 in
/-- The take of layer 0: the rows of the layer's input at the wrapped source ids, filled where the id is no row. -/
theorem take_of_ops0 : StableHlo.after hostOps0_1 W (Proc.devRef .tc main_v4)
    = takeOf (W (Proc.devRef .tc main_arg0)) (W (Proc.devRef .tc main_v1)) := by
  after_results
  simp only [StableHlo.TRef.ofBuf, StableHlo.TRef.toBuf, cast_eq]
  rfl
/-- The scatter-add of layer 0: the taken rows summed into their destination rows. -/
theorem agg_of_ops0 : StableHlo.after hostOps0_2 W (Proc.devRef .tc main_v7)
    = scatterOf (W (Proc.devRef .tc main_v4)) (W (Proc.devRef .tc main_v3)) := by
  after_results; rfl
/-- Layer 0's slice of the relation weights, -/
theorem Wr_of_ops0 : StableHlo.after hostOps0_2 W (Proc.devRef .tc main_v9)
    = matOf 0 slices_S5x128x128_S1x128x128_0_0_0 (W (Proc.devRef .tc main_arg2)) := by
  after_results; rfl
/-- of the biases, as a row, -/
theorem b_of_ops0 : StableHlo.after hostOps0_2 W (Proc.devRef .tc main_v14)
    = biasRowOf 0 slices_S5x128_S1x128_0_0 (W (Proc.devRef .tc main_arg3)) := by
  after_results; rfl
/-- and of the root weights. -/
theorem Wroot_of_ops0 : StableHlo.after hostOps0_2 W (Proc.devRef .tc main_v13)
    = matOf 0 slices_S5x128x128_S1x128x128_0_0_0 (W (Proc.devRef .tc main_arg4)) := by
  after_results; rfl

/-! ### Layer 1 -/

set_option maxHeartbeats 1000000 in
/-- The take of layer 1: the rows of the layer's input at the wrapped source ids, filled where the id is no row. -/
theorem take_of_ops1 : StableHlo.after hostOps1 W (Proc.devRef .tc main_v16)
    = takeOf (W (Proc.devRef .tc main_v15)) (W (Proc.devRef .tc main_v1)) := by
  after_results
  simp only [StableHlo.TRef.ofBuf, StableHlo.TRef.toBuf, cast_eq]
  rfl
/-- The scatter-add of layer 1: the taken rows summed into their destination rows. -/
theorem agg_of_ops1 : StableHlo.after hostOps1_1 W (Proc.devRef .tc main_v19)
    = scatterOf (W (Proc.devRef .tc main_v16)) (W (Proc.devRef .tc main_v3)) := by
  after_results; rfl
/-- Layer 1's slice of the relation weights, -/
theorem Wr_of_ops1 : StableHlo.after hostOps1_1 W (Proc.devRef .tc main_v21)
    = matOf 1 slices_S5x128x128_S1x128x128_1_0_0 (W (Proc.devRef .tc main_arg2)) := by
  after_results; rfl
/-- of the biases, as a row, -/
theorem b_of_ops1 : StableHlo.after hostOps1_1 W (Proc.devRef .tc main_v26)
    = biasRowOf 1 slices_S5x128_S1x128_1_0 (W (Proc.devRef .tc main_arg3)) := by
  after_results; rfl
/-- and of the root weights. -/
theorem Wroot_of_ops1 : StableHlo.after hostOps1_1 W (Proc.devRef .tc main_v25)
    = matOf 1 slices_S5x128x128_S1x128x128_1_0_0 (W (Proc.devRef .tc main_arg4)) := by
  after_results; rfl

/-! ### Layer 2 -/

set_option maxHeartbeats 1000000 in
/-- The take of layer 2: the rows of the layer's input at the wrapped source ids, filled where the id is no row. -/
theorem take_of_ops2 : StableHlo.after hostOps2 W (Proc.devRef .tc main_v28)
    = takeOf (W (Proc.devRef .tc main_v27)) (W (Proc.devRef .tc main_v1)) := by
  after_results
  simp only [StableHlo.TRef.ofBuf, StableHlo.TRef.toBuf, cast_eq]
  rfl
/-- The scatter-add of layer 2: the taken rows summed into their destination rows. -/
theorem agg_of_ops2 : StableHlo.after hostOps2_1 W (Proc.devRef .tc main_v31)
    = scatterOf (W (Proc.devRef .tc main_v28)) (W (Proc.devRef .tc main_v3)) := by
  after_results; rfl
/-- Layer 2's slice of the relation weights, -/
theorem Wr_of_ops2 : StableHlo.after hostOps2_1 W (Proc.devRef .tc main_v33)
    = matOf 2 slices_S5x128x128_S1x128x128_2_0_0 (W (Proc.devRef .tc main_arg2)) := by
  after_results; rfl
/-- of the biases, as a row, -/
theorem b_of_ops2 : StableHlo.after hostOps2_1 W (Proc.devRef .tc main_v38)
    = biasRowOf 2 slices_S5x128_S1x128_2_0 (W (Proc.devRef .tc main_arg3)) := by
  after_results; rfl
/-- and of the root weights. -/
theorem Wroot_of_ops2 : StableHlo.after hostOps2_1 W (Proc.devRef .tc main_v37)
    = matOf 2 slices_S5x128x128_S1x128x128_2_0_0 (W (Proc.devRef .tc main_arg4)) := by
  after_results; rfl

/-! ### Layer 3 -/

set_option maxHeartbeats 1000000 in
/-- The take of layer 3: the rows of the layer's input at the wrapped source ids, filled where the id is no row. -/
theorem take_of_ops3 : StableHlo.after hostOps3 W (Proc.devRef .tc main_v40)
    = takeOf (W (Proc.devRef .tc main_v39)) (W (Proc.devRef .tc main_v1)) := by
  after_results
  simp only [StableHlo.TRef.ofBuf, StableHlo.TRef.toBuf, cast_eq]
  rfl
/-- The scatter-add of layer 3: the taken rows summed into their destination rows. -/
theorem agg_of_ops3 : StableHlo.after hostOps3_1 W (Proc.devRef .tc main_v43)
    = scatterOf (W (Proc.devRef .tc main_v40)) (W (Proc.devRef .tc main_v3)) := by
  after_results; rfl
/-- Layer 3's slice of the relation weights, -/
theorem Wr_of_ops3 : StableHlo.after hostOps3_1 W (Proc.devRef .tc main_v45)
    = matOf 3 slices_S5x128x128_S1x128x128_3_0_0 (W (Proc.devRef .tc main_arg2)) := by
  after_results; rfl
/-- of the biases, as a row, -/
theorem b_of_ops3 : StableHlo.after hostOps3_1 W (Proc.devRef .tc main_v50)
    = biasRowOf 3 slices_S5x128_S1x128_3_0 (W (Proc.devRef .tc main_arg3)) := by
  after_results; rfl
/-- and of the root weights. -/
theorem Wroot_of_ops3 : StableHlo.after hostOps3_1 W (Proc.devRef .tc main_v49)
    = matOf 3 slices_S5x128x128_S1x128x128_3_0_0 (W (Proc.devRef .tc main_arg4)) := by
  after_results; rfl

/-! ### Layer 4 -/

set_option maxHeartbeats 1000000 in
/-- The take of layer 4: the rows of the layer's input at the wrapped source ids, filled where the id is no row. -/
theorem take_of_ops4 : StableHlo.after hostOps4 W (Proc.devRef .tc main_v52)
    = takeOf (W (Proc.devRef .tc main_v51)) (W (Proc.devRef .tc main_v1)) := by
  after_results
  simp only [StableHlo.TRef.ofBuf, StableHlo.TRef.toBuf, cast_eq]
  rfl
/-- The scatter-add of layer 4: the taken rows summed into their destination rows. -/
theorem agg_of_ops4 : StableHlo.after hostOps4_1 W (Proc.devRef .tc main_v55)
    = scatterOf (W (Proc.devRef .tc main_v52)) (W (Proc.devRef .tc main_v3)) := by
  after_results; rfl
/-- Layer 4's slice of the relation weights, -/
theorem Wr_of_ops4 : StableHlo.after hostOps4_1 W (Proc.devRef .tc main_v57)
    = matOf 4 slices_S5x128x128_S1x128x128_4_0_0 (W (Proc.devRef .tc main_arg2)) := by
  after_results; rfl
/-- of the biases, as a row, -/
theorem b_of_ops4 : StableHlo.after hostOps4_1 W (Proc.devRef .tc main_v62)
    = biasRowOf 4 slices_S5x128_S1x128_4_0 (W (Proc.devRef .tc main_arg3)) := by
  after_results; rfl
/-- and of the root weights. -/
theorem Wroot_of_ops4 : StableHlo.after hostOps4_1 W (Proc.devRef .tc main_v61)
    = matOf 4 slices_S5x128x128_S1x128x128_4_0_0 (W (Proc.devRef .tc main_arg4)) := by
  after_results; rfl

end Stretch

/-! ## What no item before a region writes is carried to it -/
theorem V1_arg0 (c : Dev nD) : V1 m c (Proc.devRef .tc main_arg0) = A0 m c := (V1_of m c main_arg0 (by decide)).trans rfl
theorem V2_arg0 (c : Dev nD) : V2 m c (Proc.devRef .tc main_arg0) = A0 m c := (V2_of m c main_arg0 (by decide)).trans (V1_arg0 m c)
theorem V3_arg0 (c : Dev nD) : V3 m c (Proc.devRef .tc main_arg0) = A0 m c := (V3_of m c main_arg0 (by decide)).trans (V2_arg0 m c)
theorem V1_arg2 (c : Dev nD) : V1 m c (Proc.devRef .tc main_arg2) = A2 m c := (V1_of m c main_arg2 (by decide)).trans rfl
theorem V2_arg2 (c : Dev nD) : V2 m c (Proc.devRef .tc main_arg2) = A2 m c := (V2_of m c main_arg2 (by decide)).trans (V1_arg2 m c)
theorem V3_arg2 (c : Dev nD) : V3 m c (Proc.devRef .tc main_arg2) = A2 m c := (V3_of m c main_arg2 (by decide)).trans (V2_arg2 m c)
theorem V4_arg2 (c : Dev nD) : V4 m outs c (Proc.devRef .tc main_arg2) = A2 m c := (V4_of m outs c main_arg2 (by decide)).trans (V3_arg2 m c)
theorem V5_arg2 (c : Dev nD) : V5 m outs c (Proc.devRef .tc main_arg2) = A2 m c := (V5_of m outs c main_arg2 (by decide)).trans (V4_arg2 m outs c)
theorem V6_arg2 (c : Dev nD) : V6 m outs c (Proc.devRef .tc main_arg2) = A2 m c := (V6_of m outs c main_arg2 (by decide)).trans (V5_arg2 m outs c)
theorem V7_arg2 (c : Dev nD) : V7 m outs c (Proc.devRef .tc main_arg2) = A2 m c := (V7_of m outs c main_arg2 (by decide)).trans (V6_arg2 m outs c)
theorem V8_arg2 (c : Dev nD) : V8 m outs c (Proc.devRef .tc main_arg2) = A2 m c := (V8_of m outs c main_arg2 (by decide)).trans (V7_arg2 m outs c)
theorem V9_arg2 (c : Dev nD) : V9 m outs c (Proc.devRef .tc main_arg2) = A2 m c := (V9_of m outs c main_arg2 (by decide)).trans (V8_arg2 m outs c)
theorem V10_arg2 (c : Dev nD) : V10 m outs c (Proc.devRef .tc main_arg2) = A2 m c := (V10_of m outs c main_arg2 (by decide)).trans (V9_arg2 m outs c)
theorem V11_arg2 (c : Dev nD) : V11 m outs c (Proc.devRef .tc main_arg2) = A2 m c := (V11_of m outs c main_arg2 (by decide)).trans (V10_arg2 m outs c)
theorem V12_arg2 (c : Dev nD) : V12 m outs c (Proc.devRef .tc main_arg2) = A2 m c := (V12_of m outs c main_arg2 (by decide)).trans (V11_arg2 m outs c)
theorem V13_arg2 (c : Dev nD) : V13 m outs c (Proc.devRef .tc main_arg2) = A2 m c := (V13_of m outs c main_arg2 (by decide)).trans (V12_arg2 m outs c)
theorem V14_arg2 (c : Dev nD) : V14 m outs c (Proc.devRef .tc main_arg2) = A2 m c := (V14_of m outs c main_arg2 (by decide)).trans (V13_arg2 m outs c)
theorem V1_arg3 (c : Dev nD) : V1 m c (Proc.devRef .tc main_arg3) = A3 m c := (V1_of m c main_arg3 (by decide)).trans rfl
theorem V2_arg3 (c : Dev nD) : V2 m c (Proc.devRef .tc main_arg3) = A3 m c := (V2_of m c main_arg3 (by decide)).trans (V1_arg3 m c)
theorem V3_arg3 (c : Dev nD) : V3 m c (Proc.devRef .tc main_arg3) = A3 m c := (V3_of m c main_arg3 (by decide)).trans (V2_arg3 m c)
theorem V4_arg3 (c : Dev nD) : V4 m outs c (Proc.devRef .tc main_arg3) = A3 m c := (V4_of m outs c main_arg3 (by decide)).trans (V3_arg3 m c)
theorem V5_arg3 (c : Dev nD) : V5 m outs c (Proc.devRef .tc main_arg3) = A3 m c := (V5_of m outs c main_arg3 (by decide)).trans (V4_arg3 m outs c)
theorem V6_arg3 (c : Dev nD) : V6 m outs c (Proc.devRef .tc main_arg3) = A3 m c := (V6_of m outs c main_arg3 (by decide)).trans (V5_arg3 m outs c)
theorem V7_arg3 (c : Dev nD) : V7 m outs c (Proc.devRef .tc main_arg3) = A3 m c := (V7_of m outs c main_arg3 (by decide)).trans (V6_arg3 m outs c)
theorem V8_arg3 (c : Dev nD) : V8 m outs c (Proc.devRef .tc main_arg3) = A3 m c := (V8_of m outs c main_arg3 (by decide)).trans (V7_arg3 m outs c)
theorem V9_arg3 (c : Dev nD) : V9 m outs c (Proc.devRef .tc main_arg3) = A3 m c := (V9_of m outs c main_arg3 (by decide)).trans (V8_arg3 m outs c)
theorem V10_arg3 (c : Dev nD) : V10 m outs c (Proc.devRef .tc main_arg3) = A3 m c := (V10_of m outs c main_arg3 (by decide)).trans (V9_arg3 m outs c)
theorem V11_arg3 (c : Dev nD) : V11 m outs c (Proc.devRef .tc main_arg3) = A3 m c := (V11_of m outs c main_arg3 (by decide)).trans (V10_arg3 m outs c)
theorem V12_arg3 (c : Dev nD) : V12 m outs c (Proc.devRef .tc main_arg3) = A3 m c := (V12_of m outs c main_arg3 (by decide)).trans (V11_arg3 m outs c)
theorem V13_arg3 (c : Dev nD) : V13 m outs c (Proc.devRef .tc main_arg3) = A3 m c := (V13_of m outs c main_arg3 (by decide)).trans (V12_arg3 m outs c)
theorem V14_arg3 (c : Dev nD) : V14 m outs c (Proc.devRef .tc main_arg3) = A3 m c := (V14_of m outs c main_arg3 (by decide)).trans (V13_arg3 m outs c)
theorem V1_arg4 (c : Dev nD) : V1 m c (Proc.devRef .tc main_arg4) = A4 m c := (V1_of m c main_arg4 (by decide)).trans rfl
theorem V2_arg4 (c : Dev nD) : V2 m c (Proc.devRef .tc main_arg4) = A4 m c := (V2_of m c main_arg4 (by decide)).trans (V1_arg4 m c)
theorem V3_arg4 (c : Dev nD) : V3 m c (Proc.devRef .tc main_arg4) = A4 m c := (V3_of m c main_arg4 (by decide)).trans (V2_arg4 m c)
theorem V4_arg4 (c : Dev nD) : V4 m outs c (Proc.devRef .tc main_arg4) = A4 m c := (V4_of m outs c main_arg4 (by decide)).trans (V3_arg4 m c)
theorem V5_arg4 (c : Dev nD) : V5 m outs c (Proc.devRef .tc main_arg4) = A4 m c := (V5_of m outs c main_arg4 (by decide)).trans (V4_arg4 m outs c)
theorem V6_arg4 (c : Dev nD) : V6 m outs c (Proc.devRef .tc main_arg4) = A4 m c := (V6_of m outs c main_arg4 (by decide)).trans (V5_arg4 m outs c)
theorem V7_arg4 (c : Dev nD) : V7 m outs c (Proc.devRef .tc main_arg4) = A4 m c := (V7_of m outs c main_arg4 (by decide)).trans (V6_arg4 m outs c)
theorem V8_arg4 (c : Dev nD) : V8 m outs c (Proc.devRef .tc main_arg4) = A4 m c := (V8_of m outs c main_arg4 (by decide)).trans (V7_arg4 m outs c)
theorem V9_arg4 (c : Dev nD) : V9 m outs c (Proc.devRef .tc main_arg4) = A4 m c := (V9_of m outs c main_arg4 (by decide)).trans (V8_arg4 m outs c)
theorem V10_arg4 (c : Dev nD) : V10 m outs c (Proc.devRef .tc main_arg4) = A4 m c := (V10_of m outs c main_arg4 (by decide)).trans (V9_arg4 m outs c)
theorem V11_arg4 (c : Dev nD) : V11 m outs c (Proc.devRef .tc main_arg4) = A4 m c := (V11_of m outs c main_arg4 (by decide)).trans (V10_arg4 m outs c)
theorem V12_arg4 (c : Dev nD) : V12 m outs c (Proc.devRef .tc main_arg4) = A4 m c := (V12_of m outs c main_arg4 (by decide)).trans (V11_arg4 m outs c)
theorem V13_arg4 (c : Dev nD) : V13 m outs c (Proc.devRef .tc main_arg4) = A4 m c := (V13_of m outs c main_arg4 (by decide)).trans (V12_arg4 m outs c)
theorem V14_arg4 (c : Dev nD) : V14 m outs c (Proc.devRef .tc main_arg4) = A4 m c := (V14_of m outs c main_arg4 (by decide)).trans (V13_arg4 m outs c)
theorem V1_src (c : Dev nD) : V1 m c (Proc.devRef .tc main_v1) = srcOf (A1 m c) := src_of_ops (V0 m c)
theorem V2_src (c : Dev nD) : V2 m c (Proc.devRef .tc main_v1) = srcOf (A1 m c) := (V2_of m c main_v1 (by decide)).trans (V1_src m c)
theorem V3_src (c : Dev nD) : V3 m c (Proc.devRef .tc main_v1) = srcOf (A1 m c) := (V3_of m c main_v1 (by decide)).trans (V2_src m c)
theorem V4_src (c : Dev nD) : V4 m outs c (Proc.devRef .tc main_v1) = srcOf (A1 m c) := (V4_of m outs c main_v1 (by decide)).trans (V3_src m c)
theorem V5_src (c : Dev nD) : V5 m outs c (Proc.devRef .tc main_v1) = srcOf (A1 m c) := (V5_of m outs c main_v1 (by decide)).trans (V4_src m outs c)
theorem V6_src (c : Dev nD) : V6 m outs c (Proc.devRef .tc main_v1) = srcOf (A1 m c) := (V6_of m outs c main_v1 (by decide)).trans (V5_src m outs c)
theorem V7_src (c : Dev nD) : V7 m outs c (Proc.devRef .tc main_v1) = srcOf (A1 m c) := (V7_of m outs c main_v1 (by decide)).trans (V6_src m outs c)
theorem V8_src (c : Dev nD) : V8 m outs c (Proc.devRef .tc main_v1) = srcOf (A1 m c) := (V8_of m outs c main_v1 (by decide)).trans (V7_src m outs c)
theorem V9_src (c : Dev nD) : V9 m outs c (Proc.devRef .tc main_v1) = srcOf (A1 m c) := (V9_of m outs c main_v1 (by decide)).trans (V8_src m outs c)
theorem V10_src (c : Dev nD) : V10 m outs c (Proc.devRef .tc main_v1) = srcOf (A1 m c) := (V10_of m outs c main_v1 (by decide)).trans (V9_src m outs c)
theorem V11_src (c : Dev nD) : V11 m outs c (Proc.devRef .tc main_v1) = srcOf (A1 m c) := (V11_of m outs c main_v1 (by decide)).trans (V10_src m outs c)
theorem V12_src (c : Dev nD) : V12 m outs c (Proc.devRef .tc main_v1) = srcOf (A1 m c) := (V12_of m outs c main_v1 (by decide)).trans (V11_src m outs c)
theorem V13_src (c : Dev nD) : V13 m outs c (Proc.devRef .tc main_v1) = srcOf (A1 m c) := (V13_of m outs c main_v1 (by decide)).trans (V12_src m outs c)
theorem V14_src (c : Dev nD) : V14 m outs c (Proc.devRef .tc main_v1) = srcOf (A1 m c) := (V14_of m outs c main_v1 (by decide)).trans (V13_src m outs c)
theorem V1_dst (c : Dev nD) : V1 m c (Proc.devRef .tc main_v3) = dstOf (A1 m c) := dst_of_ops (V0 m c)
theorem V2_dst (c : Dev nD) : V2 m c (Proc.devRef .tc main_v3) = dstOf (A1 m c) := (V2_of m c main_v3 (by decide)).trans (V1_dst m c)
theorem V3_dst (c : Dev nD) : V3 m c (Proc.devRef .tc main_v3) = dstOf (A1 m c) := (V3_of m c main_v3 (by decide)).trans (V2_dst m c)
theorem V4_dst (c : Dev nD) : V4 m outs c (Proc.devRef .tc main_v3) = dstOf (A1 m c) := (V4_of m outs c main_v3 (by decide)).trans (V3_dst m c)
theorem V5_dst (c : Dev nD) : V5 m outs c (Proc.devRef .tc main_v3) = dstOf (A1 m c) := (V5_of m outs c main_v3 (by decide)).trans (V4_dst m outs c)
theorem V6_dst (c : Dev nD) : V6 m outs c (Proc.devRef .tc main_v3) = dstOf (A1 m c) := (V6_of m outs c main_v3 (by decide)).trans (V5_dst m outs c)
theorem V7_dst (c : Dev nD) : V7 m outs c (Proc.devRef .tc main_v3) = dstOf (A1 m c) := (V7_of m outs c main_v3 (by decide)).trans (V6_dst m outs c)
theorem V8_dst (c : Dev nD) : V8 m outs c (Proc.devRef .tc main_v3) = dstOf (A1 m c) := (V8_of m outs c main_v3 (by decide)).trans (V7_dst m outs c)
theorem V9_dst (c : Dev nD) : V9 m outs c (Proc.devRef .tc main_v3) = dstOf (A1 m c) := (V9_of m outs c main_v3 (by decide)).trans (V8_dst m outs c)
theorem V10_dst (c : Dev nD) : V10 m outs c (Proc.devRef .tc main_v3) = dstOf (A1 m c) := (V10_of m outs c main_v3 (by decide)).trans (V9_dst m outs c)
theorem V11_dst (c : Dev nD) : V11 m outs c (Proc.devRef .tc main_v3) = dstOf (A1 m c) := (V11_of m outs c main_v3 (by decide)).trans (V10_dst m outs c)
theorem V12_dst (c : Dev nD) : V12 m outs c (Proc.devRef .tc main_v3) = dstOf (A1 m c) := (V12_of m outs c main_v3 (by decide)).trans (V11_dst m outs c)
theorem V13_dst (c : Dev nD) : V13 m outs c (Proc.devRef .tc main_v3) = dstOf (A1 m c) := (V13_of m outs c main_v3 (by decide)).trans (V12_dst m outs c)
theorem V14_dst (c : Dev nD) : V14 m outs c (Proc.devRef .tc main_v3) = dstOf (A1 m c) := (V14_of m outs c main_v3 (by decide)).trans (V13_dst m outs c)

/-! ## Region 0 -/

theorem E0_x (c : Dev nD) : E0 m c main_arg0 = A0 m c := V3_arg0 m c

/-- The taken rows, after the take stretch. -/
theorem V2_take0 (c : Dev nD) : V2 m c (Proc.devRef .tc main_v4) = takeOf (A0 m c) (srcOf (A1 m c)) :=
  (take_of_ops0 (V1 m c)).trans (by rw [V1_arg0 m c, V1_src m c])
theorem E0_agg (c : Dev nD) : E0 m c main_v7 = aggOf (A0 m c) (srcOf (A1 m c)) (dstOf (A1 m c)) :=
  (agg_of_ops0 (V2 m c)).trans (by rw [V2_take0 m c, V2_dst m c]; rfl)
theorem E0_Wr (c : Dev nD) : E0 m c main_v9 = matOf 0 slices_S5x128x128_S1x128x128_0_0_0 (A2 m c) :=
  (Wr_of_ops0 (V2 m c)).trans (by rw [V2_arg2 m c])
theorem E0_b (c : Dev nD) : E0 m c main_v14 = biasRowOf 0 slices_S5x128_S1x128_0_0 (A3 m c) :=
  (b_of_ops0 (V2 m c)).trans (by rw [V2_arg3 m c])
theorem E0_Wroot (c : Dev nD) : E0 m c main_v13 = matOf 0 slices_S5x128x128_S1x128x128_0_0_0 (A4 m c) :=
  (Wroot_of_ops0 (V2 m c)).trans (by rw [V2_arg4 m c])

/-! ## Region 1 -/

/-- The layer's input is what region 0 left, untouched by the two stretches between. -/
theorem V4_x1 (c : Dev nD) : V4 m outs c (Proc.devRef .tc main_v15) = outs 4 main_v15 c := Function.update_self _ _ _
theorem V5_x1 (c : Dev nD) : V5 m outs c (Proc.devRef .tc main_v15) = outs 4 main_v15 c := (V5_of m outs c main_v15 (by decide)).trans (V4_x1 m outs c)
theorem E1_x (c : Dev nD) : E1 m outs c main_v15 = outs 4 main_v15 c := (V6_of m outs c main_v15 (by decide)).trans (V5_x1 m outs c)

/-- The taken rows, after the take stretch. -/
theorem V5_take1 (c : Dev nD) : V5 m outs c (Proc.devRef .tc main_v16) = takeOf (outs 4 main_v15 c) (srcOf (A1 m c)) :=
  (take_of_ops1 (V4 m outs c)).trans (by rw [V4_x1 m outs c, V4_src m outs c])
theorem E1_agg (c : Dev nD) : E1 m outs c main_v19 = aggOf (outs 4 main_v15 c) (srcOf (A1 m c)) (dstOf (A1 m c)) :=
  (agg_of_ops1 (V5 m outs c)).trans (by rw [V5_take1 m outs c, V5_dst m outs c]; rfl)
theorem E1_Wr (c : Dev nD) : E1 m outs c main_v21 = matOf 1 slices_S5x128x128_S1x128x128_1_0_0 (A2 m c) :=
  (Wr_of_ops1 (V5 m outs c)).trans (by rw [V5_arg2 m outs c])
theorem E1_b (c : Dev nD) : E1 m outs c main_v26 = biasRowOf 1 slices_S5x128_S1x128_1_0 (A3 m c) :=
  (b_of_ops1 (V5 m outs c)).trans (by rw [V5_arg3 m outs c])
theorem E1_Wroot (c : Dev nD) : E1 m outs c main_v25 = matOf 1 slices_S5x128x128_S1x128x128_1_0_0 (A4 m c) :=
  (Wroot_of_ops1 (V5 m outs c)).trans (by rw [V5_arg4 m outs c])

/-! ## Region 2 -/

/-- The layer's input is what region 1 left, untouched by the two stretches between. -/
theorem V7_x2 (c : Dev nD) : V7 m outs c (Proc.devRef .tc main_v27) = outs 7 main_v27 c := Function.update_self _ _ _
theorem V8_x2 (c : Dev nD) : V8 m outs c (Proc.devRef .tc main_v27) = outs 7 main_v27 c := (V8_of m outs c main_v27 (by decide)).trans (V7_x2 m outs c)
theorem E2_x (c : Dev nD) : E2 m outs c main_v27 = outs 7 main_v27 c := (V9_of m outs c main_v27 (by decide)).trans (V8_x2 m outs c)

/-- The taken rows, after the take stretch. -/
theorem V8_take2 (c : Dev nD) : V8 m outs c (Proc.devRef .tc main_v28) = takeOf (outs 7 main_v27 c) (srcOf (A1 m c)) :=
  (take_of_ops2 (V7 m outs c)).trans (by rw [V7_x2 m outs c, V7_src m outs c])
theorem E2_agg (c : Dev nD) : E2 m outs c main_v31 = aggOf (outs 7 main_v27 c) (srcOf (A1 m c)) (dstOf (A1 m c)) :=
  (agg_of_ops2 (V8 m outs c)).trans (by rw [V8_take2 m outs c, V8_dst m outs c]; rfl)
theorem E2_Wr (c : Dev nD) : E2 m outs c main_v33 = matOf 2 slices_S5x128x128_S1x128x128_2_0_0 (A2 m c) :=
  (Wr_of_ops2 (V8 m outs c)).trans (by rw [V8_arg2 m outs c])
theorem E2_b (c : Dev nD) : E2 m outs c main_v38 = biasRowOf 2 slices_S5x128_S1x128_2_0 (A3 m c) :=
  (b_of_ops2 (V8 m outs c)).trans (by rw [V8_arg3 m outs c])
theorem E2_Wroot (c : Dev nD) : E2 m outs c main_v37 = matOf 2 slices_S5x128x128_S1x128x128_2_0_0 (A4 m c) :=
  (Wroot_of_ops2 (V8 m outs c)).trans (by rw [V8_arg4 m outs c])

/-! ## Region 3 -/

/-- The layer's input is what region 2 left, untouched by the two stretches between. -/
theorem V10_x3 (c : Dev nD) : V10 m outs c (Proc.devRef .tc main_v39) = outs 10 main_v39 c := Function.update_self _ _ _
theorem V11_x3 (c : Dev nD) : V11 m outs c (Proc.devRef .tc main_v39) = outs 10 main_v39 c := (V11_of m outs c main_v39 (by decide)).trans (V10_x3 m outs c)
theorem E3_x (c : Dev nD) : E3 m outs c main_v39 = outs 10 main_v39 c := (V12_of m outs c main_v39 (by decide)).trans (V11_x3 m outs c)

/-- The taken rows, after the take stretch. -/
theorem V11_take3 (c : Dev nD) : V11 m outs c (Proc.devRef .tc main_v40) = takeOf (outs 10 main_v39 c) (srcOf (A1 m c)) :=
  (take_of_ops3 (V10 m outs c)).trans (by rw [V10_x3 m outs c, V10_src m outs c])
theorem E3_agg (c : Dev nD) : E3 m outs c main_v43 = aggOf (outs 10 main_v39 c) (srcOf (A1 m c)) (dstOf (A1 m c)) :=
  (agg_of_ops3 (V11 m outs c)).trans (by rw [V11_take3 m outs c, V11_dst m outs c]; rfl)
theorem E3_Wr (c : Dev nD) : E3 m outs c main_v45 = matOf 3 slices_S5x128x128_S1x128x128_3_0_0 (A2 m c) :=
  (Wr_of_ops3 (V11 m outs c)).trans (by rw [V11_arg2 m outs c])
theorem E3_b (c : Dev nD) : E3 m outs c main_v50 = biasRowOf 3 slices_S5x128_S1x128_3_0 (A3 m c) :=
  (b_of_ops3 (V11 m outs c)).trans (by rw [V11_arg3 m outs c])
theorem E3_Wroot (c : Dev nD) : E3 m outs c main_v49 = matOf 3 slices_S5x128x128_S1x128x128_3_0_0 (A4 m c) :=
  (Wroot_of_ops3 (V11 m outs c)).trans (by rw [V11_arg4 m outs c])

/-! ## Region 4 -/

/-- The layer's input is what region 3 left, untouched by the two stretches between. -/
theorem V13_x4 (c : Dev nD) : V13 m outs c (Proc.devRef .tc main_v51) = outs 13 main_v51 c := Function.update_self _ _ _
theorem V14_x4 (c : Dev nD) : V14 m outs c (Proc.devRef .tc main_v51) = outs 13 main_v51 c := (V14_of m outs c main_v51 (by decide)).trans (V13_x4 m outs c)
theorem E4_x (c : Dev nD) : E4 m outs c main_v51 = outs 13 main_v51 c := (V15_of m outs c main_v51 (by decide)).trans (V14_x4 m outs c)

/-- The taken rows, after the take stretch. -/
theorem V14_take4 (c : Dev nD) : V14 m outs c (Proc.devRef .tc main_v52) = takeOf (outs 13 main_v51 c) (srcOf (A1 m c)) :=
  (take_of_ops4 (V13 m outs c)).trans (by rw [V13_x4 m outs c, V13_src m outs c])
theorem E4_agg (c : Dev nD) : E4 m outs c main_v55 = aggOf (outs 13 main_v51 c) (srcOf (A1 m c)) (dstOf (A1 m c)) :=
  (agg_of_ops4 (V14 m outs c)).trans (by rw [V14_take4 m outs c, V14_dst m outs c]; rfl)
theorem E4_Wr (c : Dev nD) : E4 m outs c main_v57 = matOf 4 slices_S5x128x128_S1x128x128_4_0_0 (A2 m c) :=
  (Wr_of_ops4 (V14 m outs c)).trans (by rw [V14_arg2 m outs c])
theorem E4_b (c : Dev nD) : E4 m outs c main_v62 = biasRowOf 4 slices_S5x128_S1x128_4_0 (A3 m c) :=
  (b_of_ops4 (V14 m outs c)).trans (by rw [V14_arg3 m outs c])
theorem E4_Wroot (c : Dev nD) : E4 m outs c main_v61 = matOf 4 slices_S5x128x128_S1x128x128_4_0_0 (A4 m c) :=
  (Wroot_of_ops4 (V14 m outs c)).trans (by rw [V14_arg4 m outs c])

end Cert.KernelIdeal.Hand

end
-- ==== Proof.Val.Spec.lean ====
/-
  The mathematics of one GraphConv layer's dense stage, element by element, on the extended reals.
  For node p and feature j:   y(p, j) = Σ_k agg(p, k) · W_rel(k, j)  +  b(j)  +  Σ_k x(p, k) · W_root(k, j),
  followed by max(y, 0) (layers 1 to 4), and by the addition of the layer's input x(p, j) (layers 2 to 5).
  The sums are over the 128 features; the order of the three summands is the one both programs use.
-/
import Idealize.ShloMosaic.PureOps.Ideal
import Idealize.ShloMosaic.Lib.ValueIdx

noncomputable section

open scoped BigOperators

namespace Cert.Spec

open Idealize.ShloMosaic Idealize.ShloMosaic.ValueIdx

/-- An array of n rows of 128 features, at the ideal instance. -/
abbrev Arr (n : Nat) : Type := (⟨2, ![n, 128]⟩ : Shape).Idx → EReal

/-- Row p of an array, as a function of the feature. -/
def rowOf {n : Nat} (A : Arr n) (p : Fin n) : Fin 128 → EReal := fun k => A (ix2 p k)
/-- A weight matrix by its two coordinates. -/
def matAt (W : Arr 128) : Fin 128 → Fin 128 → EReal := fun k j => W (ix2 k j)

/-- One element of agg·W_rel + b + x·W_root, from the element's rows of agg and x. -/
def denseAt (a x : Fin 128 → EReal) (Wr Wroot : Fin 128 → Fin 128 → EReal) (b : Fin 128 → EReal) (j : Fin 128) : EReal :=
  ((∑ k : Fin 128, a k * Wr k j) + b j) + ∑ k : Fin 128, x k * Wroot k j

/-- The first layer: relu, no residual. -/
def actRelu (y : EReal) : EReal := max y 0
/-- The middle layers: relu, then the residual. -/
def actReluRes (y r : EReal) : EReal := max y 0 + r
/-- The last layer: the residual only. -/
def actRes (y r : EReal) : EReal := y + r

/-- The first layer's output array from the aggregated messages, the layer's input, the weights and the bias. -/
def layerRelu {n : Nat} (agg X : Arr n) (Wr Wroot : Arr 128) (b : Fin 128 → EReal) : Arr n :=
  fun i => actRelu (denseAt (rowOf agg (i 0)) (rowOf X (i 0)) (matAt Wr) (matAt Wroot) b (i 1))
/-- A middle layer's output array; Res is the array added at the end (the layer's input). -/
def layerReluRes {n : Nat} (agg X : Arr n) (Wr Wroot : Arr 128) (b : Fin 128 → EReal) (Res : Arr n) : Arr n :=
  fun i => actReluRes (denseAt (rowOf agg (i 0)) (rowOf X (i 0)) (matAt Wr) (matAt Wroot) b (i 1)) (Res i)
/-- The last layer's output array. -/
def layerRes {n : Nat} (agg X : Arr n) (Wr Wroot : Arr 128) (b : Fin 128 → EReal) (Res : Arr n) : Arr n :=
  fun i => actRes (denseAt (rowOf agg (i 0)) (rowOf X (i 0)) (matAt Wr) (matAt Wroot) b (i 1)) (Res i)

/-- The five layers in sequence, over an aggregation `agg` of a layer's input into per-node message sums (the
    gather along the edges followed by the scatter-add, the same at every layer), the layers' weight matrices and
    bias rows: X₁ = relu(dense₀(agg X₀, X₀)), X_{l+1} = relu(dense_l(agg X_l, X_l)) + X_l for l = 1, 2, 3, and the
    result dense₄(agg X₄, X₄) + X₄. -/
def chain (agg : Arr 100000 → Arr 100000) (Wr Wroot : Fin 5 → Arr 128) (b : Fin 5 → Fin 128 → EReal) (X0 : Arr 100000) : Arr 100000 :=
  let X1 := layerRelu (agg X0) X0 (Wr 0) (Wroot 0) (b 0)
  let X2 := layerReluRes (agg X1) X1 (Wr 1) (Wroot 1) (b 1) X1
  let X3 := layerReluRes (agg X2) X2 (Wr 2) (Wroot 2) (b 2) X2
  let X4 := layerReluRes (agg X3) X3 (Wr 3) (Wroot 3) (b 3) X3
  layerRes (agg X4) X4 (Wr 4) (Wroot 4) (b 4) X4

end Cert.Spec

end
-- ==== Proof.Val.Pay.lean ====
/-
  One element of each layer's kernel output, on the extended reals. The body of a layer's kernel forms, from a block
  of 10000 rows of the aggregated messages, the same rows of the layer's input, the two 128 × 128 weight matrices and
  the bias row, the array  agg · W_rel + b + x · W_root ; layer 1 then takes the maximum with 0, layers 2 to 4 take the
  maximum with 0 and add the residual block, layer 5 adds the residual block only. Read at row p and feature j each
  block product is the sum over the 128 features k of (row p at k) · (matrix at (k, j)), the bias row is read at j on
  every row, and what remains is the element's dense value followed by the layer's activation.
-/
import proofs.«420102_j84559316123938_1_alg».proof.Proof.Gen.KernelIdeal.Skeleton
import proofs.«420102_j84559316123938_1_alg».proof.Proof.Val.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Val

open Cert.KernelIdeal Cert.KernelIdeal.Gen Cert.Spec Idealize.ShloMosaic Idealize.ShloMosaic.ValueIdx

/-! ## The block product's operand indices, axis by axis -/

/-- The left operand's row is the output's row. -/
theorem lhs_dot_S10000x128_S128x128_S10000x128_1_0_0_1_n_n_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- The left operand's column is the contraction position. -/
theorem lhs_dot_S10000x128_S128x128_S10000x128_1_0_0_1_n_n_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
/-- The right operand's row is the contraction position. -/
theorem rhs_dot_S10000x128_S128x128_S10000x128_1_0_0_1_n_n_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
/-- The right operand's column is the output's column. -/
theorem rhs_dot_S10000x128_S128x128_S10000x128_1_0_0_1_n_n_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-! ## The block product at an element -/

/-- A block of rows times a 128 × 128 matrix, accumulated into zero, at (p, j): Σ_k l(p, k) · r(k, j). -/
theorem mm_apply (l : FVec Ideal S10000x128 .f32) (r : FVec Ideal S128x128 .f32) (p : Fin 10000) (j : Fin 128) :
    matmul (F := Ideal) dot_S10000x128_S128x128_S10000x128_1_0_0_1_n_n none l r (constant (F := Ideal) S10000x128 .f32 0x00000000#32) (ix2 p j)
      = ∑ k : Fin 128, l (ix2 p k) * r (ix2 k j) := by
  simp only [matmul]
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p j) ((contrEquiv1 dot_S10000x128_S128x128_S10000x128_1_0_0_1_n_n 128 rfl rfl).symm k) = ix2 p k := funext fun a => Fin.ext (by
    match a with
    | ⟨0, _⟩ => exact lhs_dot_S10000x128_S128x128_S10000x128_1_0_0_1_n_n_0 _ _
    | ⟨1, _⟩ => exact (lhs_dot_S10000x128_S128x128_S10000x128_1_0_0_1_n_n_1 _ _).trans hk)
  have er : dot_S10000x128_S128x128_S10000x128_1_0_0_1_n_n.rhsIdx (ix2 p j) ((contrEquiv1 dot_S10000x128_S128x128_S10000x128_1_0_0_1_n_n 128 rfl rfl).symm k) = ix2 k j := funext fun a => Fin.ext (by
    match a with
    | ⟨0, _⟩ => exact (rhs_dot_S10000x128_S128x128_S10000x128_1_0_0_1_n_n_0 _ _).trans hk
    | ⟨1, _⟩ => exact rhs_dot_S10000x128_S128x128_S10000x128_1_0_0_1_n_n_1 _ _)
  rw [el, er]

/-! ## The dense stage common to the five bodies -/

/-- agg · W_rel + b + x · W_root at (p, j), as the bodies write it: the first product, plus the bias row on every
    row, plus the second product. -/
theorem dense_apply (a x : FVec Ideal S10000x128 .f32) (wr wroot : FVec Ideal S128x128 .f32) (b : FVec Ideal S1x128 .f32)
    (p : Fin 10000) (j : Fin 128) :
    addf (F := Ideal) (addf (F := Ideal)
        (matmul (F := Ideal) dot_S10000x128_S128x128_S10000x128_1_0_0_1_n_n none a wr (constant (F := Ideal) S10000x128 .f32 0x00000000#32))
        (broadcastTo S10000x128 b broadcasts_S1x128_S10000x128))
        (matmul (F := Ideal) dot_S10000x128_S128x128_S10000x128_1_0_0_1_n_n none x wroot (constant (F := Ideal) S10000x128 .f32 0x00000000#32)) (ix2 p j)
      = denseAt (rowOf a p) (rowOf x p) (matAt wr) (matAt wroot) (fun j' => b (ix2 0 j')) j := by
  rw [addf_apply, addf_apply, mm_apply, mm_apply, broadcastTo_1b_ab_apply]
  rfl

/-- The maximum with the zero splat at an element is the maximum with 0. -/
theorem relu_apply (y : FVec Ideal S10000x128 .f32) (i : S10000x128.Idx) :
    maximumf (F := Ideal) y (broadcast S10000x128 (Scalar.ofBits (F := Ideal) .f32 0x00000000#32)) i = max (y i) 0 := by
  rw [maximumf_apply, broadcast_apply]
  show max _ (Ideal.ofBits .f32 0x00000000#32) = _
  rw [Ideal.ofBits_zero_f32]

/-! ## The five payloads at an element -/

/-- Layer 1: the dense value, then the maximum with 0. -/
theorem k0_pay1_apply (v0 v2 : Vec Ideal S10000x128 .f32) (v3 : Vec Ideal S128x128 .f32) (v6 : Vec Ideal S1x128 .f32) (v10 : Vec Ideal S128x128 .f32) (p : Fin 10000) (j : Fin 128) :
    k0_pay1 (F := Ideal) v0 v2 v3 v6 v10 (ix2 p j) = actRelu (denseAt (rowOf v0 p) (rowOf v2 p) (matAt v3) (matAt v10) (fun j' => v6 (ix2 0 j')) j) := by
  unfold k0_pay1
  simp only [shapeCast_self]
  rw [relu_apply, dense_apply]
  rfl

/-- Layer 2: the dense value, the maximum with 0, then the residual. -/
theorem k1_pay1_apply (v0 v2 : Vec Ideal S10000x128 .f32) (v4 : Vec Ideal S128x128 .f32) (v7 : Vec Ideal S1x128 .f32) (v11 : Vec Ideal S128x128 .f32) (v17 : Vec Ideal S10000x128 .f32) (p : Fin 10000) (j : Fin 128) :
    k1_pay1 (F := Ideal) v0 v2 v4 v7 v11 v17 (ix2 p j) = actReluRes (denseAt (rowOf v0 p) (rowOf v2 p) (matAt v4) (matAt v11) (fun j' => v7 (ix2 0 j')) j) (v17 (ix2 p j)) := by
  unfold k1_pay1
  simp only [shapeCast_self]
  rw [addf_apply, relu_apply, dense_apply]
  rfl

/-- Layer 3: as layer 2. -/
theorem k2_pay1_apply (v0 v2 : Vec Ideal S10000x128 .f32) (v4 : Vec Ideal S128x128 .f32) (v7 : Vec Ideal S1x128 .f32) (v11 : Vec Ideal S128x128 .f32) (v17 : Vec Ideal S10000x128 .f32) (p : Fin 10000) (j : Fin 128) :
    k2_pay1 (F := Ideal) v0 v2 v4 v7 v11 v17 (ix2 p j) = actReluRes (denseAt (rowOf v0 p) (rowOf v2 p) (matAt v4) (matAt v11) (fun j' => v7 (ix2 0 j')) j) (v17 (ix2 p j)) := by
  unfold k2_pay1
  simp only [shapeCast_self]
  rw [addf_apply, relu_apply, dense_apply]
  rfl

/-- Layer 4: as layer 2. -/
theorem k3_pay1_apply (v0 v2 : Vec Ideal S10000x128 .f32) (v4 : Vec Ideal S128x128 .f32) (v7 : Vec Ideal S1x128 .f32) (v11 : Vec Ideal S128x128 .f32) (v17 : Vec Ideal S10000x128 .f32) (p : Fin 10000) (j : Fin 128) :
    k3_pay1 (F := Ideal) v0 v2 v4 v7 v11 v17 (ix2 p j) = actReluRes (denseAt (rowOf v0 p) (rowOf v2 p) (matAt v4) (matAt v11) (fun j' => v7 (ix2 0 j')) j) (v17 (ix2 p j)) := by
  unfold k3_pay1
  simp only [shapeCast_self]
  rw [addf_apply, relu_apply, dense_apply]
  rfl

/-- Layer 5: the dense value, then the residual; no maximum. -/
theorem k4_pay1_apply (v0 v2 : Vec Ideal S10000x128 .f32) (v4 : Vec Ideal S128x128 .f32) (v7 : Vec Ideal S1x128 .f32) (v11 : Vec Ideal S128x128 .f32) (v15 : Vec Ideal S10000x128 .f32) (p : Fin 10000) (j : Fin 128) :
    k4_pay1 (F := Ideal) v0 v2 v4 v7 v11 v15 (ix2 p j) = actRes (denseAt (rowOf v0 p) (rowOf v2 p) (matAt v4) (matAt v11) (fun j' => v7 (ix2 0 j')) j) (v15 (ix2 p j)) := by
  unfold k4_pay1
  simp only [shapeCast_self]
  rw [addf_apply, dense_apply]
  rfl

end Cert.KernelIdeal.Val

end
-- ==== Proof.Val.RegVal0.lean ====
/-
  From blocks to the array, for the first layer. The region's grid has ten points; point t takes rows
  10000·t … 10000·t + 9999 of the aggregated messages and of the layer's input, the two weight matrices and the bias row
  whole, and writes the same rows of the layer's output. Row r of the output is therefore written by point r / 10000,
  from row r of the two inputs, and the array the region leaves is the layer's function of the arrays it found:
  max(agg · W_rel + b + x · W_root, 0), element by element.
-/
import proofs.«420102_j84559316123938_1_alg».proof.Proof.KI.Reg0
import proofs.«420102_j84559316123938_1_alg».proof.Proof.Val.Pay
import proofs.«420102_j84559316123938_1_alg».proof.Proof.Val.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz0 : (![0, 0] : Fin 2 → Nat) = fun _ => 0 := funext fun a => by fin_cases a <;> rfl

/-- The block indices at point t: the two row-blocked inputs and the output are at row block t, the weights and the
    bias row at block 0; every column block is 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid has ten points. -/
theorem lt_ten0 (t : Fin cfg0.N) : t.val < 10 := Nat.lt_of_lt_of_eq t.isLt N_0

/-! ## Each input block, read in its array -/

/-- Row p of point t's block of the aggregated messages is row 10000·t + p of the array. -/
theorem blockread0_0 (c : Dev nD) (t : Fin cfg0.N) (p : Fin 10000) (k : Fin 128) (r : Fin 100000) (hr : r.val = t.val * 10000 + p.val) :
    (iblk0 (F := Ideal) V c 0 t : S10000x128.Idx → EReal) (ix2 p k) = (V c main_v7 : Arr 100000) (ix2 r k) := by
  obtain ⟨e00, e01, -⟩ := idx_facts0 t
  show V c main_v7 (((cfg0.win 0).blk t).view.emb (ix2 p k)) = V c main_v7 (ix2 r k)
  refine congrArg (V c main_v7) (funext fun a => Fin.ext ?_)
  match a with
  | ⟨0, _⟩ => show win0_0.index t (0 : Fin 2) * 10000 + 1 * p.val = r.val; omega
  | ⟨1, _⟩ => show win0_0.index t (1 : Fin 2) * 128 + 1 * k.val = k.val; omega

/-- Row p of point t's block of the layer's input is row 10000·t + p of the array. -/
theorem blockread0_1 (c : Dev nD) (t : Fin cfg0.N) (p : Fin 10000) (k : Fin 128) (r : Fin 100000) (hr : r.val = t.val * 10000 + p.val) :
    (iblk0 (F := Ideal) V c 1 t : S10000x128.Idx → EReal) (ix2 p k) = (V c main_arg0 : Arr 100000) (ix2 r k) := by
  obtain ⟨-, -, e10, e11, -⟩ := idx_facts0 t
  show V c main_arg0 (((cfg0.win 1).blk t).view.emb (ix2 p k)) = V c main_arg0 (ix2 r k)
  refine congrArg (V c main_arg0) (funext fun a => Fin.ext ?_)
  match a with
  | ⟨0, _⟩ => show win0_1.index t (0 : Fin 2) * 10000 + 1 * p.val = r.val; omega
  | ⟨1, _⟩ => show win0_1.index t (1 : Fin 2) * 128 + 1 * k.val = k.val; omega

/-- The block of W_rel is the whole matrix. -/
theorem blockread0_2 (c : Dev nD) (t : Fin cfg0.N) (k j : Fin 128) :
    (iblk0 (F := Ideal) V c 2 t : S128x128.Idx → EReal) (ix2 k j) = (V c main_v9 : Arr 128) (ix2 k j) := by
  obtain ⟨-, -, -, -, e20, e21, -⟩ := idx_facts0 t
  show V c main_v9 (((cfg0.win 2).blk t).view.emb (ix2 k j)) = V c main_v9 (ix2 k j)
  refine congrArg (V c main_v9) (funext fun a => Fin.ext ?_)
  match a with
  | ⟨0, _⟩ => show win0_2.index t (0 : Fin 2) * 128 + 1 * k.val = k.val; omega
  | ⟨1, _⟩ => show win0_2.index t (1 : Fin 2) * 128 + 1 * j.val = j.val; omega

/-- The block of the bias is the whole row. -/
theorem blockread0_3 (c : Dev nD) (t : Fin cfg0.N) (j : Fin 128) :
    (iblk0 (F := Ideal) V c 3 t : S1x128.Idx → EReal) (ix2 (0 : Fin 1) j) = V c main_v14 (ix2 (0 : Fin 1) j) := by
  obtain ⟨-, -, -, -, -, -, e30, e31, -⟩ := idx_facts0 t
  show V c main_v14 (((cfg0.win 3).blk t).view.emb (ix2 (0 : Fin 1) j)) = V c main_v14 (ix2 (0 : Fin 1) j)
  refine congrArg (V c main_v14) (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

/-- The block of W_root is the whole matrix. -/
theorem blockread0_4 (c : Dev nD) (t : Fin cfg0.N) (k j : Fin 128) :
    (iblk0 (F := Ideal) V c 4 t : S128x128.Idx → EReal) (ix2 k j) = (V c main_v13 : Arr 128) (ix2 k j) := by
  obtain ⟨-, -, -, -, -, -, -, -, e40, e41, -⟩ := idx_facts0 t
  show V c main_v13 (((cfg0.win 4).blk t).view.emb (ix2 k j)) = V c main_v13 (ix2 k j)
  refine congrArg (V c main_v13) (funext fun a => Fin.ext ?_)
  match a with
  | ⟨0, _⟩ => show win0_4.index t (0 : Fin 2) * 128 + 1 * k.val = k.val; omega
  | ⟨1, _⟩ => show win0_4.index t (1 : Fin 2) * 128 + 1 * j.val = j.val; omega

/-- Element (p, j) of point t's output block sits at row 10000·t + p, column j of the output array. -/
theorem emb_out0 (t : Fin cfg0.N) (p : Fin 10000) (j : Fin 128) (r : Fin 100000) (hr : r.val = t.val * 10000 + p.val) :
    ((cfg0.win 5).blk t).view.emb (ix2 p j) = (ix2 r j : S100000x128.Idx) := by
  obtain ⟨-, -, -, -, -, -, -, -, -, -, e50, e51⟩ := idx_facts0 t
  refine funext fun a => Fin.ext ?_
  match a with
  | ⟨0, _⟩ => show win0_5.index t (0 : Fin 2) * 10000 + 1 * p.val = r.val; omega
  | ⟨1, _⟩ => show win0_5.index t (1 : Fin 2) * 128 + 1 * j.val = j.val; omega

/-! ## What a point writes back -/

/-- The dense value depends only on the rows, the matrices and the bias it is given. -/
theorem dense_congr0 {a a' x x' : Fin 128 → EReal} {Wr Wr' Wroot Wroot' : Fin 128 → Fin 128 → EReal} {b b' : Fin 128 → EReal}
    (ha : a = a') (hx : x = x') (hr : Wr = Wr') (hroot : Wroot = Wroot') (hb : b = b') (j : Fin 128) :
    denseAt a x Wr Wroot b j = denseAt a' x' Wr' Wroot' b' j := by
  subst ha hx hr hroot hb; rfl

/-- The layer's output array as one function of the arrays the region finds. -/
abbrev G0 (c : Dev nD) : Arr 100000 :=
  layerRelu (V c main_v7) (V c main_arg0) (V c main_v9) (V c main_v13) (fun j => V c main_v14 (ix2 0 j))

/-- What point t writes back is its block of rows of the layer's output array. -/
theorem flushed_eq0 (c : Dev nD) (t : Fin cfg0.N) :
    (dat0 (F := Ideal) V c).flushed 5 t = ((cfg0.win 5).blk t).view.read (Elt Ideal) (G0 V c) := by
  show (cfg0.win 5).cut (grid0.coords t) ((dat0 (F := Ideal) V c).after 5 t) = _
  rw [after0_5]
  unfold out0_5
  rw [View.canon_unit_zero hz0]
  simp only [View.ld_unit_zero (S := S10000x128) hz0, View.ld_unit_zero (S := S128x128) hz0, View.ld_unit_zero (S := S1x128) hz0]
  funext y
  obtain ⟨p, j, rfl⟩ : ∃ (p : Fin 10000) (j : Fin 128), y = ix2 p j := ⟨y 0, y 1, eq_ix2 y⟩
  have ht := lt_ten0 t
  have hp : p.val < 10000 := p.isLt
  show k0_pay1 (F := Ideal) (iblk0 V c 0 t) (iblk0 V c 1 t) (iblk0 V c 2 t) (iblk0 V c 3 t) (iblk0 V c 4 t) (ix2 p j)
    = G0 V c (((cfg0.win 5).blk t).view.emb (ix2 p j))
  refine (k0_pay1_apply _ _ _ _ _ p j).trans ?_
  refine Eq.trans ?_ (congrArg (G0 V c) (emb_out0 t p j ⟨t.val * 10000 + p.val, by omega⟩ rfl).symm)
  exact congrArg actRelu (dense_congr0
    (funext fun k => blockread0_0 V c t p k _ rfl)
    (funext fun k => blockread0_1 V c t p k _ rfl)
    (funext fun k => funext fun j' => blockread0_2 V c t k j')
    (funext fun k => funext fun j' => blockread0_4 V c t k j')
    (funext fun j' => blockread0_3 V c t j') j)

/-! ## The cover, and the array -/

/-- An index of the output array is in point t's block iff each coordinate is in the block's range on its axis. -/
theorem mem_blk0 (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v15).slice (win0_5.rect t)).set ↔ _
  rw [View.set_slice_whole, Rect.mem_set_unit]
  exact Iff.rfl

/-- Row r of the output is in the block of point r / 10000. -/
theorem cover_out0 (i : S100000x128.Idx) :
    ∃ t : Fin cfg0.N, (cfg0.win 5).flush t = true ∧ i ∈ ((cfg0.win 5).blk t).view.set := by
  have hrow : (i 0).val < 100000 := (i 0).isLt
  have hcol : (i 1).val < 128 := (i 1).isLt
  have hN : (i 0).val / 10000 < cfg0.N := by rw [show cfg0.N = 10 from N_0]; omega
  refine ⟨⟨(i 0).val / 10000, hN⟩, flush0_5 _, ?_⟩
  obtain ⟨-, -, -, -, -, -, -, -, -, -, e50, e51⟩ := idx_facts0 ⟨(i 0).val / 10000, hN⟩
  rw [mem_blk0]
  intro a
  match a with
  | ⟨0, _⟩ =>
    show win0_5.index ⟨(i 0).val / 10000, hN⟩ (0 : Fin 2) * 10000 ≤ (i 0).val ∧ (i 0).val < win0_5.index ⟨(i 0).val / 10000, hN⟩ (0 : Fin 2) * 10000 + 10000
    rw [e50]; show (i 0).val / 10000 * 10000 ≤ (i 0).val ∧ (i 0).val < (i 0).val / 10000 * 10000 + 10000; omega
  | ⟨1, _⟩ =>
    show win0_5.index ⟨(i 0).val / 10000, hN⟩ (1 : Fin 2) * 128 ≤ (i 1).val ∧ (i 1).val < win0_5.index ⟨(i 0).val / 10000, hN⟩ (1 : Fin 2) * 128 + 128
    rw [e51]; omega

/-- After the region the first layer's output array holds max(agg · W_rel + b + x · W_root, 0), element by element,
    of the arrays the region was entered with. -/
theorem arrAt_out0 (c : Dev nD) :
    (dat0 (F := Ideal) V c).arrAt 5 cfg0.N
      = layerRelu (V c main_v7) (V c main_arg0) (V c main_v9) (V c main_v13) (fun j => V c main_v14 (ix2 0 j)) :=
  (dat0 (F := Ideal) V c).arrAt_eq_of_cover 5 (G0 V c) (fun t _ => flushed_eq0 V c t) cover_out0

end Cert.KernelIdeal.Val

end
-- ==== Proof.Val.RegVal1.lean ====
/-
  From blocks to the array, for a layer with the residual. The region's grid has ten points; point t takes rows
  10000·t … 10000·t + 9999 of the aggregated messages, of the layer's input and of the residual (the layer's input
  again), the two weight matrices and the bias row whole, and writes the same rows of the layer's output. Row r of the
  output is therefore written by point r / 10000, from row r of the three row-blocked inputs, and the array the region
  leaves is the layer's function of the arrays it found: max(agg · W_rel + b + x · W_root, 0) + x, element by element.
-/
import proofs.«420102_j84559316123938_1_alg».proof.Proof.KI.Reg1
import proofs.«420102_j84559316123938_1_alg».proof.Proof.Val.Pay
import proofs.«420102_j84559316123938_1_alg».proof.Proof.Val.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz1 : (![0, 0] : Fin 2 → Nat) = fun _ => 0 := funext fun a => by fin_cases a <;> rfl

/-- The block indices at point t: the three row-blocked inputs and the output are at row block t, the weights and the
    bias row at block 0; every column block is 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-- The grid has ten points. -/
theorem lt_ten1 (t : Fin cfg1.N) : t.val < 10 := Nat.lt_of_lt_of_eq t.isLt N_1

/-! ## Each input block, read in its array -/

/-- Row p of point t's block of the aggregated messages is row 10000·t + p of the array. -/
theorem blockread1_0 (c : Dev nD) (t : Fin cfg1.N) (p : Fin 10000) (k : Fin 128) (r : Fin 100000) (hr : r.val = t.val * 10000 + p.val) :
    (iblk1 (F := Ideal) V c 0 t : S10000x128.Idx → EReal) (ix2 p k) = (V c main_v19 : Arr 100000) (ix2 r k) := by
  obtain ⟨e00, e01, -⟩ := idx_facts1 t
  show V c main_v19 (((cfg1.win 0).blk t).view.emb (ix2 p k)) = V c main_v19 (ix2 r k)
  refine congrArg (V c main_v19) (funext fun a => Fin.ext ?_)
  match a with
  | ⟨0, _⟩ => show win1_0.index t (0 : Fin 2) * 10000 + 1 * p.val = r.val; omega
  | ⟨1, _⟩ => show win1_0.index t (1 : Fin 2) * 128 + 1 * k.val = k.val; omega

/-- Row p of point t's block of the layer's input is row 10000·t + p of the array. -/
theorem blockread1_1 (c : Dev nD) (t : Fin cfg1.N) (p : Fin 10000) (k : Fin 128) (r : Fin 100000) (hr : r.val = t.val * 10000 + p.val) :
    (iblk1 (F := Ideal) V c 1 t : S10000x128.Idx → EReal) (ix2 p k) = (V c main_v15 : Arr 100000) (ix2 r k) := by
  obtain ⟨-, -, e10, e11, -⟩ := idx_facts1 t
  show V c main_v15 (((cfg1.win 1).blk t).view.emb (ix2 p k)) = V c main_v15 (ix2 r k)
  refine congrArg (V c main_v15) (funext fun a => Fin.ext ?_)
  match a with
  | ⟨0, _⟩ => show win1_1.index t (0 : Fin 2) * 10000 + 1 * p.val = r.val; omega
  | ⟨1, _⟩ => show win1_1.index t (1 : Fin 2) * 128 + 1 * k.val = k.val; omega

/-- The block of W_rel is the whole matrix. -/
theorem blockread1_2 (c : Dev nD) (t : Fin cfg1.N) (k j : Fin 128) :
    (iblk1 (F := Ideal) V c 2 t : S128x128.Idx → EReal) (ix2 k j) = (V c main_v21 : Arr 128) (ix2 k j) := by
  obtain ⟨-, -, -, -, e20, e21, -⟩ := idx_facts1 t
  show V c main_v21 (((cfg1.win 2).blk t).view.emb (ix2 k j)) = V c main_v21 (ix2 k j)
  refine congrArg (V c main_v21) (funext fun a => Fin.ext ?_)
  match a with
  | ⟨0, _⟩ => show win1_2.index t (0 : Fin 2) * 128 + 1 * k.val = k.val; omega
  | ⟨1, _⟩ => show win1_2.index t (1 : Fin 2) * 128 + 1 * j.val = j.val; omega

/-- The block of the bias is the whole row. -/
theorem blockread1_3 (c : Dev nD) (t : Fin cfg1.N) (j : Fin 128) :
    (iblk1 (F := Ideal) V c 3 t : S1x128.Idx → EReal) (ix2 (0 : Fin 1) j) = V c main_v26 (ix2 (0 : Fin 1) j) := by
  obtain ⟨-, -, -, -, -, -, e30, e31, -⟩ := idx_facts1 t
  show V c main_v26 (((cfg1.win 3).blk t).view.emb (ix2 (0 : Fin 1) j)) = V c main_v26 (ix2 (0 : Fin 1) j)
  refine congrArg (V c main_v26) (funext fun a => Fin.ext ?_)
  match a with
  | ⟨0, _⟩ => show win1_3.index t (0 : Fin 2) * 1 + 1 * 0 = 0; omega
  | ⟨1, _⟩ => show win1_3.index t (1 : Fin 2) * 128 + 1 * j.val = j.val; omega

/-- The block of W_root is the whole matrix. -/
theorem blockread1_4 (c : Dev nD) (t : Fin cfg1.N) (k j : Fin 128) :
    (iblk1 (F := Ideal) V c 4 t : S128x128.Idx → EReal) (ix2 k j) = (V c main_v25 : Arr 128) (ix2 k j) := by
  obtain ⟨-, -, -, -, -, -, -, -, e40, e41, -⟩ := idx_facts1 t
  show V c main_v25 (((cfg1.win 4).blk t).view.emb (ix2 k j)) = V c main_v25 (ix2 k j)
  refine congrArg (V c main_v25) (funext fun a => Fin.ext ?_)
  match a with
  | ⟨0, _⟩ => show win1_4.index t (0 : Fin 2) * 128 + 1 * k.val = k.val; omega
  | ⟨1, _⟩ => show win1_4.index t (1 : Fin 2) * 128 + 1 * j.val = j.val; omega

/-- Row p of point t's block of the residual is row 10000·t + p of the layer's input. -/
theorem blockread1_5 (c : Dev nD) (t : Fin cfg1.N) (p : Fin 10000) (k : Fin 128) (r : Fin 100000) (hr : r.val = t.val * 10000 + p.val) :
    (iblk1 (F := Ideal) V c 5 t : S10000x128.Idx → EReal) (ix2 p k) = (V c main_v15 : Arr 100000) (ix2 r k) := by
  obtain ⟨-, -, -, -, -, -, -, -, -, -, e50, e51, -⟩ := idx_facts1 t
  show V c main_v15 (((cfg1.win 5).blk t).view.emb (ix2 p k)) = V c main_v15 (ix2 r k)
  refine congrArg (V c main_v15) (funext fun a => Fin.ext ?_)
  match a with
  | ⟨0, _⟩ => show win1_5.index t (0 : Fin 2) * 10000 + 1 * p.val = r.val; omega
  | ⟨1, _⟩ => show win1_5.index t (1 : Fin 2) * 128 + 1 * k.val = k.val; omega

/-- Element (p, j) of point t's output block sits at row 10000·t + p, column j of the output array. -/
theorem emb_out1 (t : Fin cfg1.N) (p : Fin 10000) (j : Fin 128) (r : Fin 100000) (hr : r.val = t.val * 10000 + p.val) :
    ((cfg1.win 6).blk t).view.emb (ix2 p j) = (ix2 r j : S100000x128.Idx) := by
  obtain ⟨-, -, -, -, -, -, -, -, -, -, -, -, e60, e61⟩ := idx_facts1 t
  refine funext fun a => Fin.ext ?_
  match a with
  | ⟨0, _⟩ => show win1_6.index t (0 : Fin 2) * 10000 + 1 * p.val = r.val; omega
  | ⟨1, _⟩ => show win1_6.index t (1 : Fin 2) * 128 + 1 * j.val = j.val; omega

/-! ## What a point writes back -/

/-- The dense value depends only on the rows, the matrices and the bias it is given. -/
theorem dense_congr1 {a a' x x' : Fin 128 → EReal} {Wr Wr' Wroot Wroot' : Fin 128 → Fin 128 → EReal} {b b' : Fin 128 → EReal}
    (ha : a = a') (hx : x = x') (hr : Wr = Wr') (hroot : Wroot = Wroot') (hb : b = b') (j : Fin 128) :
    denseAt a x Wr Wroot b j = denseAt a' x' Wr' Wroot' b' j := by
  subst ha hx hr hroot hb; rfl

/-- An activation of a dense value and a residual depends only on the two. -/
theorem act_congr1 {f : EReal → EReal → EReal} {y y' r r' : EReal} (hy : y = y') (hr : r = r') : f y r = f y' r' := by
  subst hy hr; rfl

/-- The layer's output array as one function of the arrays the region finds. -/
abbrev G1 (c : Dev nD) : Arr 100000 :=
  layerReluRes (V c main_v19) (V c main_v15) (V c main_v21) (V c main_v25) (fun j => V c main_v26 (ix2 0 j)) (V c main_v15)

/-- What point t writes back is its block of rows of the layer's output array. -/
theorem flushed_eq1 (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6]
  unfold out1_6
  rw [View.canon_unit_zero hz1]
  simp only [View.ld_unit_zero (S := S10000x128) hz1, View.ld_unit_zero (S := S128x128) hz1, View.ld_unit_zero (S := S1x128) hz1]
  funext y
  obtain ⟨p, j, rfl⟩ : ∃ (p : Fin 10000) (j : Fin 128), y = ix2 p j := ⟨y 0, y 1, eq_ix2 y⟩
  have ht := lt_ten1 t
  have hp : p.val < 10000 := p.isLt
  show k1_pay1 (F := Ideal) (iblk1 V c 0 t) (iblk1 V c 1 t) (iblk1 V c 2 t) (iblk1 V c 3 t) (iblk1 V c 4 t) (iblk1 V c 5 t) (ix2 p j)
    = G1 V c (((cfg1.win 6).blk t).view.emb (ix2 p j))
  refine (k1_pay1_apply _ _ _ _ _ _ p j).trans ?_
  refine Eq.trans ?_ (congrArg (G1 V c) (emb_out1 t p j ⟨t.val * 10000 + p.val, by omega⟩ rfl).symm)
  exact act_congr1 (dense_congr1
    (funext fun k => blockread1_0 V c t p k _ rfl)
    (funext fun k => blockread1_1 V c t p k _ rfl)
    (funext fun k => funext fun j' => blockread1_2 V c t k j')
    (funext fun k => funext fun j' => blockread1_4 V c t k j')
    (funext fun j' => blockread1_3 V c t j') j)
    (blockread1_5 V c t p j _ rfl)

/-! ## The cover, and the array -/

/-- An index of the output array is in point t's block iff each coordinate is in the block's range on its axis. -/
theorem mem_blk1 (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole (Pipeline.arrRef spec1 6)).slice (win1_6.rect t)).set ↔ _
  rw [View.set_slice_whole, Rect.mem_set_unit]
  exact Iff.rfl

/-- Row r of the output is in the block of point r / 10000. -/
theorem cover_out1 (i : S100000x128.Idx) :
    ∃ t : Fin cfg1.N, (cfg1.win 6).flush t = true ∧ i ∈ ((cfg1.win 6).blk t).view.set := by
  have hrow : (i 0).val < 100000 := (i 0).isLt
  have hcol : (i 1).val < 128 := (i 1).isLt
  have hN : (i 0).val / 10000 < cfg1.N := by rw [show cfg1.N = 10 from N_1]; omega
  refine ⟨⟨(i 0).val / 10000, hN⟩, flush1_6 _, ?_⟩
  obtain ⟨-, -, -, -, -, -, -, -, -, -, -, -, e60, e61⟩ := idx_facts1 ⟨(i 0).val / 10000, hN⟩
  rw [mem_blk1]
  intro a
  match a with
  | ⟨0, _⟩ =>
    show win1_6.index ⟨(i 0).val / 10000, hN⟩ (0 : Fin 2) * 10000 ≤ (i 0).val ∧ (i 0).val < win1_6.index ⟨(i 0).val / 10000, hN⟩ (0 : Fin 2) * 10000 + 10000
    rw [e60]; show (i 0).val / 10000 * 10000 ≤ (i 0).val ∧ (i 0).val < (i 0).val / 10000 * 10000 + 10000; omega
  | ⟨1, _⟩ =>
    show win1_6.index ⟨(i 0).val / 10000, hN⟩ (1 : Fin 2) * 128 ≤ (i 1).val ∧ (i 1).val < win1_6.index ⟨(i 0).val / 10000, hN⟩ (1 : Fin 2) * 128 + 128
    rw [e61]; omega

/-- After the region the layer's output array holds max(agg · W_rel + b + x · W_root, 0) + x, element by element, of
    the arrays the region was entered with. -/
theorem arrAt_out1 (c : Dev nD) :
    (dat1 (F := Ideal) V c).arrAt 6 cfg1.N
      = layerReluRes (V c main_v19) (V c main_v15) (V c main_v21) (V c main_v25) (fun j => V c main_v26 (ix2 0 j)) (V c main_v15) :=
  (dat1 (F := Ideal) V c).arrAt_eq_of_cover 6 (G1 V c) (fun t _ => flushed_eq1 V c t) cover_out1

end Cert.KernelIdeal.Val

end
-- ==== Proof.Val.RegVal2.lean ====
/-
  From blocks to the array, for a layer with the residual. The region's grid has ten points; point t takes rows
  10000·t … 10000·t + 9999 of the aggregated messages, of the layer's input and of the residual (the layer's input
  again), the two weight matrices and the bias row whole, and writes the same rows of the layer's output. Row r of the
  output is therefore written by point r / 10000, from row r of the three row-blocked inputs, and the array the region
  leaves is the layer's function of the arrays it found: max(agg · W_rel + b + x · W_root, 0) + x, element by element.
-/
import proofs.«420102_j84559316123938_1_alg».proof.Proof.KI.Reg2
import proofs.«420102_j84559316123938_1_alg».proof.Proof.Val.Pay
import proofs.«420102_j84559316123938_1_alg».proof.Proof.Val.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz2 : (![0, 0] : Fin 2 → Nat) = fun _ => 0 := funext fun a => by fin_cases a <;> rfl

/-- The block indices at point t: the three row-blocked inputs and the output are at row block t, the weights and the
    bias row at block 0; every column block is 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- The grid has ten points. -/
theorem lt_ten2 (t : Fin cfg2.N) : t.val < 10 := Nat.lt_of_lt_of_eq t.isLt N_2

/-! ## Each input block, read in its array -/

/-- Row p of point t's block of the aggregated messages is row 10000·t + p of the array. -/
theorem blockread2_0 (c : Dev nD) (t : Fin cfg2.N) (p : Fin 10000) (k : Fin 128) (r : Fin 100000) (hr : r.val = t.val * 10000 + p.val) :
    (iblk2 (F := Ideal) V c 0 t : S10000x128.Idx → EReal) (ix2 p k) = (V c main_v31 : Arr 100000) (ix2 r k) := by
  obtain ⟨e00, e01, -⟩ := idx_facts2 t
  show V c main_v31 (((cfg2.win 0).blk t).view.emb (ix2 p k)) = V c main_v31 (ix2 r k)
  refine congrArg (V c main_v31) (funext fun a => Fin.ext ?_)
  match a with
  | ⟨0, _⟩ => show win2_0.index t (0 : Fin 2) * 10000 + 1 * p.val = r.val; omega
  | ⟨1, _⟩ => show win2_0.index t (1 : Fin 2) * 128 + 1 * k.val = k.val; omega

/-- Row p of point t's block of the layer's input is row 10000·t + p of the array. -/
theorem blockread2_1 (c : Dev nD) (t : Fin cfg2.N) (p : Fin 10000) (k : Fin 128) (r : Fin 100000) (hr : r.val = t.val * 10000 + p.val) :
    (iblk2 (F := Ideal) V c 1 t : S10000x128.Idx → EReal) (ix2 p k) = (V c main_v27 : Arr 100000) (ix2 r k) := by
  obtain ⟨-, -, e10, e11, -⟩ := idx_facts2 t
  show V c main_v27 (((cfg2.win 1).blk t).view.emb (ix2 p k)) = V c main_v27 (ix2 r k)
  refine congrArg (V c main_v27) (funext fun a => Fin.ext ?_)
  match a with
  | ⟨0, _⟩ => show win2_1.index t (0 : Fin 2) * 10000 + 1 * p.val = r.val; omega
  | ⟨1, _⟩ => show win2_1.index t (1 : Fin 2) * 128 + 1 * k.val = k.val; omega

/-- The block of W_rel is the whole matrix. -/
theorem blockread2_2 (c : Dev nD) (t : Fin cfg2.N) (k j : Fin 128) :
    (iblk2 (F := Ideal) V c 2 t : S128x128.Idx → EReal) (ix2 k j) = (V c main_v33 : Arr 128) (ix2 k j) := by
  obtain ⟨-, -, -, -, e20, e21, -⟩ := idx_facts2 t
  show V c main_v33 (((cfg2.win 2).blk t).view.emb (ix2 k j)) = V c main_v33 (ix2 k j)
  refine congrArg (V c main_v33) (funext fun a => Fin.ext ?_)
  match a with
  | ⟨0, _⟩ => show win2_2.index t (0 : Fin 2) * 128 + 1 * k.val = k.val; omega
  | ⟨1, _⟩ => show win2_2.index t (1 : Fin 2) * 128 + 1 * j.val = j.val; omega

/-- The block of the bias is the whole row. -/
theorem blockread2_3 (c : Dev nD) (t : Fin cfg2.N) (j : Fin 128) :
    (iblk2 (F := Ideal) V c 3 t : S1x128.Idx → EReal) (ix2 (0 : Fin 1) j) = V c main_v38 (ix2 (0 : Fin 1) j) := by
  obtain ⟨-, -, -, -, -, -, e30, e31, -⟩ := idx_facts2 t
  show V c main_v38 (((cfg2.win 3).blk t).view.emb (ix2 (0 : Fin 1) j)) = V c main_v38 (ix2 (0 : Fin 1) j)
  refine congrArg (V c main_v38) (funext fun a => Fin.ext ?_)
  match a with
  | ⟨0, _⟩ => show win2_3.index t (0 : Fin 2) * 1 + 1 * 0 = 0; omega
  | ⟨1, _⟩ => show win2_3.index t (1 : Fin 2) * 128 + 1 * j.val = j.val; omega

/-- The block of W_root is the whole matrix. -/
theorem blockread2_4 (c : Dev nD) (t : Fin cfg2.N) (k j : Fin 128) :
    (iblk2 (F := Ideal) V c 4 t : S128x128.Idx → EReal) (ix2 k j) = (V c main_v37 : Arr 128) (ix2 k j) := by
  obtain ⟨-, -, -, -, -, -, -, -, e40, e41, -⟩ := idx_facts2 t
  show V c main_v37 (((cfg2.win 4).blk t).view.emb (ix2 k j)) = V c main_v37 (ix2 k j)
  refine congrArg (V c main_v37) (funext fun a => Fin.ext ?_)
  match a with
  | ⟨0, _⟩ => show win2_4.index t (0 : Fin 2) * 128 + 1 * k.val = k.val; omega
  | ⟨1, _⟩ => show win2_4.index t (1 : Fin 2) * 128 + 1 * j.val = j.val; omega

/-- Row p of point t's block of the residual is row 10000·t + p of the layer's input. -/
theorem blockread2_5 (c : Dev nD) (t : Fin cfg2.N) (p : Fin 10000) (k : Fin 128) (r : Fin 100000) (hr : r.val = t.val * 10000 + p.val) :
    (iblk2 (F := Ideal) V c 5 t : S10000x128.Idx → EReal) (ix2 p k) = (V c main_v27 : Arr 100000) (ix2 r k) := by
  obtain ⟨-, -, -, -, -, -, -, -, -, -, e50, e51, -⟩ := idx_facts2 t
  show V c main_v27 (((cfg2.win 5).blk t).view.emb (ix2 p k)) = V c main_v27 (ix2 r k)
  refine congrArg (V c main_v27) (funext fun a => Fin.ext ?_)
  match a with
  | ⟨0, _⟩ => show win2_5.index t (0 : Fin 2) * 10000 + 1 * p.val = r.val; omega
  | ⟨1, _⟩ => show win2_5.index t (1 : Fin 2) * 128 + 1 * k.val = k.val; omega

/-- Element (p, j) of point t's output block sits at row 10000·t + p, column j of the output array. -/
theorem emb_out2 (t : Fin cfg2.N) (p : Fin 10000) (j : Fin 128) (r : Fin 100000) (hr : r.val = t.val * 10000 + p.val) :
    ((cfg2.win 6).blk t).view.emb (ix2 p j) = (ix2 r j : S100000x128.Idx) := by
  obtain ⟨-, -, -, -, -, -, -, -, -, -, -, -, e60, e61⟩ := idx_facts2 t
  refine funext fun a => Fin.ext ?_
  match a with
  | ⟨0, _⟩ => show win2_6.index t (0 : Fin 2) * 10000 + 1 * p.val = r.val; omega
  | ⟨1, _⟩ => show win2_6.index t (1 : Fin 2) * 128 + 1 * j.val = j.val; omega

/-! ## What a point writes back -/

/-- The dense value depends only on the rows, the matrices and the bias it is given. -/
theorem dense_congr2 {a a' x x' : Fin 128 → EReal} {Wr Wr' Wroot Wroot' : Fin 128 → Fin 128 → EReal} {b b' : Fin 128 → EReal}
    (ha : a = a') (hx : x = x') (hr : Wr = Wr') (hroot : Wroot = Wroot') (hb : b = b') (j : Fin 128) :
    denseAt a x Wr Wroot b j = denseAt a' x' Wr' Wroot' b' j := by
  subst ha hx hr hroot hb; rfl

/-- An activation of a dense value and a residual depends only on the two. -/
theorem act_congr2 {f : EReal → EReal → EReal} {y y' r r' : EReal} (hy : y = y') (hr : r = r') : f y r = f y' r' := by
  subst hy hr; rfl

/-- The layer's output array as one function of the arrays the region finds. -/
abbrev G2 (c : Dev nD) : Arr 100000 :=
  layerReluRes (V c main_v31) (V c main_v27) (V c main_v33) (V c main_v37) (fun j => V c main_v38 (ix2 0 j)) (V c main_v27)

/-- What point t writes back is its block of rows of the layer's output array. -/
theorem flushed_eq2 (c : Dev nD) (t : Fin cfg2.N) :
    (dat2 (F := Ideal) V c).flushed 6 t = ((cfg2.win 6).blk t).view.read (Elt Ideal) (G2 V c) := by
  show (cfg2.win 6).cut (grid2.coords t) ((dat2 (F := Ideal) V c).after 6 t) = _
  rw [after2_6]
  unfold out2_6
  rw [View.canon_unit_zero hz2]
  simp only [View.ld_unit_zero (S := S10000x128) hz2, View.ld_unit_zero (S := S128x128) hz2, View.ld_unit_zero (S := S1x128) hz2]
  funext y
  obtain ⟨p, j, rfl⟩ : ∃ (p : Fin 10000) (j : Fin 128), y = ix2 p j := ⟨y 0, y 1, eq_ix2 y⟩
  have ht := lt_ten2 t
  have hp : p.val < 10000 := p.isLt
  show k2_pay1 (F := Ideal) (iblk2 V c 0 t) (iblk2 V c 1 t) (iblk2 V c 2 t) (iblk2 V c 3 t) (iblk2 V c 4 t) (iblk2 V c 5 t) (ix2 p j)
    = G2 V c (((cfg2.win 6).blk t).view.emb (ix2 p j))
  refine (k2_pay1_apply _ _ _ _ _ _ p j).trans ?_
  refine Eq.trans ?_ (congrArg (G2 V c) (emb_out2 t p j ⟨t.val * 10000 + p.val, by omega⟩ rfl).symm)
  exact act_congr2 (dense_congr2
    (funext fun k => blockread2_0 V c t p k _ rfl)
    (funext fun k => blockread2_1 V c t p k _ rfl)
    (funext fun k => funext fun j' => blockread2_2 V c t k j')
    (funext fun k => funext fun j' => blockread2_4 V c t k j')
    (funext fun j' => blockread2_3 V c t j') j)
    (blockread2_5 V c t p j _ rfl)

/-! ## The cover, and the array -/

/-- An index of the output array is in point t's block iff each coordinate is in the block's range on its axis. -/
theorem mem_blk2 (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole (Pipeline.arrRef spec2 6)).slice (win2_6.rect t)).set ↔ _
  rw [View.set_slice_whole, Rect.mem_set_unit]
  exact Iff.rfl

/-- Row r of the output is in the block of point r / 10000. -/
theorem cover_out2 (i : S100000x128.Idx) :
    ∃ t : Fin cfg2.N, (cfg2.win 6).flush t = true ∧ i ∈ ((cfg2.win 6).blk t).view.set := by
  have hrow : (i 0).val < 100000 := (i 0).isLt
  have hcol : (i 1).val < 128 := (i 1).isLt
  have hN : (i 0).val / 10000 < cfg2.N := by rw [show cfg2.N = 10 from N_2]; omega
  refine ⟨⟨(i 0).val / 10000, hN⟩, flush2_6 _, ?_⟩
  obtain ⟨-, -, -, -, -, -, -, -, -, -, -, -, e60, e61⟩ := idx_facts2 ⟨(i 0).val / 10000, hN⟩
  rw [mem_blk2]
  intro a
  match a with
  | ⟨0, _⟩ =>
    show win2_6.index ⟨(i 0).val / 10000, hN⟩ (0 : Fin 2) * 10000 ≤ (i 0).val ∧ (i 0).val < win2_6.index ⟨(i 0).val / 10000, hN⟩ (0 : Fin 2) * 10000 + 10000
    rw [e60]; show (i 0).val / 10000 * 10000 ≤ (i 0).val ∧ (i 0).val < (i 0).val / 10000 * 10000 + 10000; omega
  | ⟨1, _⟩ =>
    show win2_6.index ⟨(i 0).val / 10000, hN⟩ (1 : Fin 2) * 128 ≤ (i 1).val ∧ (i 1).val < win2_6.index ⟨(i 0).val / 10000, hN⟩ (1 : Fin 2) * 128 + 128
    rw [e61]; omega

/-- After the region the layer's output array holds max(agg · W_rel + b + x · W_root, 0) + x, element by element, of
    the arrays the region was entered with. -/
theorem arrAt_out2 (c : Dev nD) :
    (dat2 (F := Ideal) V c).arrAt 6 cfg2.N
      = layerReluRes (V c main_v31) (V c main_v27) (V c main_v33) (V c main_v37) (fun j => V c main_v38 (ix2 0 j)) (V c main_v27) :=
  (dat2 (F := Ideal) V c).arrAt_eq_of_cover 6 (G2 V c) (fun t _ => flushed_eq2 V c t) cover_out2

end Cert.KernelIdeal.Val

end
-- ==== Proof.Val.RegVal3.lean ====
/-
  From blocks to the array, for a layer with the residual. The region's grid has ten points; point t takes rows
  10000·t … 10000·t + 9999 of the aggregated messages, of the layer's input and of the residual (the layer's input
  again), the two weight matrices and the bias row whole, and writes the same rows of the layer's output. Row r of the
  output is therefore written by point r / 10000, from row r of the three row-blocked inputs, and the array the region
  leaves is the layer's function of the arrays it found: max(agg · W_rel + b + x · W_root, 0) + x, element by element.
-/
import proofs.«420102_j84559316123938_1_alg».proof.Proof.KI.Reg3
import proofs.«420102_j84559316123938_1_alg».proof.Proof.Val.Pay
import proofs.«420102_j84559316123938_1_alg».proof.Proof.Val.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz3 : (![0, 0] : Fin 2 → Nat) = fun _ => 0 := funext fun a => by fin_cases a <;> rfl

/-- The block indices at point t: the three row-blocked inputs and the output are at row block t, the weights and the
    bias row at block 0; every column block is 0. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

/-- The grid has ten points. -/
theorem lt_ten3 (t : Fin cfg3.N) : t.val < 10 := Nat.lt_of_lt_of_eq t.isLt N_3

/-! ## Each input block, read in its array -/

/-- Row p of point t's block of the aggregated messages is row 10000·t + p of the array. -/
theorem blockread3_0 (c : Dev nD) (t : Fin cfg3.N) (p : Fin 10000) (k : Fin 128) (r : Fin 100000) (hr : r.val = t.val * 10000 + p.val) :
    (iblk3 (F := Ideal) V c 0 t : S10000x128.Idx → EReal) (ix2 p k) = (V c main_v43 : Arr 100000) (ix2 r k) := by
  obtain ⟨e00, e01, -⟩ := idx_facts3 t
  show V c main_v43 (((cfg3.win 0).blk t).view.emb (ix2 p k)) = V c main_v43 (ix2 r k)
  refine congrArg (V c main_v43) (funext fun a => Fin.ext ?_)
  match a with
  | ⟨0, _⟩ => show win3_0.index t (0 : Fin 2) * 10000 + 1 * p.val = r.val; omega
  | ⟨1, _⟩ => show win3_0.index t (1 : Fin 2) * 128 + 1 * k.val = k.val; omega

/-- Row p of point t's block of the layer's input is row 10000·t + p of the array. -/
theorem blockread3_1 (c : Dev nD) (t : Fin cfg3.N) (p : Fin 10000) (k : Fin 128) (r : Fin 100000) (hr : r.val = t.val * 10000 + p.val) :
    (iblk3 (F := Ideal) V c 1 t : S10000x128.Idx → EReal) (ix2 p k) = (V c main_v39 : Arr 100000) (ix2 r k) := by
  obtain ⟨-, -, e10, e11, -⟩ := idx_facts3 t
  show V c main_v39 (((cfg3.win 1).blk t).view.emb (ix2 p k)) = V c main_v39 (ix2 r k)
  refine congrArg (V c main_v39) (funext fun a => Fin.ext ?_)
  match a with
  | ⟨0, _⟩ => show win3_1.index t (0 : Fin 2) * 10000 + 1 * p.val = r.val; omega
  | ⟨1, _⟩ => show win3_1.index t (1 : Fin 2) * 128 + 1 * k.val = k.val; omega

/-- The block of W_rel is the whole matrix. -/
theorem blockread3_2 (c : Dev nD) (t : Fin cfg3.N) (k j : Fin 128) :
    (iblk3 (F := Ideal) V c 2 t : S128x128.Idx → EReal) (ix2 k j) = (V c main_v45 : Arr 128) (ix2 k j) := by
  obtain ⟨-, -, -, -, e20, e21, -⟩ := idx_facts3 t
  show V c main_v45 (((cfg3.win 2).blk t).view.emb (ix2 k j)) = V c main_v45 (ix2 k j)
  refine congrArg (V c main_v45) (funext fun a => Fin.ext ?_)
  match a with
  | ⟨0, _⟩ => show win3_2.index t (0 : Fin 2) * 128 + 1 * k.val = k.val; omega
  | ⟨1, _⟩ => show win3_2.index t (1 : Fin 2) * 128 + 1 * j.val = j.val; omega

/-- The block of the bias is the whole row. -/
theorem blockread3_3 (c : Dev nD) (t : Fin cfg3.N) (j : Fin 128) :
    (iblk3 (F := Ideal) V c 3 t : S1x128.Idx → EReal) (ix2 (0 : Fin 1) j) = V c main_v50 (ix2 (0 : Fin 1) j) := by
  obtain ⟨-, -, -, -, -, -, e30, e31, -⟩ := idx_facts3 t
  show V c main_v50 (((cfg3.win 3).blk t).view.emb (ix2 (0 : Fin 1) j)) = V c main_v50 (ix2 (0 : Fin 1) j)
  refine congrArg (V c main_v50) (funext fun a => Fin.ext ?_)
  match a with
  | ⟨0, _⟩ => show win3_3.index t (0 : Fin 2) * 1 + 1 * 0 = 0; omega
  | ⟨1, _⟩ => show win3_3.index t (1 : Fin 2) * 128 + 1 * j.val = j.val; omega

/-- The block of W_root is the whole matrix. -/
theorem blockread3_4 (c : Dev nD) (t : Fin cfg3.N) (k j : Fin 128) :
    (iblk3 (F := Ideal) V c 4 t : S128x128.Idx → EReal) (ix2 k j) = (V c main_v49 : Arr 128) (ix2 k j) := by
  obtain ⟨-, -, -, -, -, -, -, -, e40, e41, -⟩ := idx_facts3 t
  show V c main_v49 (((cfg3.win 4).blk t).view.emb (ix2 k j)) = V c main_v49 (ix2 k j)
  refine congrArg (V c main_v49) (funext fun a => Fin.ext ?_)
  match a with
  | ⟨0, _⟩ => show win3_4.index t (0 : Fin 2) * 128 + 1 * k.val = k.val; omega
  | ⟨1, _⟩ => show win3_4.index t (1 : Fin 2) * 128 + 1 * j.val = j.val; omega

/-- Row p of point t's block of the residual is row 10000·t + p of the layer's input. -/
theorem blockread3_5 (c : Dev nD) (t : Fin cfg3.N) (p : Fin 10000) (k : Fin 128) (r : Fin 100000) (hr : r.val = t.val * 10000 + p.val) :
    (iblk3 (F := Ideal) V c 5 t : S10000x128.Idx → EReal) (ix2 p k) = (V c main_v39 : Arr 100000) (ix2 r k) := by
  obtain ⟨-, -, -, -, -, -, -, -, -, -, e50, e51, -⟩ := idx_facts3 t
  show V c main_v39 (((cfg3.win 5).blk t).view.emb (ix2 p k)) = V c main_v39 (ix2 r k)
  refine congrArg (V c main_v39) (funext fun a => Fin.ext ?_)
  match a with
  | ⟨0, _⟩ => show win3_5.index t (0 : Fin 2) * 10000 + 1 * p.val = r.val; omega
  | ⟨1, _⟩ => show win3_5.index t (1 : Fin 2) * 128 + 1 * k.val = k.val; omega

/-- Element (p, j) of point t's output block sits at row 10000·t + p, column j of the output array. -/
theorem emb_out3 (t : Fin cfg3.N) (p : Fin 10000) (j : Fin 128) (r : Fin 100000) (hr : r.val = t.val * 10000 + p.val) :
    ((cfg3.win 6).blk t).view.emb (ix2 p j) = (ix2 r j : S100000x128.Idx) := by
  obtain ⟨-, -, -, -, -, -, -, -, -, -, -, -, e60, e61⟩ := idx_facts3 t
  refine funext fun a => Fin.ext ?_
  match a with
  | ⟨0, _⟩ => show win3_6.index t (0 : Fin 2) * 10000 + 1 * p.val = r.val; omega
  | ⟨1, _⟩ => show win3_6.index t (1 : Fin 2) * 128 + 1 * j.val = j.val; omega

/-! ## What a point writes back -/

/-- The dense value depends only on the rows, the matrices and the bias it is given. -/
theorem dense_congr3 {a a' x x' : Fin 128 → EReal} {Wr Wr' Wroot Wroot' : Fin 128 → Fin 128 → EReal} {b b' : Fin 128 → EReal}
    (ha : a = a') (hx : x = x') (hr : Wr = Wr') (hroot : Wroot = Wroot') (hb : b = b') (j : Fin 128) :
    denseAt a x Wr Wroot b j = denseAt a' x' Wr' Wroot' b' j := by
  subst ha hx hr hroot hb; rfl

/-- An activation of a dense value and a residual depends only on the two. -/
theorem act_congr3 {f : EReal → EReal → EReal} {y y' r r' : EReal} (hy : y = y') (hr : r = r') : f y r = f y' r' := by
  subst hy hr; rfl

/-- The layer's output array as one function of the arrays the region finds. -/
abbrev G3 (c : Dev nD) : Arr 100000 :=
  layerReluRes (V c main_v43) (V c main_v39) (V c main_v45) (V c main_v49) (fun j => V c main_v50 (ix2 0 j)) (V c main_v39)

/-- What point t writes back is its block of rows of the layer's output array. -/
theorem flushed_eq3 (c : Dev nD) (t : Fin cfg3.N) :
    (dat3 (F := Ideal) V c).flushed 6 t = ((cfg3.win 6).blk t).view.read (Elt Ideal) (G3 V c) := by
  show (cfg3.win 6).cut (grid3.coords t) ((dat3 (F := Ideal) V c).after 6 t) = _
  rw [after3_6]
  unfold out3_6
  rw [View.canon_unit_zero hz3]
  simp only [View.ld_unit_zero (S := S10000x128) hz3, View.ld_unit_zero (S := S128x128) hz3, View.ld_unit_zero (S := S1x128) hz3]
  funext y
  obtain ⟨p, j, rfl⟩ : ∃ (p : Fin 10000) (j : Fin 128), y = ix2 p j := ⟨y 0, y 1, eq_ix2 y⟩
  have ht := lt_ten3 t
  have hp : p.val < 10000 := p.isLt
  show k3_pay1 (F := Ideal) (iblk3 V c 0 t) (iblk3 V c 1 t) (iblk3 V c 2 t) (iblk3 V c 3 t) (iblk3 V c 4 t) (iblk3 V c 5 t) (ix2 p j)
    = G3 V c (((cfg3.win 6).blk t).view.emb (ix2 p j))
  refine (k3_pay1_apply _ _ _ _ _ _ p j).trans ?_
  refine Eq.trans ?_ (congrArg (G3 V c) (emb_out3 t p j ⟨t.val * 10000 + p.val, by omega⟩ rfl).symm)
  exact act_congr3 (dense_congr3
    (funext fun k => blockread3_0 V c t p k _ rfl)
    (funext fun k => blockread3_1 V c t p k _ rfl)
    (funext fun k => funext fun j' => blockread3_2 V c t k j')
    (funext fun k => funext fun j' => blockread3_4 V c t k j')
    (funext fun j' => blockread3_3 V c t j') j)
    (blockread3_5 V c t p j _ rfl)

/-! ## The cover, and the array -/

/-- An index of the output array is in point t's block iff each coordinate is in the block's range on its axis. -/
theorem mem_blk3 (t : Fin cfg3.N) (i : S100000x128.Idx) :
    i ∈ ((cfg3.win 6).blk t).view.set ↔ ∀ a : Fin 2, win3_6.index t a * S10000x128.size a ≤ (i a).val ∧ (i a).val < win3_6.index t a * S10000x128.size a + S10000x128.size a := by
  show i ∈ ((View.whole (Pipeline.arrRef spec3 6)).slice (win3_6.rect t)).set ↔ _
  rw [View.set_slice_whole, Rect.mem_set_unit]
  exact Iff.rfl

/-- Row r of the output is in the block of point r / 10000. -/
theorem cover_out3 (i : S100000x128.Idx) :
    ∃ t : Fin cfg3.N, (cfg3.win 6).flush t = true ∧ i ∈ ((cfg3.win 6).blk t).view.set := by
  have hrow : (i 0).val < 100000 := (i 0).isLt
  have hcol : (i 1).val < 128 := (i 1).isLt
  have hN : (i 0).val / 10000 < cfg3.N := by rw [show cfg3.N = 10 from N_3]; omega
  refine ⟨⟨(i 0).val / 10000, hN⟩, flush3_6 _, ?_⟩
  obtain ⟨-, -, -, -, -, -, -, -, -, -, -, -, e60, e61⟩ := idx_facts3 ⟨(i 0).val / 10000, hN⟩
  rw [mem_blk3]
  intro a
  match a with
  | ⟨0, _⟩ =>
    show win3_6.index ⟨(i 0).val / 10000, hN⟩ (0 : Fin 2) * 10000 ≤ (i 0).val ∧ (i 0).val < win3_6.index ⟨(i 0).val / 10000, hN⟩ (0 : Fin 2) * 10000 + 10000
    rw [e60]; show (i 0).val / 10000 * 10000 ≤ (i 0).val ∧ (i 0).val < (i 0).val / 10000 * 10000 + 10000; omega
  | ⟨1, _⟩ =>
    show win3_6.index ⟨(i 0).val / 10000, hN⟩ (1 : Fin 2) * 128 ≤ (i 1).val ∧ (i 1).val < win3_6.index ⟨(i 0).val / 10000, hN⟩ (1 : Fin 2) * 128 + 128
    rw [e61]; omega

/-- After the region the layer's output array holds max(agg · W_rel + b + x · W_root, 0) + x, element by element, of
    the arrays the region was entered with. -/
theorem arrAt_out3 (c : Dev nD) :
    (dat3 (F := Ideal) V c).arrAt 6 cfg3.N
      = layerReluRes (V c main_v43) (V c main_v39) (V c main_v45) (V c main_v49) (fun j => V c main_v50 (ix2 0 j)) (V c main_v39) :=
  (dat3 (F := Ideal) V c).arrAt_eq_of_cover 6 (G3 V c) (fun t _ => flushed_eq3 V c t) cover_out3

end Cert.KernelIdeal.Val

end
-- ==== Proof.Val.RegVal4.lean ====
/-
  From blocks to the array, for a layer with the residual. The region's grid has ten points; point t takes rows
  10000·t … 10000·t + 9999 of the aggregated messages, of the layer's input and of the residual (the layer's input
  again), the two weight matrices and the bias row whole, and writes the same rows of the layer's output. Row r of the
  output is therefore written by point r / 10000, from row r of the three row-blocked inputs, and the array the region
  leaves is the layer's function of the arrays it found: agg · W_rel + b + x · W_root + x, element by element.
-/
import proofs.«420102_j84559316123938_1_alg».proof.Proof.KI.Reg4
import proofs.«420102_j84559316123938_1_alg».proof.Proof.Val.Pay
import proofs.«420102_j84559316123938_1_alg».proof.Proof.Val.Spec
import Idealize.ShloMosaic.Lib.Pipeline.Value
import Idealize.ShloMosaic.Lib.ValueIdx

noncomputable section

namespace Cert.KernelIdeal.Val

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offsets of a whole-buffer access. -/
theorem hz4 : (![0, 0] : Fin 2 → Nat) = fun _ => 0 := funext fun a => by fin_cases a <;> rfl

/-- The block indices at point t: the three row-blocked inputs and the output are at row block t, the weights and the
    bias row at block 0; every column block is 0. -/
theorem idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0
    ∧ win4_6.index t (0 : Fin 2) = t.val ∧ win4_6.index t (1 : Fin 2) = 0 :=
  (by decide +kernel : ∀ t : Fin grid4.N, _)

/-- The grid has ten points. -/
theorem lt_ten4 (t : Fin cfg4.N) : t.val < 10 := Nat.lt_of_lt_of_eq t.isLt N_4

/-! ## Each input block, read in its array -/

/-- Row p of point t's block of the aggregated messages is row 10000·t + p of the array. -/
theorem blockread4_0 (c : Dev nD) (t : Fin cfg4.N) (p : Fin 10000) (k : Fin 128) (r : Fin 100000) (hr : r.val = t.val * 10000 + p.val) :
    (iblk4 (F := Ideal) V c 0 t : S10000x128.Idx → EReal) (ix2 p k) = (V c main_v55 : Arr 100000) (ix2 r k) := by
  obtain ⟨e00, e01, -⟩ := idx_facts4 t
  show V c main_v55 (((cfg4.win 0).blk t).view.emb (ix2 p k)) = V c main_v55 (ix2 r k)
  refine congrArg (V c main_v55) (funext fun a => Fin.ext ?_)
  match a with
  | ⟨0, _⟩ => show win4_0.index t (0 : Fin 2) * 10000 + 1 * p.val = r.val; omega
  | ⟨1, _⟩ => show win4_0.index t (1 : Fin 2) * 128 + 1 * k.val = k.val; omega

/-- Row p of point t's block of the layer's input is row 10000·t + p of the array. -/
theorem blockread4_1 (c : Dev nD) (t : Fin cfg4.N) (p : Fin 10000) (k : Fin 128) (r : Fin 100000) (hr : r.val = t.val * 10000 + p.val) :
    (iblk4 (F := Ideal) V c 1 t : S10000x128.Idx → EReal) (ix2 p k) = (V c main_v51 : Arr 100000) (ix2 r k) := by
  obtain ⟨-, -, e10, e11, -⟩ := idx_facts4 t
  show V c main_v51 (((cfg4.win 1).blk t).view.emb (ix2 p k)) = V c main_v51 (ix2 r k)
  refine congrArg (V c main_v51) (funext fun a => Fin.ext ?_)
  match a with
  | ⟨0, _⟩ => show win4_1.index t (0 : Fin 2) * 10000 + 1 * p.val = r.val; omega
  | ⟨1, _⟩ => show win4_1.index t (1 : Fin 2) * 128 + 1 * k.val = k.val; omega

/-- The block of W_rel is the whole matrix. -/
theorem blockread4_2 (c : Dev nD) (t : Fin cfg4.N) (k j : Fin 128) :
    (iblk4 (F := Ideal) V c 2 t : S128x128.Idx → EReal) (ix2 k j) = (V c main_v57 : Arr 128) (ix2 k j) := by
  obtain ⟨-, -, -, -, e20, e21, -⟩ := idx_facts4 t
  show V c main_v57 (((cfg4.win 2).blk t).view.emb (ix2 k j)) = V c main_v57 (ix2 k j)
  refine congrArg (V c main_v57) (funext fun a => Fin.ext ?_)
  match a with
  | ⟨0, _⟩ => show win4_2.index t (0 : Fin 2) * 128 + 1 * k.val = k.val; omega
  | ⟨1, _⟩ => show win4_2.index t (1 : Fin 2) * 128 + 1 * j.val = j.val; omega

/-- The block of the bias is the whole row. -/
theorem blockread4_3 (c : Dev nD) (t : Fin cfg4.N) (j : Fin 128) :
    (iblk4 (F := Ideal) V c 3 t : S1x128.Idx → EReal) (ix2 (0 : Fin 1) j) = V c main_v62 (ix2 (0 : Fin 1) j) := by
  obtain ⟨-, -, -, -, -, -, e30, e31, -⟩ := idx_facts4 t
  show V c main_v62 (((cfg4.win 3).blk t).view.emb (ix2 (0 : Fin 1) j)) = V c main_v62 (ix2 (0 : Fin 1) j)
  refine congrArg (V c main_v62) (funext fun a => Fin.ext ?_)
  match a with
  | ⟨0, _⟩ => show win4_3.index t (0 : Fin 2) * 1 + 1 * 0 = 0; omega
  | ⟨1, _⟩ => show win4_3.index t (1 : Fin 2) * 128 + 1 * j.val = j.val; omega

/-- The block of W_root is the whole matrix. -/
theorem blockread4_4 (c : Dev nD) (t : Fin cfg4.N) (k j : Fin 128) :
    (iblk4 (F := Ideal) V c 4 t : S128x128.Idx → EReal) (ix2 k j) = (V c main_v61 : Arr 128) (ix2 k j) := by
  obtain ⟨-, -, -, -, -, -, -, -, e40, e41, -⟩ := idx_facts4 t
  show V c main_v61 (((cfg4.win 4).blk t).view.emb (ix2 k j)) = V c main_v61 (ix2 k j)
  refine congrArg (V c main_v61) (funext fun a => Fin.ext ?_)
  match a with
  | ⟨0, _⟩ => show win4_4.index t (0 : Fin 2) * 128 + 1 * k.val = k.val; omega
  | ⟨1, _⟩ => show win4_4.index t (1 : Fin 2) * 128 + 1 * j.val = j.val; omega

/-- Row p of point t's block of the residual is row 10000·t + p of the layer's input. -/
theorem blockread4_5 (c : Dev nD) (t : Fin cfg4.N) (p : Fin 10000) (k : Fin 128) (r : Fin 100000) (hr : r.val = t.val * 10000 + p.val) :
    (iblk4 (F := Ideal) V c 5 t : S10000x128.Idx → EReal) (ix2 p k) = (V c main_v51 : Arr 100000) (ix2 r k) := by
  obtain ⟨-, -, -, -, -, -, -, -, -, -, e50, e51, -⟩ := idx_facts4 t
  show V c main_v51 (((cfg4.win 5).blk t).view.emb (ix2 p k)) = V c main_v51 (ix2 r k)
  refine congrArg (V c main_v51) (funext fun a => Fin.ext ?_)
  match a with
  | ⟨0, _⟩ => show win4_5.index t (0 : Fin 2) * 10000 + 1 * p.val = r.val; omega
  | ⟨1, _⟩ => show win4_5.index t (1 : Fin 2) * 128 + 1 * k.val = k.val; omega

/-- Element (p, j) of point t's output block sits at row 10000·t + p, column j of the output array. -/
theorem emb_out4 (t : Fin cfg4.N) (p : Fin 10000) (j : Fin 128) (r : Fin 100000) (hr : r.val = t.val * 10000 + p.val) :
    ((cfg4.win 6).blk t).view.emb (ix2 p j) = (ix2 r j : S100000x128.Idx) := by
  obtain ⟨-, -, -, -, -, -, -, -, -, -, -, -, e60, e61⟩ := idx_facts4 t
  refine funext fun a => Fin.ext ?_
  match a with
  | ⟨0, _⟩ => show win4_6.index t (0 : Fin 2) * 10000 + 1 * p.val = r.val; omega
  | ⟨1, _⟩ => show win4_6.index t (1 : Fin 2) * 128 + 1 * j.val = j.val; omega

/-! ## What a point writes back -/

/-- The dense value depends only on the rows, the matrices and the bias it is given. -/
theorem dense_congr4 {a a' x x' : Fin 128 → EReal} {Wr Wr' Wroot Wroot' : Fin 128 → Fin 128 → EReal} {b b' : Fin 128 → EReal}
    (ha : a = a') (hx : x = x') (hr : Wr = Wr') (hroot : Wroot = Wroot') (hb : b = b') (j : Fin 128) :
    denseAt a x Wr Wroot b j = denseAt a' x' Wr' Wroot' b' j := by
  subst ha hx hr hroot hb; rfl

/-- An activation of a dense value and a residual depends only on the two. -/
theorem act_congr4 {f : EReal → EReal → EReal} {y y' r r' : EReal} (hy : y = y') (hr : r = r') : f y r = f y' r' := by
  subst hy hr; rfl

/-- The layer's output array as one function of the arrays the region finds. -/
abbrev G4 (c : Dev nD) : Arr 100000 :=
  layerRes (V c main_v55) (V c main_v51) (V c main_v57) (V c main_v61) (fun j => V c main_v62 (ix2 0 j)) (V c main_v51)

/-- What point t writes back is its block of rows of the layer's output array. -/
theorem flushed_eq4 (c : Dev nD) (t : Fin cfg4.N) :
    (dat4 (F := Ideal) V c).flushed 6 t = ((cfg4.win 6).blk t).view.read (Elt Ideal) (G4 V c) := by
  show (cfg4.win 6).cut (grid4.coords t) ((dat4 (F := Ideal) V c).after 6 t) = _
  rw [after4_6]
  unfold out4_6
  rw [View.canon_unit_zero hz4]
  simp only [View.ld_unit_zero (S := S10000x128) hz4, View.ld_unit_zero (S := S128x128) hz4, View.ld_unit_zero (S := S1x128) hz4]
  funext y
  obtain ⟨p, j, rfl⟩ : ∃ (p : Fin 10000) (j : Fin 128), y = ix2 p j := ⟨y 0, y 1, eq_ix2 y⟩
  have ht := lt_ten4 t
  have hp : p.val < 10000 := p.isLt
  show k4_pay1 (F := Ideal) (iblk4 V c 0 t) (iblk4 V c 1 t) (iblk4 V c 2 t) (iblk4 V c 3 t) (iblk4 V c 4 t) (iblk4 V c 5 t) (ix2 p j)
    = G4 V c (((cfg4.win 6).blk t).view.emb (ix2 p j))
  refine (k4_pay1_apply _ _ _ _ _ _ p j).trans ?_
  refine Eq.trans ?_ (congrArg (G4 V c) (emb_out4 t p j ⟨t.val * 10000 + p.val, by omega⟩ rfl).symm)
  exact act_congr4 (dense_congr4
    (funext fun k => blockread4_0 V c t p k _ rfl)
    (funext fun k => blockread4_1 V c t p k _ rfl)
    (funext fun k => funext fun j' => blockread4_2 V c t k j')
    (funext fun k => funext fun j' => blockread4_4 V c t k j')
    (funext fun j' => blockread4_3 V c t j') j)
    (blockread4_5 V c t p j _ rfl)

/-! ## The cover, and the array -/

/-- An index of the output array is in point t's block iff each coordinate is in the block's range on its axis. -/
theorem mem_blk4 (t : Fin cfg4.N) (i : S100000x128.Idx) :
    i ∈ ((cfg4.win 6).blk t).view.set ↔ ∀ a : Fin 2, win4_6.index t a * S10000x128.size a ≤ (i a).val ∧ (i a).val < win4_6.index t a * S10000x128.size a + S10000x128.size a := by
  show i ∈ ((View.whole (Pipeline.arrRef spec4 6)).slice (win4_6.rect t)).set ↔ _
  rw [View.set_slice_whole, Rect.mem_set_unit]
  exact Iff.rfl

/-- Row r of the output is in the block of point r / 10000. -/
theorem cover_out4 (i : S100000x128.Idx) :
    ∃ t : Fin cfg4.N, (cfg4.win 6).flush t = true ∧ i ∈ ((cfg4.win 6).blk t).view.set := by
  have hrow : (i 0).val < 100000 := (i 0).isLt
  have hcol : (i 1).val < 128 := (i 1).isLt
  have hN : (i 0).val / 10000 < cfg4.N := by rw [show cfg4.N = 10 from N_4]; omega
  refine ⟨⟨(i 0).val / 10000, hN⟩, flush4_6 _, ?_⟩
  obtain ⟨-, -, -, -, -, -, -, -, -, -, -, -, e60, e61⟩ := idx_facts4 ⟨(i 0).val / 10000, hN⟩
  rw [mem_blk4]
  intro a
  match a with
  | ⟨0, _⟩ =>
    show win4_6.index ⟨(i 0).val / 10000, hN⟩ (0 : Fin 2) * 10000 ≤ (i 0).val ∧ (i 0).val < win4_6.index ⟨(i 0).val / 10000, hN⟩ (0 : Fin 2) * 10000 + 10000
    rw [e60]; show (i 0).val / 10000 * 10000 ≤ (i 0).val ∧ (i 0).val < (i 0).val / 10000 * 10000 + 10000; omega
  | ⟨1, _⟩ =>
    show win4_6.index ⟨(i 0).val / 10000, hN⟩ (1 : Fin 2) * 128 ≤ (i 1).val ∧ (i 1).val < win4_6.index ⟨(i 0).val / 10000, hN⟩ (1 : Fin 2) * 128 + 128
    rw [e61]; omega

/-- After the region the layer's output array holds agg · W_rel + b + x · W_root + x, element by element, of
    the arrays the region was entered with. -/
theorem arrAt_out4 (c : Dev nD) :
    (dat4 (F := Ideal) V c).arrAt 6 cfg4.N
      = layerRes (V c main_v55) (V c main_v51) (V c main_v57) (V c main_v61) (fun j => V c main_v62 (ix2 0 j)) (V c main_v51) :=
  (dat4 (F := Ideal) V c).arrAt_eq_of_cover 6 (G4 V c) (fun t _ => flushed_eq4 V c t) cover_out4

end Cert.KernelIdeal.Val

end
-- ==== Proof.Val.Range.lean ====
/-
  The take's range test always holds under the certificate's precondition.
  A source id s of an edge is a signed 32-bit word. NumPy's index rule for a table of 100000 rows accepts
  -100000 ≤ s < 100000 and reads row s + 100000 for a negative s, row s otherwise. For such an s the wrapped id w
  satisfies 0 ≤ w ≤ 99999, so the per-edge test "w is a row of the table" is 1 at every edge, and the take that
  fills the rows failing the test is the take at the wrapped ids with no test. The precondition states the
  accepted range for every source id of the edge list.
-/
import proofs.«420102_j84559316123938_1_alg».proof.Proof.KI.HostDefs
import proofs.«420102_j84559316123938_1_alg».proof.Proof.Gen.Pre_finite_inputs
import Idealize.ShloMosaic.Lib.StableHlo.Predicate
import Idealize.ShloMosaic.Lib.ReduceAll
import Idealize.ShloMosaic.Lib.ValueIdx

noncomputable section

namespace Cert.KernelIdeal.Hand

open Cert.KernelIdeal Cert.KernelIdeal.Gen
open Idealize.ShloMosaic Idealize.ShloMosaic.ValueIdx

variable {F : FTy → Type} [FloatOps F]

/-! ## One word -/

/-- One source id wrapped as NumPy wraps a negative index of a 100000-row table. -/
def wrapWord (s : BitVec 32) : BitVec 32 :=
  Scalar.select (IntOp.cmpi .slt s 0#32) (IntOp.addi s 100000#32) s

/-- An id in [-100000, 100000) wraps into [0, 99999]: a negative one moves up by 100000 without leaving the
    signed range, a non-negative one stays. -/
theorem wrapWord_range (s : BitVec 32) (h1 : (-100000 : Int) ≤ s.toInt) (h2 : s.toInt < 100000) :
    0 ≤ (wrapWord s).toInt ∧ (wrapWord s).toInt ≤ 99999 := by
  have h0 : (0#32 : BitVec 32).toInt = 0 := by decide
  have hc : (100000#32 : BitVec 32).toInt = 100000 := by decide
  unfold wrapWord
  by_cases hneg : s.toInt < 0
  · have hb : IntOp.cmpi .slt s 0#32 = 1#1 := IntOp.cmpi_slt.mpr (by rw [h0]; exact hneg)
    rw [hb, select_one]
    have ha : (IntOp.addi s 100000#32).toInt = s.toInt + 100000 := by
      show (s + 100000#32).toInt = _
      rw [BitVec.toInt_add, hc, Int.bmod_def]
      split <;> omega
    rw [ha]; omega
  · have hb : ¬ IntOp.cmpi .slt s 0#32 = 1#1 := fun hh => hneg (by have := IntOp.cmpi_slt.mp hh; rwa [h0] at this)
    rw [eq_zero_of_ne_one hb, select_zero]
    omega

/-! ## The arrays at an index -/

/-- Every source id is a valid index of a 100000-row table in NumPy's sense. -/
def InRange (s : IVec S600000 32) : Prop := ∀ e : S600000.Idx, (-100000 : Int) ≤ (s e).toInt ∧ (s e).toInt < 100000

/-- The wrapped ids, edge by edge. -/
theorem wrapOf_apply (s : IVec S600000 32) (e : S600000.Idx) : wrapOf s e = wrapWord (s e) := rfl

theorem wrapOf_range (s : IVec S600000 32) (h : InRange s) (e : S600000.Idx) :
    0 ≤ (wrapOf s e).toInt ∧ (wrapOf s e).toInt ≤ 99999 := by
  rw [wrapOf_apply]; exact wrapWord_range (s e) (h e).1 (h e).2

/-- The column of start indices holds wrapped ids only. -/
theorem idxOf_range (s : IVec S600000 32) (h : InRange s) (i : S600000x1.Idx) :
    0 ≤ (idxOf s i).toInt ∧ (idxOf s i).toInt ≤ 99999 :=
  wrapOf_range s h _

/-- A reduce by AND from 1 over an array of ones is 1. -/
theorem reduce_andi_of_all {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, x i = 1#1) : Host.reduce IntOp.andi x init hr hu j = 1#1 := by
  rw [Host.reduce_eq_foldl, hinit]
  generalize (((List.finRange s.numel).map s.rowMajor.symm).filter fun i => hr.drop i = j) = l
  induction l with
  | nil => rfl
  | cons a l ih =>
    rw [List.foldl_cons, hx a]
    exact ih

theorem maskOf_eq_one (s : IVec S600000 32) (h : InRange s) (e : S600000.Idx) : maskOf s e = 1#1 := by
  unfold maskOf
  refine reduce_andi_of_all _ _ _ _ e rfl (fun i => ?_)
  show IntOp.andi (IntOp.cmpi .sge (idxOf s i) 0#32) (IntOp.cmpi .sle (idxOf s i) 99999#32) = 1#1
  have h0 : (0#32 : BitVec 32).toInt = 0 := by decide
  have h9 : (99999#32 : BitVec 32).toInt = 99999 := by decide
  obtain ⟨hl, hu⟩ := idxOf_range s h i
  exact IntOp.andi_eq_one.mpr ⟨IntOp.cmpi_sge.mpr (by rw [h0]; exact hl), IntOp.cmpi_sle.mpr (by rw [h9]; exact hu)⟩

theorem takeOf_eq_gatherOf (X : FVec F S100000x128 .f32) (s : IVec S600000 32) (h : InRange s) : takeOf X s = gatherOf X s := by
  funext i
  unfold takeOf
  rw [select_apply]
  have hm : broadcastInDim S600000x128 ![0] bcast_S600000_S600000x128_0 (maskOf s) i = 1#1 := maskOf_eq_one s h _
  rw [hm, select_one]

/-! ## The precondition -/

theorem inRange_of_pre (a0 : FVec F S100000x128 .f32) (a1 : IVec S2x600000 32) (a2 : FVec F S5x128x128 .f32) (a3 : FVec F S5x128 .f32) (a4 : FVec F S5x128x128 .f32)
    (h : Cert.Pre_finite_inputs.fn (F := F) a0 a1 a2 a3 a4 = fun _ => 1#1) : InRange (srcOf a1) := by
  intro e
  -- the rank-0 shape has one index
  haveI : Subsingleton Cert.Pre_finite_inputs.S_.Idx := ⟨fun a b => funext fun d => d.elim0⟩
  have e0 := congrFun h ix0
  dsimp only [Cert.Pre_finite_inputs.fn, Cert.Pre_finite_inputs.fn_part1] at e0
  have e1 := (IntOp.andi_eq_one.1 e0).2
  have e2 := Host.reduce_andi_all _ _ _ _ _ e1 e
  obtain ⟨hge, hlt⟩ := IntOp.andi_eq_one.1 e2
  have hlo : (4294867296#32 : BitVec 32).toInt = -100000 := by decide
  have hhi : (100000#32 : BitVec 32).toInt = 100000 := by decide
  have hge' := IntOp.cmpi_sge.1 hge
  have hlt' := IntOp.cmpi_slt.1 hlt
  exact ⟨by rw [← hlo]; exact hge', by rw [← hhi]; exact hlt'⟩

end Cert.KernelIdeal.Hand

end
-- ==== Proof.Val.Ref.lean ====
/-
  The reference program's result as the five-layer chain of the specification.
  Each layer of the reference is: gather the layer's input along the edges' sources, scatter-add the gathered rows
  from zeros at the edges' destinations (the aggregation), then  agg · W_rel[l] + b_rel[l] + x · W_root[l],
  followed by max(·, 0) (layers 1 to 4) and the addition of the layer's input (layers 2 to 5).
  Read at an element (p, j), the two products are sums over the 128 features, the bias is b(j), and the zero literal
  is the real 0: that is the specification's element, in the same order of the three summands.
-/
import proofs.«420102_j84559316123938_1_alg».proof.Proof.Gen.ReferenceIdeal.Run
import proofs.«420102_j84559316123938_1_alg».proof.Proof.Gen.ReferenceIdeal.Read
import proofs.«420102_j84559316123938_1_alg».proof.Proof.Val.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.ReferenceIdeal.Hand

open Cert.ReferenceIdeal Cert.ReferenceIdeal.Gen Idealize.ShloMosaic Idealize.ShloMosaic.TcCoe Idealize.SL.Sem Idealize.ShloMosaic.StableHlo Idealize.ShloMosaic.ValueIdx

/-! ## The reference's host functions -/

/-- The edges' source ids: row 0 of the edge list. -/
def rsrcOf (A1 : IVec S2x600000 32) : IVec S600000 32 :=
  shapeCast _ (extractStridedSlice S1x600000 ![0, 0] A1 slices_S2x600000_S1x600000_0_0) shapeCasts_S1x600000_S600000
/-- The edges' destination ids: row 1 of the edge list. -/
def rdstOf (A1 : IVec S2x600000 32) : IVec S600000 32 :=
  shapeCast _ (extractStridedSlice S1x600000 ![1, 0] A1 slices_S2x600000_S1x600000_1_0) shapeCasts_S1x600000_S600000

/-- The rows of X at the edges' sources (a negative id wrapped by the number of nodes). -/
def rgatherOf (X : FVec Ideal S100000x128 .f32) (s : IVec S600000 32) : FVec Ideal S600000x128 .f32 :=
  Host.gather gather_S100000x128_S600000x1_S600000x128_1_0_n_n_0_1_1128 X
    (broadcastInDim S600000x1 ![0] bcast_S600000_S600000x1_0
      (select (cmpi .slt s (broadcastInDim S600000 ![] bcast_S_S600000 (constantI S_ 32 0#32)))
        (addi s (broadcastInDim S600000 ![] bcast_S_S600000 (constantI S_ 32 100000#32))) s))
/-- The per-edge rows U added, from zeros, into the rows the edges' destinations name. -/
def rscatterOf (U : FVec Ideal S600000x128 .f32) (d : IVec S600000 32) : FVec Ideal S100000x128 .f32 :=
  Host.scatterAdd scatter_S100000x128_S600000x1_S600000x128_1_0_0_1
    (broadcastInDim S100000x128 ![] bcast_S_S100000x128 (constant S_ .f32 0x00000000#32))
    (broadcastInDim S600000x1 ![0] bcast_S600000_S600000x1_0 d) U
/-- The aggregation: the sum, per node, of X's rows over the edges into the node. -/
def raggOf (X : FVec Ideal S100000x128 .f32) (s d : IVec S600000 32) : FVec Ideal S100000x128 .f32 :=
  rscatterOf (rgatherOf X s) d

/-- Slice l of a stack of five [128,128] matrices. -/
def rmat (W : FVec Ideal S5x128x128 .f32) : Fin 5 → FVec Ideal S128x128 .f32
  | ⟨0, _⟩ => shapeCast _ (extractStridedSlice S1x128x128 ![0, 0, 0] W slices_S5x128x128_S1x128x128_0_0_0) shapeCasts_S1x128x128_S128x128
  | ⟨1, _⟩ => shapeCast _ (extractStridedSlice S1x128x128 ![1, 0, 0] W slices_S5x128x128_S1x128x128_1_0_0) shapeCasts_S1x128x128_S128x128
  | ⟨2, _⟩ => shapeCast _ (extractStridedSlice S1x128x128 ![2, 0, 0] W slices_S5x128x128_S1x128x128_2_0_0) shapeCasts_S1x128x128_S128x128
  | ⟨3, _⟩ => shapeCast _ (extractStridedSlice S1x128x128 ![3, 0, 0] W slices_S5x128x128_S1x128x128_3_0_0) shapeCasts_S1x128x128_S128x128
  | ⟨4, _⟩ => shapeCast _ (extractStridedSlice S1x128x128 ![4, 0, 0] W slices_S5x128x128_S1x128x128_4_0_0) shapeCasts_S1x128x128_S128x128
/-- Row l of the five bias rows, as a vector of 128 features. -/
def rbv (B : FVec Ideal S5x128 .f32) : Fin 5 → FVec Ideal S128 .f32
  | ⟨0, _⟩ => shapeCast _ (extractStridedSlice S1x128 ![0, 0] B slices_S5x128_S1x128_0_0) shapeCasts_S1x128_S128
  | ⟨1, _⟩ => shapeCast _ (extractStridedSlice S1x128 ![1, 0] B slices_S5x128_S1x128_1_0) shapeCasts_S1x128_S128
  | ⟨2, _⟩ => shapeCast _ (extractStridedSlice S1x128 ![2, 0] B slices_S5x128_S1x128_2_0) shapeCasts_S1x128_S128
  | ⟨3, _⟩ => shapeCast _ (extractStridedSlice S1x128 ![3, 0] B slices_S5x128_S1x128_3_0) shapeCasts_S1x128_S128
  | ⟨4, _⟩ => shapeCast _ (extractStridedSlice S1x128 ![4, 0] B slices_S5x128_S1x128_4_0) shapeCasts_S1x128_S128

/-- W_rel[l] as a [128,128] array. -/
def rWr (W : FVec Ideal S5x128x128 .f32) (l : Fin 5) : Cert.Spec.Arr 128 := rmat W l
/-- W_root[l] as a [128,128] array. -/
def rWroot (W : FVec Ideal S5x128x128 .f32) (l : Fin 5) : Cert.Spec.Arr 128 := rmat W l
/-- b_rel[l] at feature j. -/
def rb (B : FVec Ideal S5x128 .f32) (l : Fin 5) (j : Fin 128) : EReal := rbv B l (ix1 j)

/-! ## One operation at an element -/

/-- The [100000,128] × [128,128] product at (p, j): the sum over the 128 features k of A(p, k) · W(k, j). -/
theorem dot_read (A : FVec Ideal S100000x128 .f32) (W : FVec Ideal S128x128 .f32) (i : S100000x128.Idx) :
    Host.dotGeneral dot_S100000x128_S128x128_S100000x128_1_0_0_1_n_n none A W i = ∑ k : Fin 128, A (ix2 (i 0) k) * W (ix2 k (i 1)) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k := funext fun a => Fin.ext (by
    match a with
    | ⟨0, _⟩ => exact Read.lhs_main_v20_0 _ _
    | ⟨1, _⟩ => exact (Read.lhs_main_v20_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) := funext fun a => Fin.ext (by
    match a with
    | ⟨0, _⟩ => exact (Read.rhs_main_v20_0 _ _).trans hk
    | ⟨1, _⟩ => exact Read.rhs_main_v20_1 _ _)
  rw [el, er]
  rfl

/-- The bias vector broadcast along the nodes, at (p, j): the vector at j. -/
theorem bias_read (bv : FVec Ideal S128 .f32) (i : S100000x128.Idx) :
    (broadcastInDim S100000x128 ![0, 1] bcast_S1x128_S100000x128_0_1 (broadcastInDim S1x128 ![1] bcast_S128_S1x128_1 bv)) i = bv (ix1 (i 1)) :=
  (broadcastInDim_apply _ bcast_S1x128_S100000x128_0_1 _ i (Read.idx_main_v22 i) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])).trans
  (broadcastInDim_apply _ bcast_S128_S1x128_1 bv (Read.idx_main_v22 i) (ix1 (i 1)) (fun a => match a with
    | ⟨0, _⟩ => by show (i 1).val = if (128 : Nat) = 1 then 0 else (i 1).val; rw [if_neg (by decide)]))

/-- The broadcast zero literal is the real 0 at every element. -/
theorem zero_read (i : S100000x128.Idx) :
    ((broadcastInDim S100000x128 ![] bcast_S_S100000x128 (constant S_ .f32 0x00000000#32)) : FVec Ideal S100000x128 .f32) i = 0 :=
  (broadcastInDim_apply _ bcast_S_S100000x128 (constant (F := Ideal) S_ .f32 0x00000000#32) i ix0 (fun a => a.elim0)).trans Ideal.ofBits_zero_f32

/-! ## One layer -/

variable (agg X : FVec Ideal S100000x128 .f32) (Wr Wroot : FVec Ideal S128x128 .f32) (bv : FVec Ideal S128 .f32)

/-- The dense stage at an element. -/
theorem dense_read (i : S100000x128.Idx) :
    (addf (addf (Host.dotGeneral dot_S100000x128_S128x128_S100000x128_1_0_0_1_n_n none agg Wr) (broadcastInDim S100000x128 ![0, 1] bcast_S1x128_S100000x128_0_1 (broadcastInDim S1x128 ![1] bcast_S128_S1x128_1 bv))) (Host.dotGeneral dot_S100000x128_S128x128_S100000x128_1_0_0_1_n_n none X Wroot)) i
      = Cert.Spec.denseAt (Cert.Spec.rowOf agg (i 0)) (Cert.Spec.rowOf X (i 0)) (Cert.Spec.matAt Wr) (Cert.Spec.matAt Wroot) (fun j => bv (ix1 j)) (i 1) := by
  rw [addf_apply, addf_apply, dot_read, dot_read, bias_read]
  rfl

/-- The first layer: relu of the dense stage. -/
theorem layerRelu_eq :
    maximumf (addf (addf (Host.dotGeneral dot_S100000x128_S128x128_S100000x128_1_0_0_1_n_n none agg Wr) (broadcastInDim S100000x128 ![0, 1] bcast_S1x128_S100000x128_0_1 (broadcastInDim S1x128 ![1] bcast_S128_S1x128_1 bv))) (Host.dotGeneral dot_S100000x128_S128x128_S100000x128_1_0_0_1_n_n none X Wroot)) (broadcastInDim S100000x128 ![] bcast_S_S100000x128 (constant S_ .f32 0x00000000#32))
      = Cert.Spec.layerRelu agg X Wr Wroot (fun j => bv (ix1 j)) := by
  funext i
  rw [maximumf_apply, dense_read, zero_read]
  rfl

/-- A middle layer: relu of the dense stage, plus the array R. -/
theorem layerReluRes_eq (R : FVec Ideal S100000x128 .f32) :
    addf (maximumf (addf (addf (Host.dotGeneral dot_S100000x128_S128x128_S100000x128_1_0_0_1_n_n none agg Wr) (broadcastInDim S100000x128 ![0, 1] bcast_S1x128_S100000x128_0_1 (broadcastInDim S1x128 ![1] bcast_S128_S1x128_1 bv))) (Host.dotGeneral dot_S100000x128_S128x128_S100000x128_1_0_0_1_n_n none X Wroot)) (broadcastInDim S100000x128 ![] bcast_S_S100000x128 (constant S_ .f32 0x00000000#32))) R
      = Cert.Spec.layerReluRes agg X Wr Wroot (fun j => bv (ix1 j)) R := by
  funext i
  rw [addf_apply, maximumf_apply, dense_read, zero_read]
  rfl

/-- The last layer: the dense stage plus the array R. -/
theorem layerRes_eq (R : FVec Ideal S100000x128 .f32) :
    addf (addf (addf (Host.dotGeneral dot_S100000x128_S128x128_S100000x128_1_0_0_1_n_n none agg Wr) (broadcastInDim S100000x128 ![0, 1] bcast_S1x128_S100000x128_0_1 (broadcastInDim S1x128 ![1] bcast_S128_S1x128_1 bv))) (Host.dotGeneral dot_S100000x128_S128x128_S100000x128_1_0_0_1_n_n none X Wroot)) R
      = Cert.Spec.layerRes agg X Wr Wroot (fun j => bv (ix1 j)) R := by
  funext i
  rw [addf_apply, dense_read]
  rfl

/-! ## The five layers of the reference -/

section Layers
variable (x0 : FVec Ideal S100000x128 .f32) (x1 : IVec S2x600000 32) (x2 : FVec Ideal S5x128x128 .f32) (x3 : FVec Ideal S5x128 .f32) (x4 : FVec Ideal S5x128x128 .f32)

theorem val_v26 :
    Read.val_main_v26 (F := Ideal) x0 x1 x2 x3 x4
      = Cert.Spec.layerRelu (raggOf x0 (rsrcOf x1) (rdstOf x1)) x0 (rWr x2 0) (rWroot x4 0) (rb x3 0) :=
  layerRelu_eq (raggOf x0 (rsrcOf x1) (rdstOf x1)) x0 (rmat x2 0) (rmat x4 0) (rbv x3 0)

theorem val_v50 :
    Read.val_main_v50 (F := Ideal) x0 x1 x2 x3 x4
      = Cert.Spec.layerReluRes (raggOf (Read.val_main_v26 (F := Ideal) x0 x1 x2 x3 x4) (rsrcOf x1) (rdstOf x1)) (Read.val_main_v26 (F := Ideal) x0 x1 x2 x3 x4)
          (rWr x2 1) (rWroot x4 1) (rb x3 1) (Read.val_main_v26 (F := Ideal) x0 x1 x2 x3 x4) :=
  layerReluRes_eq (raggOf (Read.val_main_v26 (F := Ideal) x0 x1 x2 x3 x4) (rsrcOf x1) (rdstOf x1)) (Read.val_main_v26 (F := Ideal) x0 x1 x2 x3 x4) (rmat x2 1) (rmat x4 1) (rbv x3 1) (Read.val_main_v26 (F := Ideal) x0 x1 x2 x3 x4)

theorem val_v74 :
    Read.val_main_v74 (F := Ideal) x0 x1 x2 x3 x4
      = Cert.Spec.layerReluRes (raggOf (Read.val_main_v50 (F := Ideal) x0 x1 x2 x3 x4) (rsrcOf x1) (rdstOf x1)) (Read.val_main_v50 (F := Ideal) x0 x1 x2 x3 x4)
          (rWr x2 2) (rWroot x4 2) (rb x3 2) (Read.val_main_v50 (F := Ideal) x0 x1 x2 x3 x4) :=
  layerReluRes_eq (raggOf (Read.val_main_v50 (F := Ideal) x0 x1 x2 x3 x4) (rsrcOf x1) (rdstOf x1)) (Read.val_main_v50 (F := Ideal) x0 x1 x2 x3 x4) (rmat x2 2) (rmat x4 2) (rbv x3 2) (Read.val_main_v50 (F := Ideal) x0 x1 x2 x3 x4)

theorem val_v98 :
    Read.val_main_v98 (F := Ideal) x0 x1 x2 x3 x4
      = Cert.Spec.layerReluRes (raggOf (Read.val_main_v74 (F := Ideal) x0 x1 x2 x3 x4) (rsrcOf x1) (rdstOf x1)) (Read.val_main_v74 (F := Ideal) x0 x1 x2 x3 x4)
          (rWr x2 3) (rWroot x4 3) (rb x3 3) (Read.val_main_v74 (F := Ideal) x0 x1 x2 x3 x4) :=
  layerReluRes_eq (raggOf (Read.val_main_v74 (F := Ideal) x0 x1 x2 x3 x4) (rsrcOf x1) (rdstOf x1)) (Read.val_main_v74 (F := Ideal) x0 x1 x2 x3 x4) (rmat x2 3) (rmat x4 3) (rbv x3 3) (Read.val_main_v74 (F := Ideal) x0 x1 x2 x3 x4)

theorem val_v121 :
    Read.val_main_v121 (F := Ideal) x0 x1 x2 x3 x4
      = Cert.Spec.layerRes (raggOf (Read.val_main_v98 (F := Ideal) x0 x1 x2 x3 x4) (rsrcOf x1) (rdstOf x1)) (Read.val_main_v98 (F := Ideal) x0 x1 x2 x3 x4)
          (rWr x2 4) (rWroot x4 4) (rb x3 4) (Read.val_main_v98 (F := Ideal) x0 x1 x2 x3 x4) :=
  layerRes_eq (raggOf (Read.val_main_v98 (F := Ideal) x0 x1 x2 x3 x4) (rsrcOf x1) (rdstOf x1)) (Read.val_main_v98 (F := Ideal) x0 x1 x2 x3 x4) (rmat x2 4) (rmat x4 4) (rbv x3 4) (Read.val_main_v98 (F := Ideal) x0 x1 x2 x3 x4)

/-- The reference's result, as a function of its five arguments, is the chain. -/
theorem val_chain :
    Read.val_main_v121 (F := Ideal) x0 x1 x2 x3 x4
      = Cert.Spec.chain (fun X => raggOf X (rsrcOf x1) (rdstOf x1)) (rWr x2) (rWroot x4) (rb x3) x0 := by
  rw [val_v121, val_v98, val_v74, val_v50, val_v26]
  rfl

end Layers

/-- The reference program's result buffer holds the five-layer chain of its arguments. -/
theorem ref_value (m : (ℓ : Loc nD τ sig) → Buf (Elt Ideal) ℓ) (c : Dev nD) :
    Cert.ReferenceIdeal.Value.res_main_v121 (F := Ideal) m c
      = Cert.Spec.chain
          (fun X => raggOf X (rsrcOf (m ((c.tc : Thread nD τ).loc main_arg1))) (rdstOf (m ((c.tc : Thread nD τ).loc main_arg1))))
          (rWr (m ((c.tc : Thread nD τ).loc main_arg2))) (rWroot (m ((c.tc : Thread nD τ).loc main_arg4)))
          (rb (m ((c.tc : Thread nD τ).loc main_arg3))) (m ((c.tc : Thread nD τ).loc main_arg0)) :=
  (Read.val_main_v121_eq m c).trans (val_chain _ _ _ _ _)

end Cert.ReferenceIdeal.Hand

end
-- ==== Proof.Val.Bridge.lean ====
/-
  The kernel program's host functions are the reference's.
  Both programs cut the edge list into its source and destination rows, wrap a negative source id by the number of
  nodes, gather the layer's input at the wrapped ids, scatter-add the gathered rows from zeros at the destinations,
  and cut the stacked weights and bias rows by layer, with the same shapes and the same dimension numbers; the two
  printed programs name these shapes and dimension records separately, with equal contents. The kernel program's
  take also tests the wrapped id against the table's rows and fills a failing row; under the range condition on the
  source ids the test holds at every edge and the take is the plain gather. The kernel program reads a bias row as a
  [1, 128] array at (0, j), the reference as a vector at j: the reshape [128] → [1, 128] read at (0, j) is the
  vector at j.
-/
import proofs.«420102_j84559316123938_1_alg».proof.Proof.KI.HostDefs
import proofs.«420102_j84559316123938_1_alg».proof.Proof.Val.Range
import proofs.«420102_j84559316123938_1_alg».proof.Proof.Val.Ref
import proofs.«420102_j84559316123938_1_alg».proof.Proof.Val.Spec
import Idealize.ShloMosaic.Lib.Pipeline.Value
import Idealize.ShloMosaic.Lib.ValueIdx
import Idealize.ShloMosaic.Lib.ValueLayout

noncomputable section

namespace Cert.Bridge

open Idealize.ShloMosaic Idealize.ShloMosaic.ValueIdx

/-! ## The kernel side's per-layer weights and bias -/

/-- Slice l of a stack of five [128, 128] matrices, as the kernel program cuts it. -/
def kmat (A : FVec Ideal Cert.KernelIdeal.S5x128x128 .f32) : Fin 5 → Cert.Spec.Arr 128
  | ⟨0, _⟩ => Cert.KernelIdeal.Hand.matOf 0 Cert.KernelIdeal.Gen.slices_S5x128x128_S1x128x128_0_0_0 A
  | ⟨1, _⟩ => Cert.KernelIdeal.Hand.matOf 1 Cert.KernelIdeal.Gen.slices_S5x128x128_S1x128x128_1_0_0 A
  | ⟨2, _⟩ => Cert.KernelIdeal.Hand.matOf 2 Cert.KernelIdeal.Gen.slices_S5x128x128_S1x128x128_2_0_0 A
  | ⟨3, _⟩ => Cert.KernelIdeal.Hand.matOf 3 Cert.KernelIdeal.Gen.slices_S5x128x128_S1x128x128_3_0_0 A
  | ⟨4, _⟩ => Cert.KernelIdeal.Hand.matOf 4 Cert.KernelIdeal.Gen.slices_S5x128x128_S1x128x128_4_0_0 A
/-- Bias row l at feature j, read from the [1, 128] row the kernel program forms. -/
def kbias (A : FVec Ideal Cert.KernelIdeal.S5x128 .f32) : Fin 5 → Fin 128 → EReal
  | ⟨0, _⟩ => fun j => Cert.KernelIdeal.Hand.biasRowOf 0 Cert.KernelIdeal.Gen.slices_S5x128_S1x128_0_0 A (ix2 0 j)
  | ⟨1, _⟩ => fun j => Cert.KernelIdeal.Hand.biasRowOf 1 Cert.KernelIdeal.Gen.slices_S5x128_S1x128_1_0 A (ix2 0 j)
  | ⟨2, _⟩ => fun j => Cert.KernelIdeal.Hand.biasRowOf 2 Cert.KernelIdeal.Gen.slices_S5x128_S1x128_2_0 A (ix2 0 j)
  | ⟨3, _⟩ => fun j => Cert.KernelIdeal.Hand.biasRowOf 3 Cert.KernelIdeal.Gen.slices_S5x128_S1x128_3_0 A (ix2 0 j)
  | ⟨4, _⟩ => fun j => Cert.KernelIdeal.Hand.biasRowOf 4 Cert.KernelIdeal.Gen.slices_S5x128_S1x128_4_0 A (ix2 0 j)

/-! ## The edge list, the gather and the scatter-add -/

theorem src_eq (A1 : IVec Cert.KernelIdeal.S2x600000 32) : Cert.KernelIdeal.Hand.srcOf A1 = Cert.ReferenceIdeal.Hand.rsrcOf A1 := rfl
theorem dst_eq (A1 : IVec Cert.KernelIdeal.S2x600000 32) : Cert.KernelIdeal.Hand.dstOf A1 = Cert.ReferenceIdeal.Hand.rdstOf A1 := rfl

theorem gather_eq (X : Cert.Spec.Arr 100000) (s : IVec Cert.KernelIdeal.S600000 32) :
    Cert.KernelIdeal.Hand.gatherOf (F := Ideal) X s = Cert.ReferenceIdeal.Hand.rgatherOf X s := rfl

theorem scatter_eq (U : FVec Ideal Cert.KernelIdeal.S600000x128 .f32) (d : IVec Cert.KernelIdeal.S600000 32) :
    Cert.KernelIdeal.Hand.scatterOf (F := Ideal) U d = Cert.ReferenceIdeal.Hand.rscatterOf U d := rfl

/-- The aggregation of the kernel program, under the range condition on the source ids, is the reference's. -/
theorem agg_eq (X : Cert.Spec.Arr 100000) (A1 : IVec Cert.KernelIdeal.S2x600000 32) (h : Cert.KernelIdeal.Hand.InRange (Cert.KernelIdeal.Hand.srcOf A1)) :
    Cert.KernelIdeal.Hand.aggOf (F := Ideal) X (Cert.KernelIdeal.Hand.srcOf A1) (Cert.KernelIdeal.Hand.dstOf A1)
      = Cert.ReferenceIdeal.Hand.raggOf X (Cert.ReferenceIdeal.Hand.rsrcOf A1) (Cert.ReferenceIdeal.Hand.rdstOf A1) := by
  unfold Cert.KernelIdeal.Hand.aggOf Cert.ReferenceIdeal.Hand.raggOf
  rw [Cert.KernelIdeal.Hand.takeOf_eq_gatherOf (F := Ideal) X _ h, scatter_eq, gather_eq, src_eq, dst_eq]

/-! ## The weights and the bias -/

theorem kmat_eq (A : FVec Ideal Cert.KernelIdeal.S5x128x128 .f32) : kmat A = Cert.ReferenceIdeal.Hand.rWr A := by
  funext l
  match l with
  | ⟨0, _⟩ => rfl
  | ⟨1, _⟩ => rfl
  | ⟨2, _⟩ => rfl
  | ⟨3, _⟩ => rfl
  | ⟨4, _⟩ => rfl

theorem kmat_eq' (A : FVec Ideal Cert.KernelIdeal.S5x128x128 .f32) : kmat A = Cert.ReferenceIdeal.Hand.rWroot A := kmat_eq A

/-- A [1, 128] row formed from a vector reads, at (0, j), the vector at j. -/
theorem biasRow_read (l : Nat) (h : Cert.KernelIdeal.S5x128.Slices ![l, 0] Cert.KernelIdeal.S1x128) (A : FVec Ideal Cert.KernelIdeal.S5x128 .f32) (j : Fin 128) :
    Cert.KernelIdeal.Hand.biasRowOf l h A (ix2 0 j) = Cert.KernelIdeal.Hand.biasOf l h A (ix1 j) :=
  shapeCast_a_1a_apply (Cert.KernelIdeal.Hand.biasOf l h A) _ 0 j

theorem kbias_eq (A : FVec Ideal Cert.KernelIdeal.S5x128 .f32) : kbias A = Cert.ReferenceIdeal.Hand.rb A := by
  funext l j
  match l with
  | ⟨0, _⟩ => exact biasRow_read 0 _ A j
  | ⟨1, _⟩ => exact biasRow_read 1 _ A j
  | ⟨2, _⟩ => exact biasRow_read 2 _ A j
  | ⟨3, _⟩ => exact biasRow_read 3 _ A j
  | ⟨4, _⟩ => exact biasRow_read 4 _ A j

end Cert.Bridge

end
-- ==== Proof.Val.Kernel.lean ====
/-
  The idealized kernel program's result is the five-layer chain.
  Each kernel region leaves in its output array the layer's formula evaluated at the contents the region is entered
  from: the aggregated messages, the layer's input, the layer's slices of the stacked weights and its bias row.
  Those contents are, by the host side of the program, the aggregation of the previous region's output along the
  edges, that output itself, and the slices of the launch arguments. Reading the five outputs in order gives
  X₁ = relu(dense₀(agg X₀, X₀)), X_{l+1} = relu(dense_l(agg X_l, X_l)) + X_l for l = 1, 2, 3, and the result
  dense₄(agg X₄, X₄) + X₄, with X₀ the first launch argument.
-/
import proofs.«420102_j84559316123938_1_alg».proof.Proof.KI.Outs
import proofs.«420102_j84559316123938_1_alg».proof.Proof.KI.Glue
import proofs.«420102_j84559316123938_1_alg».proof.Proof.Val.RegVal0
import proofs.«420102_j84559316123938_1_alg».proof.Proof.Val.RegVal1
import proofs.«420102_j84559316123938_1_alg».proof.Proof.Val.RegVal2
import proofs.«420102_j84559316123938_1_alg».proof.Proof.Val.RegVal3
import proofs.«420102_j84559316123938_1_alg».proof.Proof.Val.RegVal4
import proofs.«420102_j84559316123938_1_alg».proof.Proof.Val.Bridge
import proofs.«420102_j84559316123938_1_alg».proof.Proof.Val.Spec

set_option maxRecDepth 16384

noncomputable section

namespace Cert.KernelIdeal.Val

open Cert.KernelIdeal Cert.KernelIdeal.Gen Cert.KernelIdeal.Hand Cert.Spec Cert.Bridge
open Idealize.ShloMosaic Idealize.ShloMosaic.TcCoe Idealize.ShloMosaic.ValueIdx

variable (m : (ℓ : Loc nD τ sig) → Buf (Elt Ideal) ℓ) (c : Dev nD)

/-! ## The launch arguments and the aggregation along the edges -/

/-- The node features at launch. -/
abbrev kA0 : Arr 100000 := m ((c : Thread nD τ).loc main_arg0)
/-- The edge list. -/
abbrev kA1 : IVec S2x600000 32 := m ((c : Thread nD τ).loc main_arg1)
/-- The stacked W_rel matrices. -/
abbrev kA2 : FVec Ideal S5x128x128 .f32 := m ((c : Thread nD τ).loc main_arg2)
/-- The stacked bias rows. -/
abbrev kA3 : FVec Ideal S5x128 .f32 := m ((c : Thread nD τ).loc main_arg3)
/-- The stacked W_root matrices. -/
abbrev kA4 : FVec Ideal S5x128x128 .f32 := m ((c : Thread nD τ).loc main_arg4)
/-- A layer's input aggregated along the edges: the take at the wrapped source ids, scatter-added at the destinations. -/
abbrev aggK (X : Arr 100000) : Arr 100000 := aggOf (F := Ideal) X (srcOf (kA1 m c)) (dstOf (kA1 m c))

/-- The five regions' outputs, as arrays. -/
abbrev kX1 : Arr 100000 := outsOf m 4 main_v15 c
abbrev kX2 : Arr 100000 := outsOf m 7 main_v27 c
abbrev kX3 : Arr 100000 := outsOf m 10 main_v39 c
abbrev kX4 : Arr 100000 := outsOf m 13 main_v51 c
abbrev kX5 : Arr 100000 := outsOf m 16 main_v63 c

/-! ## One layer at a time -/

/-- Region 0: relu of the dense stage at the launch features. -/
theorem out0_val : kX1 m c = layerRelu (aggK m c (kA0 m c)) (kA0 m c) (kmat (kA2 m c) 0) (kmat (kA4 m c) 0) (kbias (kA3 m c) 0) := by
  refine ((outsOk m).h4 c).trans ?_
  rw [arrAt_out0 (E0 m) c, E0_agg m c, E0_x m c, E0_Wr m c, E0_Wroot m c, E0_b m c]
  rfl

/-- Region 1: relu of the dense stage at region 0's output, plus that output. -/
theorem out1_val : kX2 m c = layerReluRes (aggK m c (kX1 m c)) (kX1 m c) (kmat (kA2 m c) 1) (kmat (kA4 m c) 1) (kbias (kA3 m c) 1) (kX1 m c) := by
  refine ((outsOk m).h7 c).trans ?_
  rw [arrAt_out1 (E1 m (outsOf m)) c, E1_agg m (outsOf m) c, E1_x m (outsOf m) c, E1_Wr m (outsOf m) c, E1_Wroot m (outsOf m) c,
    E1_b m (outsOf m) c]
  rfl

/-- Region 2. -/
theorem out2_val : kX3 m c = layerReluRes (aggK m c (kX2 m c)) (kX2 m c) (kmat (kA2 m c) 2) (kmat (kA4 m c) 2) (kbias (kA3 m c) 2) (kX2 m c) := by
  refine ((outsOk m).h10 c).trans ?_
  rw [arrAt_out2 (E2 m (outsOf m)) c, E2_agg m (outsOf m) c, E2_x m (outsOf m) c, E2_Wr m (outsOf m) c, E2_Wroot m (outsOf m) c,
    E2_b m (outsOf m) c]
  rfl

/-- Region 3. -/
theorem out3_val : kX4 m c = layerReluRes (aggK m c (kX3 m c)) (kX3 m c) (kmat (kA2 m c) 3) (kmat (kA4 m c) 3) (kbias (kA3 m c) 3) (kX3 m c) := by
  refine ((outsOk m).h13 c).trans ?_
  rw [arrAt_out3 (E3 m (outsOf m)) c, E3_agg m (outsOf m) c, E3_x m (outsOf m) c, E3_Wr m (outsOf m) c, E3_Wroot m (outsOf m) c,
    E3_b m (outsOf m) c]
  rfl

/-- Region 4: the dense stage at region 3's output, plus that output; no relu. -/
theorem out4_val : kX5 m c = layerRes (aggK m c (kX4 m c)) (kX4 m c) (kmat (kA2 m c) 4) (kmat (kA4 m c) 4) (kbias (kA3 m c) 4) (kX4 m c) := by
  refine ((outsOk m).h16 c).trans ?_
  rw [arrAt_out4 (E4 m (outsOf m)) c, E4_agg m (outsOf m) c, E4_x m (outsOf m) c, E4_Wr m (outsOf m) c, E4_Wroot m (outsOf m) c,
    E4_b m (outsOf m) c]
  rfl

/-! ## The chain -/

theorem kernel_value (m : (ℓ : Loc nD τ sig) → Buf (Elt Ideal) ℓ) (c : Dev nD) :
    outsOf m 16 main_v63 c
      = chain (fun X => aggOf (F := Ideal) X (srcOf (m ((c : Thread nD τ).loc main_arg1))) (dstOf (m ((c : Thread nD τ).loc main_arg1))))
          (kmat (m ((c : Thread nD τ).loc main_arg2))) (kmat (m ((c : Thread nD τ).loc main_arg4))) (kbias (m ((c : Thread nD τ).loc main_arg3)))
          (m ((c : Thread nD τ).loc main_arg0)) := by
  -- the layers' inputs, innermost first, each rewritten once into the next layer's formula
  have e1 : kX1 m c = layerRelu (aggK m c (kA0 m c)) (kA0 m c) (kmat (kA2 m c) 0) (kmat (kA4 m c) 0) (kbias (kA3 m c) 0) := out0_val m c
  have e2 := out1_val m c
  rw [e1] at e2
  have e3 := out2_val m c
  rw [e2] at e3
  have e4 := out3_val m c
  rw [e3] at e4
  have e5 := out4_val m c
  rw [e4] at e5
  exact e5

end Cert.KernelIdeal.Val

end
-- ==== Proof.Val.Final.lean ====
/-
  The two programs' results are equal.
  The reference program's result is the five-layer chain over the reference's aggregation, weight slices and bias
  rows of its arguments; the idealized kernel program's result is the same chain over the kernel program's
  aggregation, weight slices and bias rows of its arguments. The two memories agree on the five arguments. Under
  the precondition every source id of the edge list is a valid row index, so the kernel program's aggregation is
  the reference's; the weight slices and the bias rows of the two programs are the same arrays. A chain depends on
  its aggregation, weights and biases only through their values, so the two chains are equal.
-/
import proofs.«420102_j84559316123938_1_alg».proof.Defs
import proofs.«420102_j84559316123938_1_alg».proof.Proof.Val.Kernel
import proofs.«420102_j84559316123938_1_alg».proof.Proof.Val.Ref
import proofs.«420102_j84559316123938_1_alg».proof.Proof.Val.Bridge
import proofs.«420102_j84559316123938_1_alg».proof.Proof.Val.Range
import proofs.«420102_j84559316123938_1_alg».proof.Proof.Gen.Pre_finite_inputs

noncomputable section

namespace Cert.Final

open Idealize.ShloMosaic Idealize.SL.Sem

/-- A chain depends on its aggregation, weights and biases only through their values. -/
theorem chain_congr {agg agg' : Cert.Spec.Arr 100000 → Cert.Spec.Arr 100000} {Wr Wr' Wroot Wroot' : Fin 5 → Cert.Spec.Arr 128}
    {b b' : Fin 5 → Fin 128 → EReal} (X0 : Cert.Spec.Arr 100000)
    (hagg : ∀ X, agg X = agg' X) (hWr : Wr = Wr') (hWroot : Wroot = Wroot') (hb : b = b') :
    Cert.Spec.chain agg Wr Wroot b X0 = Cert.Spec.chain agg' Wr' Wroot' b' X0 := by
  have ha : agg = agg' := funext hagg
  subst ha hWr hWroot hb
  rfl

/-- From memories agreeing on the five arguments, under the precondition on the kernel program's memory, the
    reference program's result is the idealized kernel program's. -/
theorem value_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (c : Dev Cert.KernelIdeal.nD) :
    Cert.ReferenceIdeal.Value.res_main_v121 (F := Ideal) m' c = Cert.KernelIdeal.Hand.outsOf m 16 Cert.KernelIdeal.main_v63 c := by
  obtain ⟨h0, h1, h2, h3, h4⟩ := hagree c
  rw [Cert.ReferenceIdeal.Hand.ref_value m' c, h0, h1, h2, h3, h4, Cert.KernelIdeal.Val.kernel_value m c]
  exact (chain_congr _
    (fun X => Cert.Bridge.agg_eq X _ (Cert.KernelIdeal.Hand.inRange_of_pre (F := Ideal) _ _ _ _ _ (hpre c)))
    (Cert.Bridge.kmat_eq _) (Cert.Bridge.kmat_eq' _) (Cert.Bridge.kbias_eq _)).symm

end Cert.Final

end
-- ==== Proof.lean ====
/-
  Five GraphConv layers on a graph of 100000 nodes and 600000 edges: per layer the messages x[src] are summed into
  their destination nodes, then  y = agg · W_rel + b + x · W_root,  relu (layers 1 to 4) and the residual x
  (layers 2 to 5). The kernel's program computes the dense stage of each layer in a Pallas kernel over ten blocks of
  10000 nodes and leaves the gather and the scatter-add to the host; the reference is the same arithmetic in jnp.

  Both idealized programs compute, on the extended reals, the five-fold composition of the specification
  (Val/Spec.lean): at one element the kernel's matrix products into a zero accumulator and the host's dot_general
  are the same sums over the 128 features, added to the bias and to each other in the same order; the layers'
  weights are the same slices of the stacked arrays. The one place the two programs differ is the gather: the
  kernel's take replaces a row whose source id is no row of the table by a fill pattern, where the reference's
  index clamps. Under the precondition every source id is a valid index (-100000 ≤ id < 100000, NumPy's range),
  so the fill never happens and the two aggregations are one function; the scatter-add is the same operation in both.

  The frames: the program is five kernel regions among stretches of host operations. Each region's body runs on
  whole staging buffers (five or six loads, one store), its proof data take the arrays as the region finds them,
  and the regions chain through the buffer contents each leaves (KI/ for the idealized kernel, K/ for the word-level
  one). In regions 1 to 4 the layer's input is read through two windows (as matrix operand and as residual), so
  that array's share is halved between them at entry and joined at exit. The reference is a host program; its
  frame is its run with the result dropped. The ideal pass rewrote nothing, so preserves is trivial.
-/
import proofs.«420102_j84559316123938_1_alg».proof.Defs
import proofs.«420102_j84559316123938_1_alg».proof.Proof.Gen.Kernel
import proofs.«420102_j84559316123938_1_alg».proof.Proof.Gen.KernelIdeal
import proofs.«420102_j84559316123938_1_alg».proof.Proof.Gen.ReferenceIdeal
import proofs.«420102_j84559316123938_1_alg».proof.Proof.Gen.Pre_finite_inputs
import proofs.«420102_j84559316123938_1_alg».proof.Proof.Gen.ReferenceIdeal.Run
import proofs.«420102_j84559316123938_1_alg».proof.Proof.K.Frame
import proofs.«420102_j84559316123938_1_alg».proof.Proof.KI.Frame
import proofs.«420102_j84559316123938_1_alg».proof.Proof.KI.Run
import proofs.«420102_j84559316123938_1_alg».proof.Proof.Val.Final

noncomputable section

namespace Cert.Proof

open Idealize.ShloMosaic Idealize.SL.Sem

/-- The word-level kernel runs and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the five-layer chain's value. -/
theorem algebraic : Cert.algebraic_KernelIdeal_ReferenceIdeal := by
  intro m ρ m' ρ' hpre hagree
  refine ⟨fun c => Cert.KernelIdeal.Hand.outsOf m 16 Cert.KernelIdeal.main_v63 c, Cert.KernelIdeal.Hand.run_main m ρ, ?_⟩
  exact (θ_run Cert.ReferenceIdeal.defs _ _).mono
    (fun _ h c => ⟨(h c).1.trans (Cert.Final.value_eq m m' hpre hagree c), (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
